-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5_1)) (v1 : (c : Dev Cert.KernelIdeal.nD) → Buf (Elt Ideal) ((c.tc : Thread Cert.KernelIdeal.nD Cert.KernelIdeal.τ).loc Cert.KernelIdeal.main_v5_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_1) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S2x2048x128 : Shape := ⟨3, ![2, 2048, 128]⟩
abbrev S2x1x2048x2048 : Shape := ⟨4, ![2, 1, 2048, 2048]⟩
abbrev S2048x2048 : Shape := ⟨2, ![2048, 2048]⟩
abbrev S2048x1024 : Shape := ⟨2, ![2048, 1024]⟩
abbrev S128 : Shape := ⟨1, ![128]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S2x2048x128 : S_.BroadcastsInDim S2x2048x128 (![] : Fin 0 → Fin S2x2048x128.rank)
  reducesTo_S2x2048x128_S_d0_1_2 : S2x2048x128.ReducesTo [0, 1, 2] S_
  bcast_S_S2x1x2048x2048 : S_.BroadcastsInDim S2x1x2048x2048 (![] : Fin 0 → Fin S2x1x2048x2048.rank)
  reducesTo_S2x1x2048x2048_S_d0_1_2_3 : S2x1x2048x2048.ReducesTo [0, 1, 2, 3] S_
  bcast_S_S2048x2048 : S_.BroadcastsInDim S2048x2048 (![] : Fin 0 → Fin S2048x2048.rank)
  reducesTo_S2048x2048_S_d0_1 : S2048x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S2048x2048 .f32) (main_arg8 : FVec F S128 .f32) (main_arg9 : FVec F S128 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S2048x2048 .f32) (main_arg5 : FVec F S2048x1024 .f32) (main_arg6 : FVec F S2048x1024 .f32) (main_arg7 : FVec F S2048x2048 .f32) (main_arg8 : FVec F S128 .f32) (main_arg9 : FVec F S128 .f32) (main_v13 : IVec S_ 1) (main_v16 : IVec S2x1x2048x2048 1) : IVec S_ 1 :=
  let main_c_5 : IVec S_ 1 := constantI S_ 1 1#1
  let main_v17 : IVec S_ 1 := (fun x v => Host.reduce IntOp.andi x v reducesTo_S2x1x2048x2048_S_d0_1_2_3 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S2x2048x2048 .f32) (main_arg1 : FVec F S2x2048x128 .f32) (main_arg2 : FVec F S2x2048x128 .f32) (main_arg3 : FVec F S2x1x2048x2048 .f32) (main_arg4 : FVec F S2048x2048 .f32) (main_arg5 : FVec F S2048x1024 .f32) (main_arg6 : FVec F S2048x1024 .f32) (main_arg7 : FVec F S2048x2048 .f32) (main_arg8 : FVec F S128 .f32) (main_arg9 : FVec F S128 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S2x2048x128 .f32 := Host.absf main_arg1
  let main_cst_0 : FVec F S_ .f32 := constant S_ .f32 0x7F800000#32
  let main_v5 : FVec F S2x2048x128 .f32 := broadcastInDim S2x2048x128 ![] bcast_S_S2x2048x128 main_cst_0
  let main_v6 : IVec S2x2048x128 1 := cmpf .olt main_v4 main_v5
  let main_c_1 : IVec S_ 1 := constantI S_ 1 1#1
  let main_v7 : IVec S_ 1 := (fun x v => Host.reduce IntOp.andi x v reducesTo_S2x2048x128_S_d0_1_2 h_S_) main_v6 main_c_1
  let main_v8 : IVec S_ 1 := andi main_v3 main_v7
  let main_v9 : FVec F S2x2048x128 .f32 := Host.absf main_arg2
  let main_cst_2 : FVec F S_ .f32 := constant S_ .f32 0x7F800000#32
  let main_v10 : FVec F S2x2048x128 .f32 := broadcastInDim S2x2048x128 ![] bcast_S_S2x2048x128 main_cst_2
  let main_v11 : IVec S2x2048x128 1 := cmpf .olt main_v9 main_v10
  let main_c_3 : IVec S_ 1 := constantI S_ 1 1#1
  let main_v12 : IVec S_ 1 := (fun x v => Host.reduce IntOp.andi x v reducesTo_S2x2048x128_S_d0_1_2 h_S_) main_v11 main_c_3
  let main_v13 : IVec S_ 1 := andi main_v8 main_v12
  let main_v14 : FVec F S2x1x2048x2048 .f32 := Host.absf main_arg3
  let main_cst_4 : FVec F S_ .f32 := constant S_ .f32 0x7F800000#32
  let main_v15 : FVec F S2x1x2048x2048 .f32 := broadcastInDim S2x1x2048x2048 ![] bcast_S_S2x1x2048x2048 main_cst_4
  let main_v16 : IVec S2x1x2048x2048 1 := cmpf .olt main_v14 main_v15
  fn_part1 (F := F) main_arg4 main_arg5 main_arg6 main_arg7 main_arg8 main_arg9 main_v13 main_v16
-- ==== Kernel.lean ====
abbrev S2x2048x2048 : Shape := ⟨3, ![2, 2048, 2048]⟩
abbrev S2x2048x128 : Shape := ⟨3, ![2, 2048, 128]⟩
abbrev S2x1x2048x2048 : Shape := ⟨4, ![2, 1, 2048, 2048]⟩
abbrev S2048x2048 : Shape := ⟨2, ![2048, 2048]⟩
abbrev S2048x1024 : Shape := ⟨2, ![2048, 1024]⟩
abbrev S128 : Shape := ⟨1, ![128]⟩
abbrev S2x2048x1024 : Shape := ⟨3, ![2, 2048, 1024]⟩
abbrev S1x256x2048 : Shape := ⟨3, ![1, 256, 2048]⟩
abbrev S1x256x128 : Shape := ⟨3, ![1, 256, 128]⟩
abbrev S1x256x1024 : Shape := ⟨3, ![1, 256, 1024]⟩
abbrev S256x2048 : Shape := ⟨2, ![256, 2048]⟩
abbrev S256x1024 : Shape := ⟨2, ![256, 1024]⟩
abbrev S256x16x128 : Shape := ⟨3, ![256, 16, 128]⟩
abbrev S256x8x128 : Shape := ⟨3, ![256, 8, 128]⟩
abbrev S256x16 : Shape := ⟨2, ![256, 16]⟩
abbrev S256x16x1 : Shape := ⟨3, ![256, 16, 1]⟩
abbrev S1x1x128 : Shape := ⟨3, ![1, 1, 128]⟩
abbrev S256x8 : Shape := ⟨2, ![256, 8]⟩
abbrev S256x8x1 : Shape := ⟨3, ![256, 8, 1]⟩
abbrev S256x128 : Shape := ⟨2, ![256, 128]⟩
abbrev S256x1x128 : Shape := ⟨3, ![256, 1, 128]⟩
abbrev S256x16x64 : Shape := ⟨3, ![256, 16, 64]⟩
abbrev S256x8x64 : Shape := ⟨3, ![256, 8, 64]⟩
abbrev S2x16x2048x2048 : Shape := ⟨4, ![2, 16, 2048, 2048]⟩
abbrev S1x2048x128 : Shape := ⟨3, ![1, 2048, 128]⟩
abbrev S1x1x256x2048 : Shape := ⟨4, ![1, 1, 256, 2048]⟩
abbrev S2048x128 : Shape := ⟨2, ![2048, 128]⟩
abbrev S256 : Shape := ⟨1, ![256]⟩
abbrev S256x1 : Shape := ⟨2, ![256, 1]⟩
abbrev S128x2048 : Shape := ⟨2, ![128, 2048]⟩

abbrev nBuf : Space → Nat
  | .hbm => 19
  | .vmem => 31
  | .smem => 0
  | _ => 0

abbrev bufTy : (tb : Table) → Fin (tcTables nBuf tb) → BufTy
  | .hbm, ⟨0, _⟩ => ⟨S2x2048x2048, .f32⟩
  | .hbm, ⟨1, _⟩ => ⟨S2x2048x128, .f32⟩
  | .hbm, ⟨2, _⟩ => ⟨S2x2048x128, .f32⟩
  | .hbm, ⟨3, _⟩ => ⟨S2x1x2048x2048, .f32⟩
  | .hbm, ⟨4, _⟩ => ⟨S2048x2048, .f32⟩
  | .hbm, ⟨5, _⟩ => ⟨S2048x1024, .f32⟩
  | .hbm, ⟨6, _⟩ => ⟨S2048x1024, .f32⟩
  | .hbm, ⟨7, _⟩ => ⟨S2048x2048, .f32⟩
  | .hbm, ⟨8, _⟩ => ⟨S128, .f32⟩
  | .hbm, ⟨9, _⟩ => ⟨S128, .f32⟩
  | .hbm, ⟨10, _⟩ => ⟨S2048x2048, .bf16⟩
  | .hbm, ⟨11, _⟩ => ⟨S2048x1024, .bf16⟩
  | .hbm, ⟨12, _⟩ => ⟨S2048x1024, .bf16⟩
  | .hbm, ⟨13, _⟩ => ⟨S2048x2048, .bf16⟩
  | .hbm, ⟨14, _⟩ => ⟨S2x2048x2048, .bf16⟩
  | .hbm, ⟨15, _⟩ => ⟨S2x2048x1024, .bf16⟩
  | .hbm, ⟨16, _⟩ => ⟨S2x2048x1024, .bf16⟩
  | .hbm, ⟨17, _⟩ => ⟨S2x16x2048x2048, .f32⟩
  | .hbm, ⟨18, _⟩ => ⟨S2x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S2048x2048, .bf16⟩
  | .local _ .vmem, ⟨3, _⟩ => ⟨S2048x1024, .bf16⟩
  | .local _ .vmem, ⟨4, _⟩ => ⟨S2048x1024, .bf16⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S128, .f32⟩
  | .local _ .vmem, ⟨10, _⟩ => ⟨S128, .f32⟩
  | .local _ .vmem, ⟨11, _⟩ => ⟨S1x256x2048, .bf16⟩
  | .local _ .vmem, ⟨12, _⟩ => ⟨S1x256x2048, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x128, .bf16⟩
  | .local _ .vmem, ⟨18, _⟩ => ⟨S1x256x128, .bf16⟩
  | .local _ .vmem, ⟨19, _⟩ => ⟨S1x2048x128, .bf16⟩
  | .local _ .vmem, ⟨20, _⟩ => ⟨S1x2048x128, .bf16⟩
  | .local _ .vmem, ⟨21, _⟩ => ⟨S1x2048x128, .bf16⟩
  | .local _ .vmem, ⟨22, _⟩ => ⟨S1x2048x128, .bf16⟩
  | .local _ .vmem, ⟨23, _⟩ => ⟨S2048x2048, .bf16⟩
  | .local _ .vmem, ⟨24, _⟩ => ⟨S1x1x256x2048, .f32⟩
  | .local _ .vmem, ⟨25, _⟩ => ⟨S1x1x256x2048, .f32⟩
  | .local _ .vmem, ⟨26, _⟩ => ⟨S1x1x256x2048, .f32⟩
  | .local _ .vmem, ⟨27, _⟩ => ⟨S1x1x256x2048, .f32⟩
  | .local _ .vmem, ⟨28, _⟩ => ⟨S1x256x2048, .f32⟩
  | .local _ .vmem, ⟨29, _⟩ => ⟨S1x256x2048, .f32⟩
  | .local _ .vmem, ⟨30, _⟩ => ⟨S256x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v5_0 : Ref sig .tc := ⟨.hbm, 17, rfl⟩
abbrev main_v5_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨3, ![2, 8, 16], ![false, false, false]⟩

def k1_mult1 (i : grid1.Coords) : BitVec 32 :=
  let arg2 : BitVec 32 := BitVec.ofNat 32 (i 2).val
  let c128_i32 : BitVec 32 := 128#32
  let v32 : BitVec 32 := Scalar.muli arg2 c128_i32
  v32
def k1_off1 (i : grid1.Coords) : Fin 2 → Nat :=
  let arg2 : BitVec 32 := BitVec.ofNat 32 (i 2).val
  let c128_i32 : BitVec 32 := 128#32
  let v32 : BitVec 32 := Scalar.muli arg2 c128_i32
  let v33 : BitVec 32 := v32
  let v34 : Index := Scalar.indexCast v33
  let c0_22 : Index := 0#32
  ![v34.toNat, 0]
def k1_cond2 (i : grid1.Coords) : BitVec 1 :=
  let arg2 : BitVec 32 := BitVec.ofNat 32 (i 2).val
  let c15_i32 : BitVec 32 := 15#32
  let v43 : BitVec 1 := Scalar.cmpi .eq arg2 c15_i32
  let v44 : BitVec 32 := Scalar.extui v43
  let c0_i32_28 : BitVec 32 := 0#32
  let v45 : BitVec 1 := Scalar.cmpi .ne v44 c0_i32_28
  v45

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc1_transform_5 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 1 → Memref sig .tc .vmem S2048x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1x1x256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1x1x256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S1x256x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

class Facts₀ : Prop where
  bitsLt_bf16_f32 : FTy.bits .bf16 < FTy.bits .f32
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S256x2048_S256x16x128 : S256x2048.ShapeCasts S256x16x128
  shapeCasts_S256x1024_S256x8x128 : S256x1024.ShapeCasts S256x8x128
  inb_S128_S128_0 : ∀ a, (![0] : Fin 1 → Nat) a + S128.size a ≤ S128.size a
  h_S128 : 0 < S128.numel
  reduces_S256x16x128_S256x16 : S256x16x128.Reduces [2] S256x16
  shapeCasts_S256x16_S256x16x1 : S256x16.ShapeCasts S256x16x1
  broadcasts_S256x16x1_S256x16x128 : S256x16x1.Broadcasts S256x16x128
  shapeCasts_S128_S1x1x128 : S128.ShapeCasts S1x1x128
  broadcasts_S1x1x128_S256x16x128 : S1x1x128.Broadcasts S256x16x128
  reduces_S256x8x128_S256x8 : S256x8x128.Reduces [2] S256x8
  shapeCasts_S256x8_S256x8x1 : S256x8.ShapeCasts S256x8x1
  broadcasts_S256x8x1_S256x8x128 : S256x8x1.Broadcasts S256x8x128
  broadcasts_S1x1x128_S256x8x128 : S1x1x128.Broadcasts S256x8x128
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S256x1x128 : S256x128.ShapeCasts S256x1x128
  broadcasts_S256x1x128_S256x16x128 : S256x1x128.Broadcasts S256x16x128
  slices_S256x16x128_o0_0_0_S256x16x64 : S256x16x128.Slices ![0, 0, 0] S256x16x64
  slices_S256x16x128_o0_0_64_S256x16x64 : S256x16x128.Slices ![0, 0, 64] S256x16x64
  concatenates_S256x16x64_S256x16x64_S256x16x128_d2 : Shape.Concatenates [S256x16x64, S256x16x64] S256x16x128 2
  broadcasts_S256x1x128_S256x8x128 : S256x1x128.Broadcasts S256x8x128
  slices_S256x8x128_o0_0_0_S256x8x64 : S256x8x128.Slices ![0, 0, 0] S256x8x64
  slices_S256x8x128_o0_0_64_S256x8x64 : S256x8x128.Slices ![0, 0, 64] S256x8x64
  concatenates_S256x8x64_S256x8x64_S256x8x128_d2 : Shape.Concatenates [S256x8x64, S256x8x64] S256x8x128 2
  shapeCasts_S256x16x128_S256x2048 : S256x16x128.ShapeCasts S256x2048
  shapeCasts_S256x2048_S1x256x2048 : S256x2048.ShapeCasts S1x256x2048
  packedbf16_S1x256x2048_S1x256x2048_0_0_0 : (Rect.unit (s := S1x256x2048) ![0, 0, 0] S1x256x2048.size inb_S1x256x2048_S1x256x2048_0_0_0).PackedRows (EltTy.packing .bf16)
  shapeCasts_S256x8x128_S256x1024 : S256x8x128.ShapeCasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  packedbf16_S1x256x1024_S1x256x1024_0_0_0 : (Rect.unit (s := S1x256x1024) ![0, 0, 0] S1x256x1024.size inb_S1x256x1024_S1x256x1024_0_0_0).PackedRows (EltTy.packing .bf16)
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x1x256x2048_S1x1x256x2048_0_0_0_0 : ∀ a, (![0, 0, 0, 0] : Fin 4 → Nat) a + S1x1x256x2048.size a ≤ S1x1x256x2048.size a
  h_S1x1x256x2048 : 0 < S1x1x256x2048.numel
  shapeCasts_S1x1x256x2048_S256x2048 : S1x1x256x2048.ShapeCasts S256x2048
  reduces_S256x2048_S256 : S256x2048.Reduces [1] S256
  shapeCasts_S256_S256x1 : S256.ShapeCasts S256x1
  broadcasts_S256x1_S256x2048 : S256x1.Broadcasts S256x2048
  shapeCasts_S256x2048_S1x1x256x2048 : S256x2048.ShapeCasts S1x1x256x2048
  h_S128x2048 : 0 < S128x2048.numel
  shapeCasts_S128x2048_S128x2048 : S128x2048.ShapeCasts S128x2048
  dot_S256x2048_S2048x2048_S256x2048_1_0_0_1_n_n_wf : DotDims.WF S256x2048 S2048x2048 S256x2048 [1] [0] [0] [1] [] []
  dot_S256x2048_S2048x1024_S256x1024_1_0_0_1_n_n_wf : DotDims.WF S256x2048 S2048x1024 S256x1024 [1] [0] [0] [1] [] []
  dot_S256x128_S2048x128_S256x2048_1_1_0_0_n_n_wf : DotDims.WF S256x128 S2048x128 S256x2048 [1] [1] [0] [0] [] []
  dot_S256x2048_S2048x128_S256x128_1_0_0_1_n_n_wf : DotDims.WF S256x2048 S2048x128 S256x128 [1] [0] [0] [1] [] []
  dot_S256x128_S128x2048_S256x2048_1_0_0_1_n_n_wf : DotDims.WF S256x128 S128x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S2x2048x2048.size a
  hwx0_0 : ∀ i : grid0.Coords, EltTy.bits .f32 = 32 ∨ (Rect.block (s := S2x2048x2048) S1x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .bf16 = 32 ∨ (Rect.block (s := S2048x1024) S2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .bf16 = 32 ∨ (Rect.block (s := S2048x1024) S2048x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x128.size a ≤ S2x2048x128.size a
  hwx0_4 : ∀ i : grid0.Coords, EltTy.bits .f32 = 32 ∨ (Rect.block (s := S2x2048x128) S1x256x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x128.size a ≤ S2x2048x128.size a
  hwx0_5 : ∀ i : grid0.Coords, EltTy.bits .f32 = 32 ∨ (Rect.block (s := S2x2048x128) S1x256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x2048.size a ≤ S2x2048x2048.size a
  hwx0_8 : ∀ i : grid0.Coords, EltTy.bits .bf16 = 32 ∨ (Rect.block (s := S2x2048x2048) S1x256x2048.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x1024.size a ≤ S2x2048x1024.size a
  hwx0_9 : ∀ i : grid0.Coords, EltTy.bits .bf16 = 32 ∨ (Rect.block (s := S2x2048x1024) S1x256x1024.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256x1024.size a ≤ S2x2048x1024.size a
  hwx0_10 : ∀ i : grid0.Coords, EltTy.bits .bf16 = 32 ∨ (Rect.block (s := S2x2048x1024) S1x256x1024.size (cc0_transform_10 i) (hinb0_10 i)).WholeWords (EltTy.packing .bf16)
  hrank1 : 0 < grid1.rank
  k1_mult1_dvd : ∀ i : grid1.Coords, 128 ∣ (k1_mult1 i).toNat
  k1_off1_inb : ∀ i : grid1.Coords, ∀ a, (k1_off1 i) a + S128x2048.size a ≤ S2048x2048.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x128.size a ≤ S2x2048x2048.size a
  hwx1_0 : ∀ i : grid1.Coords, EltTy.bits .bf16 = 32 ∨ (Rect.block (s := S2x2048x2048) S1x256x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S2x2048x1024.size a
  hwx1_1 : ∀ i : grid1.Coords, EltTy.bits .bf16 = 32 ∨ (Rect.block (s := S2x2048x1024) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S2x2048x1024.size a
  hwx1_2 : ∀ i : grid1.Coords, EltTy.bits .bf16 = 32 ∨ (Rect.block (s := S2x2048x1024) S1x2048x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x2048.size a ≤ S2048x2048.size a
  hwx1_3 : ∀ i : grid1.Coords, EltTy.bits .bf16 = 32 ∨ (Rect.block (s := S2048x2048) S2048x2048.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x256x2048.size a ≤ S2x1x2048x2048.size a
  hwx1_4 : ∀ i : grid1.Coords, EltTy.bits .f32 = 32 ∨ (Rect.block (s := S2x1x2048x2048) S1x1x256x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x256x2048.size a ≤ S2x16x2048x2048.size a
  hwx1_5 : ∀ i : grid1.Coords, EltTy.bits .f32 = 32 ∨ (Rect.block (s := S2x16x2048x2048) S1x1x256x2048.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x2048.size a ≤ S2x2048x2048.size a
  hwx1_6 : ∀ i : grid1.Coords, EltTy.bits .f32 = 32 ∨ (Rect.block (s := S2x2048x2048) S1x256x2048.size (cc1_transform_6 i) (hinb1_6 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x128_S2048x128_S256x2048_1_1_0_0_n_n : DotDims S256x128 S2048x128 S256x2048 where
  lhsContracting := [1]
  rhsContracting := [1]
  lhsNonContracting := [0]
  rhsNonContracting := [0]
  lhsBatch := []
  rhsBatch := []
  wf := dot_S256x128_S2048x128_S256x2048_1_1_0_0_n_n_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf
def dot_S256x128_S128x2048_S256x2048_1_0_0_1_n_n : DotDims S256x128 S128x2048 S256x2048 where
  lhsContracting := [1]
  rhsContracting := [0]
  lhsNonContracting := [0]
  rhsNonContracting := [1]
  lhsBatch := []
  rhsBatch := []
  wf := dot_S256x128_S128x2048_S256x2048_1_0_0_1_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1x256x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S1x256x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4_0) S1x256x2048.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_1) S1x256x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_2) S1x256x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v4_0) S1x256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_2) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2048x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S1x1x256x2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5_0) S1x1x256x2048.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v5_1) S1x256x2048.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S2x2048x2048 : Shape := ⟨3, ![2, 2048, 2048]⟩
abbrev S2x2048x128 : Shape := ⟨3, ![2, 2048, 128]⟩
abbrev S2x1x2048x2048 : Shape := ⟨4, ![2, 1, 2048, 2048]⟩
abbrev S2048x2048 : Shape := ⟨2, ![2048, 2048]⟩
abbrev S2048x1024 : Shape := ⟨2, ![2048, 1024]⟩
abbrev S128 : Shape := ⟨1, ![128]⟩
abbrev S2x2048x16x128 : Shape := ⟨4, ![2, 2048, 16, 128]⟩
abbrev S2x2048x1024 : Shape := ⟨3, ![2, 2048, 1024]⟩
abbrev S2x2048x8x128 : Shape := ⟨4, ![2, 2048, 8, 128]⟩
abbrev S_ : Shape := ⟨0, ![]⟩
abbrev S2x2048x16 : Shape := ⟨3, ![2, 2048, 16]⟩
abbrev S2x2048x16x1 : Shape := ⟨4, ![2, 2048, 16, 1]⟩
abbrev S1x1x1x128 : Shape := ⟨4, ![1, 1, 1, 128]⟩
abbrev S2x16x2048x128 : Shape := ⟨4, ![2, 16, 2048, 128]⟩
abbrev S2x2048x8 : Shape := ⟨3, ![2, 2048, 8]⟩
abbrev S2x2048x8x1 : Shape := ⟨4, ![2, 2048, 8, 1]⟩
abbrev S2x8x2048x128 : Shape := ⟨4, ![2, 8, 2048, 128]⟩
abbrev S2x1x2048x128 : Shape := ⟨4, ![2, 1, 2048, 128]⟩
abbrev S2x16x2048x64 : Shape := ⟨4, ![2, 16, 2048, 64]⟩
abbrev S2x8x2048x64 : Shape := ⟨4, ![2, 8, 2048, 64]⟩
abbrev S2x8x2x2048x128 : Shape := ⟨5, ![2, 8, 2, 2048, 128]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 99
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048x128, .f32⟩
  | .hbm, ⟨2, _⟩ => ⟨S2x2048x128, .f32⟩
  | .hbm, ⟨3, _⟩ => ⟨S2x1x2048x2048, .f32⟩
  | .hbm, ⟨4, _⟩ => ⟨S2048x2048, .f32⟩
  | .hbm, ⟨5, _⟩ => ⟨S2048x1024, .f32⟩
  | .hbm, ⟨6, _⟩ => ⟨S2048x1024, .f32⟩
  | .hbm, ⟨7, _⟩ => ⟨S2048x2048, .f32⟩
  | .hbm, ⟨8, _⟩ => ⟨S128, .f32⟩
  | .hbm, ⟨9, _⟩ => ⟨S128, .f32⟩
  | .hbm, ⟨10, _⟩ => ⟨S2x2048x2048, .f32⟩
  | .hbm, ⟨11, _⟩ => ⟨S2x2048x16x128, .f32⟩
  | .hbm, ⟨12, _⟩ => ⟨S2x2048x1024, .f32⟩
  | .hbm, ⟨13, _⟩ => ⟨S2x2048x8x128, .f32⟩
  | .hbm, ⟨14, _⟩ => ⟨S2x2048x1024, .f32⟩
  | .hbm, ⟨15, _⟩ => ⟨S2x2048x8x128, .f32⟩
  | .hbm, ⟨16, _⟩ => ⟨S2x2048x16x128, .f32⟩
  | .hbm, ⟨17, _⟩ => ⟨S_, .f32⟩
  | .hbm, ⟨18, _⟩ => ⟨S2x2048x16, .f32⟩
  | .hbm, ⟨19, _⟩ => ⟨S2x2048x16x1, .f32⟩
  | .hbm, ⟨20, _⟩ => ⟨S_, .f32⟩
  | .hbm, ⟨21, _⟩ => ⟨S2x2048x16x1, .f32⟩
  | .hbm, ⟨22, _⟩ => ⟨S2x2048x16x1, .f32⟩
  | .hbm, ⟨23, _⟩ => ⟨S_, .f32⟩
  | .hbm, ⟨24, _⟩ => ⟨S2x2048x16x1, .f32⟩
  | .hbm, ⟨25, _⟩ => ⟨S2x2048x16x1, .f32⟩
  | .hbm, ⟨26, _⟩ => ⟨S2x2048x16x1, .f32⟩
  | .hbm, ⟨27, _⟩ => ⟨S2x2048x16x128, .f32⟩
  | .hbm, ⟨28, _⟩ => ⟨S2x2048x16x128, .f32⟩
  | .hbm, ⟨29, _⟩ => ⟨S1x1x1x128, .f32⟩
  | .hbm, ⟨30, _⟩ => ⟨S2x2048x16x128, .f32⟩
  | .hbm, ⟨31, _⟩ => ⟨S2x2048x16x128, .f32⟩
  | .hbm, ⟨32, _⟩ => ⟨S2x16x2048x128, .f32⟩
  | .hbm, ⟨33, _⟩ => ⟨S2x2048x8x128, .f32⟩
  | .hbm, ⟨34, _⟩ => ⟨S_, .f32⟩
  | .hbm, ⟨35, _⟩ => ⟨S2x2048x8, .f32⟩
  | .hbm, ⟨36, _⟩ => ⟨S2x2048x8x1, .f32⟩
  | .hbm, ⟨37, _⟩ => ⟨S_, .f32⟩
  | .hbm, ⟨38, _⟩ => ⟨S2x2048x8x1, .f32⟩
  | .hbm, ⟨39, _⟩ => ⟨S2x2048x8x1, .f32⟩
  | .hbm, ⟨40, _⟩ => ⟨S_, .f32⟩
  | .hbm, ⟨41, _⟩ => ⟨S2x2048x8x1, .f32⟩
  | .hbm, ⟨42, _⟩ => ⟨S2x2048x8x1, .f32⟩
  | .hbm, ⟨43, _⟩ => ⟨S2x2048x8x1, .f32⟩
  | .hbm, ⟨44, _⟩ => ⟨S2x2048x8x128, .f32⟩
  | .hbm, ⟨45, _⟩ => ⟨S2x2048x8x128, .f32⟩
  | .hbm, ⟨46, _⟩ => ⟨S1x1x1x128, .f32⟩
  | .hbm, ⟨47, _⟩ => ⟨S2x2048x8x128, .f32⟩
  | .hbm, ⟨48, _⟩ => ⟨S2x2048x8x128, .f32⟩
  | .hbm, ⟨49, _⟩ => ⟨S2x8x2048x128, .f32⟩
  | .hbm, ⟨50, _⟩ => ⟨S2x8x2048x128, .f32⟩
  | .hbm, ⟨51, _⟩ => ⟨S2x1x2048x128, .f32⟩
  | .hbm, ⟨52, _⟩ => ⟨S2x1x2048x128, .f32⟩
  | .hbm, ⟨53, _⟩ => ⟨S2x16x2048x128, .f32⟩
  | .hbm, ⟨54, _⟩ => ⟨S2x16x2048x128, .f32⟩
  | .hbm, ⟨55, _⟩ => ⟨S2x16x2048x64, .f32⟩
  | .hbm, ⟨56, _⟩ => ⟨S2x16x2048x64, .f32⟩
  | .hbm, ⟨57, _⟩ => ⟨S2x16x2048x64, .f32⟩
  | .hbm, ⟨58, _⟩ => ⟨S2x16x2048x128, .f32⟩
  | .hbm, ⟨59, _⟩ => ⟨S2x16x2048x128, .f32⟩
  | .hbm, ⟨60, _⟩ => ⟨S2x16x2048x128, .f32⟩
  | .hbm, ⟨61, _⟩ => ⟨S2x16x2048x128, .f32⟩
  | .hbm, ⟨62, _⟩ => ⟨S2x8x2048x128, .f32⟩
  | .hbm, ⟨63, _⟩ => ⟨S2x8x2048x128, .f32⟩
  | .hbm, ⟨64, _⟩ => ⟨S2x8x2048x64, .f32⟩
  | .hbm, ⟨65, _⟩ => ⟨S2x8x2048x64, .f32⟩
  | .hbm, ⟨66, _⟩ => ⟨S2x8x2048x64, .f32⟩
  | .hbm, ⟨67, _⟩ => ⟨S2x8x2048x128, .f32⟩
  | .hbm, ⟨68, _⟩ => ⟨S2x8x2048x128, .f32⟩
  | .hbm, ⟨69, _⟩ => ⟨S2x8x2048x128, .f32⟩
  | .hbm, ⟨70, _⟩ => ⟨S2x8x2048x128, .f32⟩
  | .hbm, ⟨71, _⟩ => ⟨S2x8x2x2048x128, .f32⟩
  | .hbm, ⟨72, _⟩ => ⟨S2x16x2048x128, .f32⟩
  | .hbm, ⟨73, _⟩ => ⟨S2x8x2x2048x128, .f32⟩
  | .hbm, ⟨74, _⟩ => ⟨S2x16x2048x128, .f32⟩
  | .hbm, ⟨75, _⟩ => ⟨S2x16x2048x2048, .f32⟩
  | .hbm, ⟨76, _⟩ => ⟨S_, .f32⟩
  | .hbm, ⟨77, _⟩ => ⟨S2x16x2048x2048, .f32⟩
  | .hbm, ⟨78, _⟩ => ⟨S2x16x2048x2048, .f32⟩
  | .hbm, ⟨79, _⟩ => ⟨S2x16x2048x2048, .f32⟩
  | .hbm, ⟨80, _⟩ => ⟨S2x16x2048x2048, .f32⟩
  | .hbm, ⟨81, _⟩ => ⟨S_, .f32⟩
  | .hbm, ⟨82, _⟩ => ⟨S2x16x2048, .f32⟩
  | .hbm, ⟨83, _⟩ => ⟨S_, .f32⟩
  | .hbm, ⟨84, _⟩ => ⟨S2x16x2048, .f32⟩
  | .hbm, ⟨85, _⟩ => ⟨S2x16x2048, .f32⟩
  | .hbm, ⟨86, _⟩ => ⟨S2x16x2048x1, .f32⟩
  | .hbm, ⟨87, _⟩ => ⟨S2x16x2048x2048, .f32⟩
  | .hbm, ⟨88, _⟩ => ⟨S2x16x2048x2048, .f32⟩
  | .hbm, ⟨89, _⟩ => ⟨S2x16x2048x2048, .f32⟩
  | .hbm, ⟨90, _⟩ => ⟨S_, .f32⟩
  | .hbm, ⟨91, _⟩ => ⟨S2x16x2048, .f32⟩
  | .hbm, ⟨92, _⟩ => ⟨S2x16x2048x1, .f32⟩
  | .hbm, ⟨93, _⟩ => ⟨S2x16x2048x2048, .f32⟩
  | .hbm, ⟨94, _⟩ => ⟨S2x16x2048x2048, .f32⟩
  | .hbm, ⟨95, _⟩ => ⟨S2x16x2048x128, .f32⟩
  | .hbm, ⟨96, _⟩ => ⟨S2x2048x16x128, .f32⟩
  | .hbm, ⟨97, _⟩ => ⟨S2x2048x2048, .f32⟩
  | .hbm, ⟨98, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_5 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_6 : Ref sig .tc := ⟨.hbm, 81, rfl⟩
abbrev main_v64 : Ref sig .tc := ⟨.hbm, 82, rfl⟩
abbrev main_cst_7 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_8 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩

abbrev nD : Nat := 1
abbrev τ : Topo := Topo.v7x

variable {F : FTy → Type} [FloatOps F]

class Facts₀ : Prop where
  shapeCasts_S2x2048x2048_S2x2048x16x128 : S2x2048x2048.ShapeCasts S2x2048x16x128
  shapeCasts_S2x2048x1024_S2x2048x8x128 : S2x2048x1024.ShapeCasts S2x2048x8x128
  reducesTo_S2x2048x16x128_S2x2048x16_d3 : S2x2048x16x128.ReducesTo [3] S2x2048x16
  h_S_ : 0 < S_.numel
  bcast_S2x2048x16_S2x2048x16x1_0_1_2 : S2x2048x16.BroadcastsInDim S2x2048x16x1 (![0, 1, 2] : Fin 3 → Fin S2x2048x16x1.rank)
  bcast_S_S2x2048x16x1 : S_.BroadcastsInDim S2x2048x16x1 (![] : Fin 0 → Fin S2x2048x16x1.rank)
  bcast_S2x2048x16x1_S2x2048x16x128_0_1_2_3 : S2x2048x16x1.BroadcastsInDim S2x2048x16x128 (![0, 1, 2, 3] : Fin 4 → Fin S2x2048x16x128.rank)
  bcast_S128_S1x1x1x128_3 : S128.BroadcastsInDim S1x1x1x128 (![3] : Fin 1 → Fin S1x1x1x128.rank)
  bcast_S1x1x1x128_S2x2048x16x128_0_1_2_3 : S1x1x1x128.BroadcastsInDim S2x2048x16x128 (![0, 1, 2, 3] : Fin 4 → Fin S2x2048x16x128.rank)
  transposes_S2x2048x16x128_S2x16x2048x128_0_2_1_3 : S2x2048x16x128.Transposes [0, 2, 1, 3] S2x16x2048x128
  reducesTo_S2x2048x8x128_S2x2048x8_d3 : S2x2048x8x128.ReducesTo [3] S2x2048x8
  bcast_S2x2048x8_S2x2048x8x1_0_1_2 : S2x2048x8.BroadcastsInDim S2x2048x8x1 (![0, 1, 2] : Fin 3 → Fin S2x2048x8x1.rank)
  bcast_S_S2x2048x8x1 : S_.BroadcastsInDim S2x2048x8x1 (![] : Fin 0 → Fin S2x2048x8x1.rank)
  bcast_S2x2048x8x1_S2x2048x8x128_0_1_2_3 : S2x2048x8x1.BroadcastsInDim S2x2048x8x128 (![0, 1, 2, 3] : Fin 4 → Fin S2x2048x8x128.rank)
  bcast_S1x1x1x128_S2x2048x8x128_0_1_2_3 : S1x1x1x128.BroadcastsInDim S2x2048x8x128 (![0, 1, 2, 3] : Fin 4 → Fin S2x2048x8x128.rank)
  transposes_S2x2048x8x128_S2x8x2048x128_0_2_1_3 : S2x2048x8x128.Transposes [0, 2, 1, 3] S2x8x2048x128
  bcast_S2x2048x128_S2x1x2048x128_0_2_3 : S2x2048x128.BroadcastsInDim S2x1x2048x128 (![0, 2, 3] : Fin 3 → Fin S2x1x2048x128.rank)
  bcast_S2x1x2048x128_S2x16x2048x128_0_1_2_3 : S2x1x2048x128.BroadcastsInDim S2x16x2048x128 (![0, 1, 2, 3] : Fin 4 → Fin S2x16x2048x128.rank)
  slices_S2x16x2048x128_S2x16x2048x64_0_0_0_0 : S2x16x2048x128.Slices ![0, 0, 0, 0] S2x16x2048x64
  slices_S2x16x2048x128_S2x16x2048x64_0_0_0_64 : S2x16x2048x128.Slices ![0, 0, 0, 64] S2x16x2048x64
  concatenates_S2x16x2048x64_S2x16x2048x64_S2x16x2048x128_d3 : Shape.Concatenates [S2x16x2048x64, S2x16x2048x64] S2x16x2048x128 3
  bcast_S2x1x2048x128_S2x8x2048x128_0_1_2_3 : S2x1x2048x128.BroadcastsInDim S2x8x2048x128 (![0, 1, 2, 3] : Fin 4 → Fin S2x8x2048x128.rank)
  slices_S2x8x2048x128_S2x8x2048x64_0_0_0_0 : S2x8x2048x128.Slices ![0, 0, 0, 0] S2x8x2048x64
  slices_S2x8x2048x128_S2x8x2048x64_0_0_0_64 : S2x8x2048x128.Slices ![0, 0, 0, 64] S2x8x2048x64
  concatenates_S2x8x2048x64_S2x8x2048x64_S2x8x2048x128_d3 : Shape.Concatenates [S2x8x2048x64, S2x8x2048x64] S2x8x2048x128 3
  bcast_S2x8x2048x128_S2x8x2x2048x128_0_1_3_4 : S2x8x2048x128.BroadcastsInDim S2x8x2x2048x128 (![0, 1, 3, 4] : Fin 4 → Fin S2x8x2x2048x128.rank)
  shapeCasts_S2x8x2x2048x128_S2x16x2048x128 : S2x8x2x2048x128.ShapeCasts S2x16x2048x128
  bcast_S_S2x16x2048x2048 : S_.BroadcastsInDim S2x16x2048x2048 (![] : Fin 0 → Fin S2x16x2048x2048.rank)
  bcast_S2x1x2048x2048_S2x16x2048x2048_0_1_2_3 : S2x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x128_S2x2048x16x128_0_2_1_3 : S2x16x2048x128.Transposes [0, 2, 1, 3] S2x2048x16x128
  shapeCasts_S2x2048x16x128_S2x2048x2048 : S2x2048x16x128.ShapeCasts S2x2048x2048
  dot_S2x2048x2048_S2048x2048_S2x2048x2048_2_0_01_1_n_n_wf : DotDims.WF S2x2048x2048 S2048x2048 S2x2048x2048 [2] [0] [0, 1] [1] [] []
  dot_S2x2048x2048_S2048x1024_S2x2048x1024_2_0_01_1_n_n_wf : DotDims.WF S2x2048x2048 S2048x1024 S2x2048x1024 [2] [0] [0, 1] [1] [] []
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]

variable [Facts₀]

def dot_S2x2048x2048_S2048x2048_S2x2048x2048_2_0_01_1_n_n : DotDims S2x2048x2048 S2048x2048 S2x2048x2048 where
  lhsContracting := [2]
  rhsContracting := [0]
  lhsNonContracting := [0, 1]
  rhsNonContracting := [1]
  lhsBatch := []
  rhsBatch := []
  wf := dot_S2x2048x2048_S2048x2048_S2x2048x2048_2_0_01_1_n_n_wf
def dot_S2x2048x2048_S2048x1024_S2x2048x1024_2_0_01_1_n_n : DotDims S2x2048x2048 S2048x1024 S2x2048x1024 where
  lhsContracting := [2]
  rhsContracting := [0]
  lhsNonContracting := [0, 1]
  rhsNonContracting := [1]
  lhsBatch := []
  rhsBatch := []
  wf := dot_S2x2048x2048_S2048x1024_S2x2048x1024_2_0_01_1_n_n_wf
def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf

class Facts : Prop extends Facts₀ where

variable [Facts]
-- ==== Proof.ProjFrameBits.lean ====
import proofs.«420301_j24240795419151_3_alg».proof.Proof.Gen.Kernel.Launch
import proofs.«420301_j24240795419151_3_alg».proof.Proof.Gen.Kernel.Skeleton
import proofs.«420301_j24240795419151_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The projection region, block by block

The first region of the layer projects a block of 256 hidden-state rows to its query, key and value rows:
three matrix products against the whole weight matrices, a per-head root-mean-square normalisation of the
query and key rows, and the rotary embedding of both by the block's cosine and sine rows. Its grid has 16
points (2 batches by 8 row blocks); at each point the body reads eight blocks (hidden states, the three
weight matrices, cosines, sines, the two normalisation weights) and fills three (query, key, value rows).

This file states, at ANY contents `V` of the core's arrays when the region is entered and at any float
model `F`, what the body leaves at a point as a closed function of the eight blocks read there, and proves
that the body meets it at every point of the grid.
-/

set_option maxRecDepth 16384

noncomputable section

namespace Cert.Kernel.Proj

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's array contents when the region is entered
variable (V : (c : Dev nD) → (b : Ref sig .tc) → Buf (Elt F) ((c : Thread nD τ).loc b))

/-! ## The blocks read at a point -/

/-- Window `w`'s block at point `t`: the part of its array, as the region finds it, that the window's index
    map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input's buffer holds its block at every point

The body never writes an input's buffer, so what it leaves there is the block it found. A point at which the
block index did not move fetches nothing, and the buffer still holds the previous point's block, which is
this point's: the weights and the normalisation vectors are fetched once, the hidden states, cosines and
sines at every point, and one statement covers both. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through: each the whole of its buffer -/

abbrev rH : Rect S1x256x2048 := Rect.unit (s := S1x256x2048) ![0, 0, 0] S1x256x2048.size inb_S1x256x2048_S1x256x2048_0_0_0
abbrev rWq : Rect S2048x2048 := Rect.unit (s := S2048x2048) ![0, 0] S2048x2048.size inb_S2048x2048_S2048x2048_0_0
abbrev rWkv : Rect S2048x1024 := Rect.unit (s := S2048x1024) ![0, 0] S2048x1024.size inb_S2048x1024_S2048x1024_0_0
abbrev rCS : Rect S1x256x128 := Rect.unit (s := S1x256x128) ![0, 0, 0] S1x256x128.size inb_S1x256x128_S1x256x128_0_0_0
abbrev rN : Rect S128 := Rect.unit (s := S128) ![0] S128.size inb_S128_S128_0
abbrev rKV : Rect S1x256x1024 := Rect.unit (s := S1x256x1024) ![0, 0, 0] S1x256x1024.size inb_S1x256x1024_S1x256x1024_0_0_0

/-! ## What the body leaves in each output buffer

Each output buffer is written once, whole; what is left is the store's payload, a function of the blocks read. -/

/-- The query rows: the hidden states times the query weights, normalised per head by the query
    normalisation weight, rotated by the cosines and sines, rounded to bf16. -/
def out0_8 (x0 : Vec F S1x256x2048 .f32) (x1 : Vec F S2048x2048 .bf16) (x4 x5 : Vec F S1x256x128 .f32) (x6 : Vec F S128 .f32) : Vec F S1x256x2048 .bf16 :=
  View.canon [⟨rH, k0_pay9 (k0_pay5 (View.ld x0 rH) (View.ld x1 rWq) (View.ld x6 rN)) (View.ld x4 rCS) (View.ld x5 rCS)⟩]

/-- The key rows: the same with the key weights and the key normalisation weight. -/
def out0_9 (x0 : Vec F S1x256x2048 .f32) (x2 : Vec F S2048x1024 .bf16) (x4 x5 : Vec F S1x256x128 .f32) (x7 : Vec F S128 .f32) : Vec F S1x256x1024 .bf16 :=
  View.canon [⟨rKV, k0_pay10 (k0_pay3 (View.ld x0 rH) (View.ld x2 rWkv)) (View.ld x7 rN) (k0_pay6 (View.ld x0 rH) (View.ld x2 rWkv)) (View.ld x4 rCS) (View.ld x5 rCS)⟩]

/-- The value rows: the hidden states times the value weights, rounded to bf16. -/
def out0_10 (x0 : Vec F S1x256x2048 .f32) (x3 : Vec F S2048x1024 .bf16) : Vec F S1x256x1024 .bf16 :=
  View.canon [⟨rKV, k0_pay1 (k0_pay11 (k0_pay4 (View.ld x0 rH) (View.ld x3 rWkv)))⟩]

/-- A whole-buffer store covers its buffer. -/
theorem cover0_8 (p0 : Vec F S1x256x2048 .bf16) (y : S1x256x2048.Idx) :
    ∃ pc ∈ ([⟨rH, p0⟩] : List (View.Piece (Elt F) S1x256x2048 .bf16)), y ∈ pc.1.set :=
  View.cover_of_tiled [⟨rH, p0⟩] S1x256x2048.size (by rfl) y

theorem cover0_9 (p0 : Vec F S1x256x1024 .bf16) (y : S1x256x1024.Idx) :
    ∃ pc ∈ ([⟨rKV, p0⟩] : List (View.Piece (Elt F) S1x256x1024 .bf16)), y ∈ pc.1.set :=
  View.cover_of_tiled [⟨rKV, p0⟩] S1x256x1024.size (by rfl) y

/-! ## The body on whole buffers

The body, run on eleven whole buffers of which the first eight read `x0 … x7` and the last three hold anything,
returns the eight as they were and the three at `out0_8`, `out0_9`, `out0_10` of what was read. It reads each
input once, whole; before each store it reads the output buffer it is about to overwrite, and drops the value. -/

set_option maxHeartbeats 4000000 in
theorem sound_kernel0 (c : Dev nD) (E : Set ℕ) (i : grid0.Coords) (a0 : Memref sig .tc .vmem S1x256x2048 .f32) (h0 : a0.IsWhole) (a1 : Memref sig .tc .vmem S2048x2048 .bf16) (h1 : a1.IsWhole) (a2 : Memref sig .tc .vmem S2048x1024 .bf16) (h2 : a2.IsWhole) (a3 : Memref sig .tc .vmem S2048x1024 .bf16) (h3 : a3.IsWhole) (a4 : Memref sig .tc .vmem S1x256x128 .f32) (h4 : a4.IsWhole) (a5 : Memref sig .tc .vmem S1x256x128 .f32) (h5 : a5.IsWhole) (a6 : Memref sig .tc .vmem S128 .f32) (h6 : a6.IsWhole) (a7 : Memref sig .tc .vmem S128 .f32) (h7 : a7.IsWhole) (a8 : Memref sig .tc .vmem S1x256x2048 .bf16) (h8 : a8.IsWhole) (a9 : Memref sig .tc .vmem S1x256x1024 .bf16) (h9 : a9.IsWhole) (a10 : Memref sig .tc .vmem S1x256x1024 .bf16) (h10 : a10.IsWhole)
    (x0 : Vec F S1x256x2048 .f32) (x1 : Vec F S2048x2048 .bf16) (x2 : Vec F S2048x1024 .bf16) (x3 : Vec F S2048x1024 .bf16) (x4 : Vec F S1x256x128 .f32) (x5 : Vec F S1x256x128 .f32) (x6 : Vec F S128 .f32) (x7 : Vec F S128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
        ∗ (∃ d, owns (c : Thread nD τ) a8 fullShare d) ∗ (∃ d, owns (c : Thread nD τ) a9 fullShare d) ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
            ∗ owns (c : Thread nD τ) a8 fullShare (out0_8 x0 x1 x4 x5 x6) ∗ owns (c : Thread nD τ) a9 fullShare (out0_9 x0 x2 x4 x5 x7) ∗ owns (c : Thread nD τ) a10 fullShare (out0_10 x0 x3)) -∗ K ⟨⟩))
      ⊢ wp frame (wpE (defs₀ (F := F)) Variants.none c none) E (cc0__proj_kernel i a0 h0 a1 h1 a2 h2 a3 h3 a4 h4 a5 h5 a6 h6 a7 h7 a8 h8 a9 h9 a10 h10) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_8 _)
  isplitl [H9]
  · iexists _; isplitr
    swap; · iexact H9
    ipureintro
    exact View.read_writes_eq_canon _ _ _ (cover0_9 _)
  iexists _; isplitr
  swap; · iexact H10
  ipureintro
  exact View.read_writes_eq_canon _ _ _ (cover0_9 _)

/-! ## The region's proof data -/

/-- The arrays as the region finds them; after the body at point `t`, each input's buffer at its block and each
    output's at the closed form of the blocks read there; the invariant the plain one (the other scoped buffers
    and the generator register, untouched); full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 4 t) (iblk0 V c 5 t) (iblk0 V c 6 t)
    | ⟨9, _⟩ => out0_9 (iblk0 V c 0 t) (iblk0 V c 2 t) (iblk0 V c 4 t) (iblk0 V c 5 t) (iblk0 V c 7 t)
    | ⟨10, _⟩ => out0_10 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 4 t) (iblk0 V c 5 t) (iblk0 V c 6 t) := by dsimp only [dat0]
theorem after0_9 (c : Dev nD) (t : Fin cfg0.N) : (dat0 V c).after 9 t = out0_9 (iblk0 V c 0 t) (iblk0 V c 2 t) (iblk0 V c 4 t) (iblk0 V c 5 t) (iblk0 V c 7 t) := by dsimp only [dat0]
theorem after0_10 (c : Dev nD) (t : Fin cfg0.N) : (dat0 V c).after 10 t = out0_10 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation -/

/-- What the body is handed at point `t`: the invariant, the core's debt, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 4000000 in
/-- At any point the inputs' buffers hold their blocks, so the body's triple on whole buffers applies; the
    invariant and the debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation0 (c : Dev nD) : BodyObligation (dat0 (F := F) V c) (defs₀ (F := F)) Variants.none () Set.univ := fun t => by
  rw [bigSep_W0, bigSep_W0]
  exact sound_body0 V c t

end Cert.Kernel.Proj

end
-- ==== Proof.AttnFrameBits.lean ====
/-
  The frame half of the attention region, at any float family.

  The region walks a grid of batch × query block × head, the head innermost. At each point the body reads a block of
  queries, the head's keys and values, the whole output weight and a block of the mask; it stores the softmax of the
  scaled, masked scores into the weights' window, and adds the head's term of the output projection — the weighted
  values times the 128 rows of the output weight that belong to the head — into an accumulator the body keeps between
  points. The accumulator is zeroed at head 0 and copied to the output window at head 15; at the other heads the output
  window is left as it was found and is not written back.

  Stated here, at a parameter `V` (what the arrays hold when the region is entered): each window's block at a point;
  what the three kinds of point leave in the two output windows and in the accumulator, as functions of the blocks; the
  accumulator after each point, by recursion on the point; the invariant that carries it; the proof data and the body's
  obligation at every point; and that the invariant starts from and gives back what the launch hands the region.
-/
import proofs.«420301_j24240795419151_3_alg».proof.Proof.Gen.Kernel.Launch
import proofs.«420301_j24240795419151_3_alg».proof.Proof.Gen.Kernel.Skeleton
import proofs.«420301_j24240795419151_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.AttnR

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A rectangle that is the whole shape

Every buffer but the output weight is read and written whole: through the rectangle at zero offsets of the shape's own
extents. Every index lies in it, a load through it reads the contents, a store through it leaves its payload whatever
was stored before, and a load of what one such store left reads that payload. -/

section Whole

variable {Val : EltTy → Type} {S : Shape} {e : EltTy}

theorem mem_whole {off : Fin S.rank → ℕ} (h : off = fun _ => 0) (inb : ∀ a, off a + S.size a ≤ S.size a) (y : S.Idx) :
    y ∈ (Rect.unit off S.size inb).set := by
  subst h
  show y ∈ (Rect.whole S).set
  rw [Rect.set_whole]
  exact Finset.mem_univ y

theorem ld_whole {off : Fin S.rank → ℕ} (h : off = fun _ => 0) (inb : ∀ a, off a + S.size a ≤ S.size a)
    (X : S.Idx → Val e) : View.ld X (Rect.unit off S.size inb) = X := by
  subst h
  funext x
  show X ((Rect.whole S).emb x) = X x
  rw [Rect.emb_whole_apply]

theorem canon_cons_whole [∀ e, Nonempty (Val e)] {off : Fin S.rank → ℕ} (h : off = fun _ => 0)
    (inb : ∀ a, off a + S.size a ≤ S.size a) (w : S.Idx → Val e) (L : List (View.Piece Val S e)) :
    View.canon ((⟨Rect.unit off S.size inb, w⟩ : View.Piece Val S e) :: L) = w := by
  subst h
  funext y
  have hy := View.canon_cons_emb (Val := Val) (Rect.whole S) w L y
  rw [Rect.emb_whole_apply] at hy
  exact hy

theorem cover_whole {off : Fin S.rank → ℕ} (h : off = fun _ => 0) (inb : ∀ a, off a + S.size a ≤ S.size a)
    (w : S.Idx → Val e) (L : List (View.Piece Val S e)) (y : S.Idx) :
    ∃ p ∈ ((⟨Rect.unit off S.size inb, w⟩ : View.Piece Val S e) :: L), y ∈ p.1.set :=
  ⟨_, List.mem_cons_self, mem_whole h inb y⟩

theorem readCov_whole [∀ e, Nonempty (Val e)] {sig : RefSig} {κ : Kind} {sp : Space} (v : View sig κ sp S e)
    {off : Fin S.rank → ℕ} (h : off = fun _ => 0) (inb : ∀ a, off a + S.size a ≤ S.size a) (w : S.Idx → Val e)
    (L : List (View.Piece Val S e)) :
    v.readCov ((⟨Rect.unit off S.size inb, w⟩ : View.Piece Val S e) :: L) (Rect.unit off S.size inb).toLoadRect = w := by
  rw [View.readCov_eq_canon_ld v _ _ (cover_whole h inb w L), canon_cons_whole h inb, ld_whole h inb]

theorem z2 : (![0, 0] : Fin 2 → ℕ) = fun _ => 0 := by funext a; fin_cases a <;> rfl
theorem z3 : (![0, 0, 0] : Fin 3 → ℕ) = fun _ => 0 := by funext a; fin_cases a <;> rfl
theorem z4 : (![0, 0, 0, 0] : Fin 4 → ℕ) = fun _ => 0 := by funext a; fin_cases a <;> rfl

end Whole

variable (V : (c : Dev nD) → (b : Ref sig .tc) → Buf (Elt F) ((c : Thread nD τ).loc b))

/-- Window `w`'s block at point `t`, read off its array at the region-entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body reads and writes through: each buffer whole, and the 128 rows of the output weight
that belong to the point's head. -/

abbrev rQ : Rect S1x256x128 := Rect.unit (s := S1x256x128) ![0, 0, 0] S1x256x128.size inb_S1x256x128_S1x256x128_0_0_0
abbrev rK : Rect S1x2048x128 := Rect.unit (s := S1x2048x128) ![0, 0, 0] S1x2048x128.size inb_S1x2048x128_S1x2048x128_0_0_0
abbrev rM : Rect S1x1x256x2048 := Rect.unit (s := S1x1x256x2048) ![0, 0, 0, 0] S1x1x256x2048.size inb_S1x1x256x2048_S1x1x256x2048_0_0_0_0
abbrev rS : Rect S256x2048 := Rect.unit (s := S256x2048) ![0, 0] S256x2048.size inb_S256x2048_S256x2048_0_0
abbrev rO : Rect S1x256x2048 := Rect.unit (s := S1x256x2048) ![0, 0, 0] S1x256x2048.size inb_S1x256x2048_S1x256x2048_0_0_0
abbrev rW (i : grid1.Coords) : Rect S2048x2048 := Rect.unit (s := S2048x2048) (k1_off1 i) S128x2048.size (k1_off1_inb i)

/-- What every point leaves in the attention-weights window: its one whole store. -/
def aw1 (x0 : Vec F S1x256x128 .bf16) (x1 : Vec F S1x2048x128 .bf16) (x4 : Vec F S1x1x256x2048 .f32) : Vec F S1x1x256x2048 .f32 :=
  View.canon [⟨rM, k1_pay6 (View.ld x0 rQ) (View.ld x1 rK) (View.ld x4 rM)⟩]

/-- What the accumulating store leaves in the scratch when it held `prev`: the head's term added to `prev`. -/
def accStep (i : grid1.Coords) (x0 : Vec F S1x256x128 .bf16) (x1 x2 : Vec F S1x2048x128 .bf16) (x3 : Vec F S2048x2048 .bf16)
    (x4 : Vec F S1x1x256x2048 .f32) (prev : Vec F S256x2048 .f32) : Vec F S256x2048 .f32 :=
  View.canon [⟨rS, k1_pay1 (k1_pay4 (View.ld x2 rK)) (k1_pay7 (View.ld x0 rQ) (View.ld x1 rK) (View.ld x4 rM))
    (constant S256x128 .f32 0x00000000#32) (View.ld x3 (rW i)) (View.ld prev rS)⟩]

/-- What the last head's point leaves in the output window: the accumulator, reshaped. -/
def out1_6 (acc : Vec F S256x2048 .f32) : Vec F S1x256x2048 .f32 :=
  View.canon [⟨rO, k1_pay2 (View.ld acc rS)⟩]

abbrev condA (i : grid1.Coords) : Prop := (Scalar.cmpi .ne (Scalar.extui (Scalar.cmpi .eq (BitVec.ofNat 32 (i 2).val) 0#32)) 0#32) = 1#1
abbrev condC (i : grid1.Coords) : Prop := k1_cond2 i = 1#1

set_option maxHeartbeats 1000000 in
theorem runA (c : Dev nD) (E : Set ℕ) (i : grid1.Coords)
    (arg3 : Memref sig .tc .vmem S1x256x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S2048x2048 .bf16) (harg6 : arg6.IsWhole)
    (arg7 : Memref sig .tc .vmem S1x1x256x2048 .f32) (harg7 : arg7.IsWhole) (arg8 : Memref sig .tc .vmem S1x1x256x2048 .f32) (harg8 : arg8.IsWhole)
    (arg9 : Memref sig .tc .vmem S1x256x2048 .f32) (harg9 : arg9.IsWhole) (arg10 : Memref sig .tc .vmem S256x2048 .f32) (harg10 : arg10.IsWhole)
    (hcA : condA i) (hcC : ¬condC i)
    (x0 : Vec F S1x256x128 .bf16) (x1 x2 : Vec F S1x2048x128 .bf16) (x3 : Vec F S2048x2048 .bf16) (x4 : Vec F S1x1x256x2048 .f32)
    (xi6 : Vec F S1x256x2048 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (∃ d, owns (c : Thread nD τ) arg8 fullShare d) ∗ owns (c : Thread nD τ) arg9 fullShare xi6 ∗ (∃ d, owns (c : Thread nD τ) arg10 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (aw1 x0 x1 x4) ∗ owns (c : Thread nD τ) arg9 fullShare xi6
            ∗ owns (c : Thread nD τ) arg10 fullShare (accStep i x0 x1 x2 x3 x4 (k1_pay3 (F := F)))) -∗ K ⟨⟩))
      ⊢ wp frame (wpE (defs₀ (F := F)) Variants.none c none) E
          (cc1__attn_outproj_kernel i arg3 harg3 arg4 harg4 arg5 harg5 arg6 harg6 arg7 harg7 arg8 harg8 arg9 harg9 arg10 harg10) K := by
  simp only [cc1__attn_outproj_kernel_eq_skeleton]; unfold cc1__attn_outproj_kernel_skel
  simp only [k1_part1_eq_skeleton]; unfold k1_part1_skel
  unfold owns

  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds, %fs, -, HS⟩, Hk⟩
  subst hf0 hf1 hf2 hf3 hf4 hf6
  sl_exec (disch := first | exact hcA | exact hcC)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_whole z4 _ _ _)
  isplitl [H6]
  · iexists f6; isplitr; · ipureintro; rfl
    iexact H6
  iexists _; isplitr
  swap; · iexact HS
  ipureintro
  -- the zeros just stored are what the accumulating step loads
  have e : runA.sl.v37 (F := F) c arg10 = View.ld (k1_pay3 (F := F)) rS :=
    (readCov_whole arg10.view z2 _ _ []).trans (ld_whole (Val := Elt F) (S := S256x2048) (e := .f32) z2 inb_S256x2048_S256x2048_0_0 (k1_pay3 (F := F))).symm
  refine (View.read_writes_eq_canon _ _ _ (cover_whole z2 _ _ _)).trans ?_
  refine (canon_cons_whole z2 _ _ _).trans ?_
  unfold accStep
  refine Eq.trans ?_ (canon_cons_whole z2 _ _ _).symm
  exact congrArg (k1_pay1 _ _ _ _) e

set_option maxHeartbeats 1000000 in
theorem runB (c : Dev nD) (E : Set ℕ) (i : grid1.Coords)
    (arg3 : Memref sig .tc .vmem S1x256x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S2048x2048 .bf16) (harg6 : arg6.IsWhole)
    (arg7 : Memref sig .tc .vmem S1x1x256x2048 .f32) (harg7 : arg7.IsWhole) (arg8 : Memref sig .tc .vmem S1x1x256x2048 .f32) (harg8 : arg8.IsWhole)
    (arg9 : Memref sig .tc .vmem S1x256x2048 .f32) (harg9 : arg9.IsWhole) (arg10 : Memref sig .tc .vmem S256x2048 .f32) (harg10 : arg10.IsWhole)
    (hcA : ¬condA i) (hcC : ¬condC i)
    (x0 : Vec F S1x256x128 .bf16) (x1 x2 : Vec F S1x2048x128 .bf16) (x3 : Vec F S2048x2048 .bf16) (x4 : Vec F S1x1x256x2048 .f32)
    (xi6 : Vec F S1x256x2048 .f32) (prev : Vec F S256x2048 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (∃ d, owns (c : Thread nD τ) arg8 fullShare d) ∗ owns (c : Thread nD τ) arg9 fullShare xi6 ∗ owns (c : Thread nD τ) arg10 fullShare prev
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (aw1 x0 x1 x4) ∗ owns (c : Thread nD τ) arg9 fullShare xi6
            ∗ owns (c : Thread nD τ) arg10 fullShare (accStep i x0 x1 x2 x3 x4 prev)) -∗ K ⟨⟩))
      ⊢ wp frame (wpE (defs₀ (F := F)) Variants.none c none) E
          (cc1__attn_outproj_kernel i arg3 harg3 arg4 harg4 arg5 harg5 arg6 harg6 arg7 harg7 arg8 harg8 arg9 harg9 arg10 harg10) K := by
  simp only [cc1__attn_outproj_kernel_eq_skeleton]; unfold cc1__attn_outproj_kernel_skel
  simp only [k1_part1_eq_skeleton]; unfold k1_part1_skel
  unfold owns

  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs, %hfs, HS⟩, Hk⟩
  subst hf0 hf1 hf2 hf3 hf4 hf6 hfs
  sl_exec (disch := first | exact hcA | exact hcC)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_whole z4 _ _ _)
  isplitl [H6]
  · iexists f6; isplitr; · ipureintro; rfl
    iexact H6
  iexists _; isplitr
  swap; · iexact HS
  ipureintro
  exact View.read_writes_eq_canon _ _ _ (cover_whole z2 _ _ _)

set_option maxHeartbeats 1000000 in
theorem runC (c : Dev nD) (E : Set ℕ) (i : grid1.Coords)
    (arg3 : Memref sig .tc .vmem S1x256x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S2048x2048 .bf16) (harg6 : arg6.IsWhole)
    (arg7 : Memref sig .tc .vmem S1x1x256x2048 .f32) (harg7 : arg7.IsWhole) (arg8 : Memref sig .tc .vmem S1x1x256x2048 .f32) (harg8 : arg8.IsWhole)
    (arg9 : Memref sig .tc .vmem S1x256x2048 .f32) (harg9 : arg9.IsWhole) (arg10 : Memref sig .tc .vmem S256x2048 .f32) (harg10 : arg10.IsWhole)
    (hcA : ¬condA i) (hcC : condC i)
    (x0 : Vec F S1x256x128 .bf16) (x1 x2 : Vec F S1x2048x128 .bf16) (x3 : Vec F S2048x2048 .bf16) (x4 : Vec F S1x1x256x2048 .f32)
    (prev : Vec F S256x2048 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (∃ d, owns (c : Thread nD τ) arg8 fullShare d) ∗ (∃ d, owns (c : Thread nD τ) arg9 fullShare d) ∗ owns (c : Thread nD τ) arg10 fullShare prev
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (aw1 x0 x1 x4) ∗ owns (c : Thread nD τ) arg9 fullShare (out1_6 (accStep i x0 x1 x2 x3 x4 prev))
            ∗ owns (c : Thread nD τ) arg10 fullShare (accStep i x0 x1 x2 x3 x4 prev)) -∗ K ⟨⟩))
      ⊢ wp frame (wpE (defs₀ (F := F)) Variants.none c none) E
          (cc1__attn_outproj_kernel i arg3 harg3 arg4 harg4 arg5 harg5 arg6 harg6 arg7 harg7 arg8 harg8 arg9 harg9 arg10 harg10) K := by
  simp only [cc1__attn_outproj_kernel_eq_skeleton]; unfold cc1__attn_outproj_kernel_skel
  simp only [k1_part1_eq_skeleton]; unfold k1_part1_skel
  unfold owns

  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
  subst hf0 hf1 hf2 hf3 hf4 hfs
  sl_exec (disch := first | exact hcA | exact hcC)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_whole z4 _ _ _)
  isplitl [H6]
  · iexists _; isplitr
    swap; · iexact H6
    ipureintro
    -- the closing load reads what the accumulating step just stored
    have e : runC.sl.v46 c i arg3 arg4 arg5 arg6 arg7 arg10 f0 f1 f2 f3 f4 fs
        = View.ld (accStep i (arg3.view.read (Elt F) f0) (arg4.view.read (Elt F) f1) (arg5.view.read (Elt F) f2)
            (arg6.view.read (Elt F) f3) (arg7.view.read (Elt F) f4) (arg10.view.read (Elt F) fs)) rS :=
      View.readCov_eq_canon_ld _ _ _ (cover_whole z2 _ _ _)
    refine (View.read_writes_eq_canon _ _ _ (cover_whole z3 _ _ _)).trans ?_
    unfold out1_6
    exact congrArg (fun v => View.canon [(⟨rO, k1_pay2 v⟩ : View.Piece (Elt F) S1x256x2048 .f32)]) e
  iexists _; isplitr
  swap; · iexact HS
  ipureintro
  exact View.read_writes_eq_canon _ _ _ (cover_whole z2 _ _ _)

/-! ## The branch conditions over the grid

The innermost coordinate is the head. The accumulator is zeroed where it is 0 and the output is stored where it is 15;
elsewhere the output window is idle and is not written back. -/

theorem hcondA : ∀ t : Fin cfg1.N, condA (grid1.coords t) ↔ t.val % 16 = 0 :=
  (by decide +kernel : ∀ t : Fin grid1.N, condA (grid1.coords t) ↔ t.val % 16 = 0)
theorem hcondC : ∀ t : Fin cfg1.N, condC (grid1.coords t) ↔ t.val % 16 = 15 :=
  (by decide +kernel : ∀ t : Fin grid1.N, condC (grid1.coords t) ↔ t.val % 16 = 15)
theorem idle6_of_ne : ∀ t : Fin cfg1.N, ¬t.val % 16 = 15 → cfg1.idle 6 (grid1.coords t) = true :=
  (by decide +kernel : ∀ t : Fin grid1.N, ¬t.val % 16 = 15 → idle1 6 (grid1.coords t) = true)
theorem live6_of_eq : ∀ t : Fin cfg1.N, t.val % 16 = 15 → cfg1.idle 6 (grid1.coords t) = false :=
  (by decide +kernel : ∀ t : Fin grid1.N, t.val % 16 = 15 → idle1 6 (grid1.coords t) = false)
theorem noFlush6_of_ne (t : Fin cfg1.N) (h : ¬t.val % 16 = 15) : (cfg1.win 6).flush t = false := by
  cases hb : (cfg1.win 6).flush t with
  | false => rfl
  | true => exact absurd ((flush1_6 t).mp hb) h

/-! ## The inputs' buffers hold their blocks at every point, fetched there or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator after each point -/

/-- The scratch after point `n`: at a head-0 point the step over the zeros, elsewhere over what the point before left. -/
def accAt1 (c : Dev nD) : (n : ℕ) → n < cfg1.N → Vec F S256x2048 .f32
  | 0, hn => accStep (grid1.coords ⟨0, hn⟩) (iblk1 V c 0 ⟨0, hn⟩) (iblk1 V c 1 ⟨0, hn⟩) (iblk1 V c 2 ⟨0, hn⟩) (iblk1 V c 3 ⟨0, hn⟩) (iblk1 V c 4 ⟨0, hn⟩) (k1_pay3 (F := F))
  | n + 1, hn =>
    if (n + 1) % 16 = 0 then
      accStep (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (k1_pay3 (F := F))
    else
      accStep (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (accAt1 c n (Nat.lt_of_succ_lt hn))

theorem accAt1_zero (c : Dev nD) (t : Fin cfg1.N) (h0 : t.val % 16 = 0) :
    accAt1 V c t.val t.isLt = accStep (grid1.coords t) (iblk1 V c 0 t) (iblk1 V c 1 t) (iblk1 V c 2 t) (iblk1 V c 3 t) (iblk1 V c 4 t) (k1_pay3 (F := F)) := by
  obtain ⟨n, hn⟩ := t
  cases n with
  | zero => rfl
  | succ n => exact (if_pos h0).trans rfl

theorem accAt1_step (c : Dev nD) (t : Fin cfg1.N) (h0 : ¬t.val % 16 = 0) :
    accAt1 V c t.val t.isLt = accStep (grid1.coords t) (iblk1 V c 0 t) (iblk1 V c 1 t) (iblk1 V c 2 t) (iblk1 V c 3 t) (iblk1 V c 4 t) (accAt1 V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The invariant: what the region holds between points beside the windows -/

/-- The first region's staging buffers, which this region never touches: each whole at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f))

/-- The accumulator, as the memref the body is called with. -/
abbrev scM : Memref sig .tc .vmem S256x2048 .f32 := Memref.whole cc1_scratch0

/-- What the launch hands the region gives the first region's staging buffers, the accumulator at some contents and the
    generator register; -/
theorem PhiA_open (c : Dev nD) :
    (Pipeline.ΦA spec1 c : sProp 𝕄) ⊢ iprop((others c ∗ (∃ d, owns (c : Thread nD τ) scM fullShare d)) ∗ ∃ r, prngReg c r) := by
  unfold Pipeline.ΦA others
  rw [scopedRest1_eq]
  simp only [owns_whole]
  iintro ⟨⟨R0, R1, R2, R3, R4, R5, R6, R7, R8, R9, R10, R11, R12, R13, R14, R15, R16, ⟨%fS, HS⟩⟩, Hg⟩
  isplitr [Hg]
  swap; · iexact Hg
  isplitr [HS]
  swap
  · iexists fS; iexact HS
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  iexact R16

/-- and those three give it back. -/
theorem PhiA_close (c : Dev nD) :
    iprop((others c ∗ (∃ d, owns (c : Thread nD τ) scM fullShare d)) ∗ ∃ r, prngReg c r) ⊢ (Pipeline.ΦA spec1 c : sProp 𝕄) := by
  unfold Pipeline.ΦA others
  rw [scopedRest1_eq]
  simp only [owns_whole]
  iintro ⟨⟨⟨R0, R1, R2, R3, R4, R5, R6, R7, R8, R9, R10, R11, R12, R13, R14, R15, R16⟩, ⟨%d, HS⟩⟩, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  iexists d; iexact HS

/-- The invariant before position `n`: before the first point what the launch hands over; afterwards the first region's
    staging buffers at anything, the accumulator at what the point before left, and the generator register. -/
def PhiS (c : Dev nD) : (n : ℕ) → n ≤ cfg1.N → sProp 𝕄
  | 0, _ => Pipeline.ΦA spec1 c
  | n + 1, hn => iprop((others c ∗ owns (c : Thread nD τ) scM fullShare (accAt1 V c n hn)) ∗ ∃ r, prngReg c r)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((others c ∗ owns (c : Thread nD τ) scM fullShare (accAt1 V c n hn)) ∗ ∃ r, prngReg c r) := rfl

theorem PhiS_pos (c : Dev nD) (n : ℕ) (h : n ≤ cfg1.N) (hz : n ≠ 0) :
    PhiS V c n h = iprop((others c ∗ owns (c : Thread nD τ) scM fullShare (accAt1 V c (n - 1) (by omega))) ∗ ∃ r, prngReg c r) := by
  cases n with
  | zero => exact absurd rfl hz
  | succ n => rfl

/-! ## The proof data -/

/-- The arrays as the region finds them; after the body at a point each input's buffer at its block, the weights'
    window at the softmax of the point's head, the output window at the accumulator after the point; the invariant
    `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => aw1 (iblk1 V c 0 t) (iblk1 V c 1 t) (iblk1 V c 4 t)
    | ⟨6, _⟩ => out1_6 (accAt1 V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = aw1 (iblk1 V c 0 t) (iblk1 V c 1 t) (iblk1 V c 4 t) := by dsimp only [dat1]
theorem after1_6 (c : Dev nD) (t : Fin cfg1.N) : (dat1 V c).after 6 t = out1_6 (accAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' buffers hold their blocks; the point's head says which of the three runs
    applies; the invariant hands the body the accumulator at what the point before left (at anything before the first
    point, and before a head-0 point its contents are not read) and takes it back at this point's contents; the first
    region's buffers, the generator register and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from rfl, after1_0]
  rw [show (dat1 V c).leavesExact 1 t = owns (c : Thread nD τ) (st1_1 t) fullShare ((dat1 V c).after 1 t) from rfl, after1_1]
  rw [show (dat1 V c).leavesExact 2 t = owns (c : Thread nD τ) (st1_2 t) fullShare ((dat1 V c).after 2 t) from rfl, after1_2]
  rw [show (dat1 V c).leavesExact 3 t = owns (c : Thread nD τ) (st1_3 t) fullShare ((dat1 V c).after 3 t) from rfl, after1_3]
  rw [show (dat1 V c).leavesExact 4 t = owns (c : Thread nD τ) (st1_4 t) fullShare ((dat1 V c).after 4 t) from rfl, after1_4]
  rw [show (dat1 V c).leavesExact 5 t = owns (c : Thread nD τ) (st1_5 t) fullShare ((dat1 V c).after 5 t) from rfl, after1_5]
  have hN : t.val < 256 := lt_of_lt_of_eq t.isLt (show cfg1.N = 256 from N_1)
  by_cases h0 : t.val % 16 = 0
  · have h15 : ¬t.val % 16 = 15 := by omega
    rw [Dat.leavesExact_idle (dat1 V c) 6 t (idle6_of_ne t h15) (noFlush6_of_ne t h15)]
    rw [accAt1_zero V c t h0]
    by_cases hz : t.val = 0
    · rw [PhiS_castSucc V c t, PhiS_zero V c _ _ hz]
      iintro ⟨HΦ, Ho, ⟨%d0, H0⟩, ⟨%d1, H1⟩, ⟨%d2, H2⟩, ⟨%d3, H3⟩, ⟨%d4, H4⟩, ⟨%d5, H5⟩, ⟨%d6, H6⟩⟩
      ihave HΦ' := (PhiA_open (F := F) c) $$ HΦ
      icases HΦ' with ⟨⟨HR, HS⟩, Hg⟩
      iapply (runA c Set.univ (grid1.coords t) _ _ _ _ _ _ _ _ _ _ _ _ _ _ _ _ ((hcondA t).mpr h0) (fun h => h15 ((hcondC t).mp h))
        (iblk1 V c 0 t) (iblk1 V c 1 t) (iblk1 V c 2 t) (iblk1 V c 3 t) (iblk1 V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS]; · iexact HS
      iintro ⟨H0, H1, H2, H3, H4, H5, H6, HS⟩
      isplitl [HR HS Hg]
      · isplitr [Hg]
        swap; · iexact Hg
        isplitl [HR]; · iexact HR
        iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc V c t, PhiS_pos V c _ _ hz]
      iintro ⟨⟨⟨HR, HS⟩, Hg⟩, Ho, ⟨%d0, H0⟩, ⟨%d1, H1⟩, ⟨%d2, H2⟩, ⟨%d3, H3⟩, ⟨%d4, H4⟩, ⟨%d5, H5⟩, ⟨%d6, H6⟩⟩
      iapply (runA c Set.univ (grid1.coords t) _ _ _ _ _ _ _ _ _ _ _ _ _ _ _ _ ((hcondA t).mpr h0) (fun h => h15 ((hcondC t).mp h))
        (iblk1 V c 0 t) (iblk1 V c 1 t) (iblk1 V c 2 t) (iblk1 V c 3 t) (iblk1 V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS]; · iexists _; iexact HS
      iintro ⟨H0, H1, H2, H3, H4, H5, H6, HS⟩
      isplitl [HR HS Hg]
      · isplitr [Hg]
        swap; · iexact Hg
        isplitl [HR]; · iexact HR
        iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    rw [accAt1_step V c t h0]
    rw [PhiS_castSucc V c t, PhiS_pos V c _ _ hz]
    by_cases h15 : t.val % 16 = 15
    · rw [show (dat1 V c).leavesExact 6 t = owns (c : Thread nD τ) (st1_6 t) fullShare ((dat1 V c).after 6 t) from by
        unfold Dat.leavesExact; rw [live6_of_eq t h15], after1_6, accAt1_step V c t h0]
      iintro ⟨⟨⟨HR, HS⟩, Hg⟩, Ho, ⟨%d0, H0⟩, ⟨%d1, H1⟩, ⟨%d2, H2⟩, ⟨%d3, H3⟩, ⟨%d4, H4⟩, ⟨%d5, H5⟩, ⟨%d6, H6⟩⟩
      iapply (runC c Set.univ (grid1.coords t) _ _ _ _ _ _ _ _ _ _ _ _ _ _ _ _ (fun h => h0 ((hcondA t).mp h)) ((hcondC t).mpr h15)
        (iblk1 V c 0 t) (iblk1 V c 1 t) (iblk1 V c 2 t) (iblk1 V c 3 t) (iblk1 V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS]; · iexact HS
      iintro ⟨H0, H1, H2, H3, H4, H5, H6, HS⟩
      isplitl [HR HS Hg]
      · isplitr [Hg]
        swap; · iexact Hg
        isplitl [HR]; · iexact HR
        iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat1 V c) 6 t (idle6_of_ne t h15) (noFlush6_of_ne t h15)]
      iintro ⟨⟨⟨HR, HS⟩, Hg⟩, Ho, ⟨%d0, H0⟩, ⟨%d1, H1⟩, ⟨%d2, H2⟩, ⟨%d3, H3⟩, ⟨%d4, H4⟩, ⟨%d5, H5⟩, ⟨%d6, H6⟩⟩
      iapply (runB c Set.univ (grid1.coords t) _ _ _ _ _ _ _ _ _ _ _ _ _ _ _ _ (fun h => h0 ((hcondA t).mp h)) (fun h => h15 ((hcondC t).mp h))
        (iblk1 V c 0 t) (iblk1 V c 1 t) (iblk1 V c 2 t) (iblk1 V c 3 t) (iblk1 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS]; · iexact HS
      iintro ⟨H0, H1, H2, H3, H4, H5, H6, HS⟩
      isplitl [HR HS Hg]
      · isplitr [Hg]
        swap; · iexact Hg
        isplitl [HR]; · iexact HR
        iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  refine BIBase.Entails.trans ?_ (PhiA_close c)
  iintro ⟨⟨HR, HS⟩, Hg⟩
  isplitr [Hg]
  swap; · iexact Hg
  isplitl [HR]; · iexact HR
  iexists _; iexact HS

theorem hout1 (c : Dev nD) : (dat1 V c).Φ (Fin.last cfg1.N) ⊢ Pipeline.ΦA spec1 c :=
  Phi_out1 V c _ (by rw [Fin.val_last]; have : cfg1.N = 256 := N_1; omega)

end Cert.Kernel.AttnR

end
-- ==== Proof.AttnRunBits.lean ====
import proofs.«420301_j24240795419151_3_alg».proof.Proof.ProjFrameBits
import proofs.«420301_j24240795419151_3_alg».proof.Proof.AttnFrameBits

/-!
# The whole run: host casts, the projection region, the attention region

The program casts the four weight matrices, runs the projection region (which fills the query, key and value arrays)
and then the attention region (which fills the attention weights and the layer's output). This file follows the
contents of the core's arrays through those three stretches: after the casts; after the projection region, whose
three output arrays hold what its write-backs leave and every other array what it held; after the attention region
likewise. Every weakly fair execution terminates with every array at the last of these contents. In particular each
argument array ends as launched (no stretch writes one), and the two result arrays end at what the attention region's
write-backs leave.
-/

set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' contents at each boundary -/

/-- At launch. -/
abbrev W0 : Dev nD → Valuation τ sig (Elt F) := fun c b => (s₀ m ρ).mem ((c : Dev nD), b)
/-- After the four casts of the weights. -/
abbrev W1 : Dev nD → Valuation τ sig (Elt F) := fun c => StableHlo.after hostOps0 (W0 m ρ c)
/-- The same read at the core's own references: what the projection region is entered with. -/
abbrev V1 : (c : Dev nD) → (b : Ref sig .tc) → Buf (Elt F) ((c : Thread nD τ).loc b) := fun c b => W1 m ρ c b
/-- After the projection region: its windows' arrays at what its write-backs leave, every other array as entered. -/
def W2 (c : Dev nD) : Valuation τ sig (Elt F) :=
  Pipeline.withArrays spec0 c (W1 m ρ c) fun w => (Proj.dat0 (V1 m ρ) c).arrAt w cfg0.N
theorem W2_arr (c : Dev nD) (w : Fin cfg0.W) :
    W2 m ρ c (Proc.devRef .tc (Pipeline.arrRef spec0 w)) = (Proj.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's own references: what the attention region is entered with. -/
abbrev V2 : (c : Dev nD) → (b : Ref sig .tc) → Buf (Elt F) ((c : Thread nD τ).loc b) := fun c b => W2 m ρ c b
theorem hF0 (c : Dev nD) (w : Fin cfg0.W) : (Proj.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the attention region: its windows' arrays at what its write-backs leave, every other array as entered. -/
def W3 (c : Dev nD) : Valuation τ sig (Elt F) :=
  Pipeline.withArrays spec1 c (W2 m ρ c) fun w => (AttnR.dat1 (V2 m ρ) c).arrAt w cfg1.N
theorem W3_arr (c : Dev nD) (w : Fin cfg1.W) :
    W3 m ρ c (Proc.devRef .tc (Pipeline.arrRef spec1 w)) = (AttnR.dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (AttnR.dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## What each stretch leaves alone

An array that is no output of a region either is one of its input windows' arrays, which the region hands back as
entered, or is none of its windows' arrays at all; the casts write only the four cast buffers. -/

/-- The casts leave every array but the four they write. -/
theorem W1_keeps (c : Dev nD) (b : Ref sig .tc) (hb : b ∉ ([main_v0, main_v1, main_v2, main_v3] : List (Ref sig .tc))) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne (List.ne_of_not_mem_cons hb),
      StableHlo.devRef_ne_of_ne (List.ne_of_not_mem_cons (List.not_mem_of_not_mem_cons hb)),
      StableHlo.devRef_ne_of_ne (List.ne_of_not_mem_cons (List.not_mem_of_not_mem_cons (List.not_mem_of_not_mem_cons hb))),
      StableHlo.devRef_ne_of_ne (List.ne_of_not_mem_cons (List.not_mem_of_not_mem_cons (List.not_mem_of_not_mem_cons (List.not_mem_of_not_mem_cons hb))))⟩))

/-- The projection region leaves every array but its three outputs: an input window's array comes back as entered
    (`Dat.arrAt_in`), and an array of no window is untouched. -/
theorem W2_keeps (c : Dev nD) (b : Ref sig .tc)
    (hin : ∀ w : Fin cfg0.W, Pipeline.arrRef spec0 w = b → (cfg0.win w).isOut = false)
    (hb : b ∉ ([main_v4_0, main_v4_1, main_v4_2] : List (Ref sig .tc))) :
    W2 m ρ c (Proc.devRef .tc b) = W1 m ρ c (Proc.devRef .tc b) := by
  by_cases h : ∃ w : Fin cfg0.W, Pipeline.arrRef spec0 w = b
  · obtain ⟨w, rfl⟩ := h
    exact (W2_arr m ρ c w).trans (((Proj.dat0 (V1 m ρ) c).arrAt_in w (hin w rfl) _).trans (Proj.A_eq0 (V1 m ρ) c w))
  · exact W2_of_ne m ρ c b fun w e => h ⟨w, e⟩

/-- The attention region likewise leaves every array but its two outputs. -/
theorem W3_keeps (c : Dev nD) (b : Ref sig .tc)
    (hin : ∀ w : Fin cfg1.W, Pipeline.arrRef spec1 w = b → (cfg1.win w).isOut = false)
    (hb : b ∉ ([main_v5_0, main_v5_1] : List (Ref sig .tc))) :
    W3 m ρ c (Proc.devRef .tc b) = W2 m ρ c (Proc.devRef .tc b) := by
  by_cases h : ∃ w : Fin cfg1.W, Pipeline.arrRef spec1 w = b
  · obtain ⟨w, rfl⟩ := h
    exact (W3_arr m ρ c w).trans (((AttnR.dat1 (V2 m ρ) c).arrAt_in w (hin w rfl) _).trans (AttnR.A_eq1 (V2 m ρ) c w))
  · exact W3_of_ne m ρ c b fun w e => h ⟨w, e⟩

/-! ### Each argument ends as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_keeps m ρ c main_arg0 (by decide) (by decide)
    _ = W1 m ρ c (Proc.devRef .tc main_arg0) := W2_keeps m ρ c main_arg0 (by decide) (by decide)
    _ = W0 m ρ c (Proc.devRef .tc main_arg0) := W1_keeps m ρ c main_arg0 (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_keeps m ρ c main_arg1 (by decide) (by decide)
    _ = W1 m ρ c (Proc.devRef .tc main_arg1) := W2_keeps m ρ c main_arg1 (by decide) (by decide)
    _ = W0 m ρ c (Proc.devRef .tc main_arg1) := W1_keeps m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_keeps m ρ c main_arg2 (by decide) (by decide)
    _ = W1 m ρ c (Proc.devRef .tc main_arg2) := W2_keeps m ρ c main_arg2 (by decide) (by decide)
    _ = W0 m ρ c (Proc.devRef .tc main_arg2) := W1_keeps m ρ c main_arg2 (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_keeps m ρ c main_arg3 (by decide) (by decide)
    _ = W1 m ρ c (Proc.devRef .tc main_arg3) := W2_keeps m ρ c main_arg3 (by decide) (by decide)
    _ = W0 m ρ c (Proc.devRef .tc main_arg3) := W1_keeps m ρ c main_arg3 (by decide)
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_keeps m ρ c main_arg4 (by decide) (by decide)
    _ = W1 m ρ c (Proc.devRef .tc main_arg4) := W2_keeps m ρ c main_arg4 (by decide) (by decide)
    _ = W0 m ρ c (Proc.devRef .tc main_arg4) := W1_keeps m ρ c main_arg4 (by decide)
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_keeps m ρ c main_arg5 (by decide) (by decide)
    _ = W1 m ρ c (Proc.devRef .tc main_arg5) := W2_keeps m ρ c main_arg5 (by decide) (by decide)
    _ = W0 m ρ c (Proc.devRef .tc main_arg5) := W1_keeps m ρ c main_arg5 (by decide)
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_keeps m ρ c main_arg6 (by decide) (by decide)
    _ = W1 m ρ c (Proc.devRef .tc main_arg6) := W2_keeps m ρ c main_arg6 (by decide) (by decide)
    _ = W0 m ρ c (Proc.devRef .tc main_arg6) := W1_keeps m ρ c main_arg6 (by decide)
    _ = m ((c : Thread nD τ).loc main_arg6) := rfl
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_keeps m ρ c main_arg7 (by decide) (by decide)
    _ = W1 m ρ c (Proc.devRef .tc main_arg7) := W2_keeps m ρ c main_arg7 (by decide) (by decide)
    _ = W0 m ρ c (Proc.devRef .tc main_arg7) := W1_keeps m ρ c main_arg7 (by decide)
    _ = m ((c : Thread nD τ).loc main_arg7) := rfl
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_keeps m ρ c main_arg8 (by decide) (by decide)
    _ = W1 m ρ c (Proc.devRef .tc main_arg8) := W2_keeps m ρ c main_arg8 (by decide) (by decide)
    _ = W0 m ρ c (Proc.devRef .tc main_arg8) := W1_keeps m ρ c main_arg8 (by decide)
    _ = m ((c : Thread nD τ).loc main_arg8) := rfl
theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_keeps m ρ c main_arg9 (by decide) (by decide)
    _ = W1 m ρ c (Proc.devRef .tc main_arg9) := W2_keeps m ρ c main_arg9 (by decide) (by decide)
    _ = W0 m ρ c (Proc.devRef .tc main_arg9) := W1_keeps m ρ c main_arg9 (by decide)
    _ = m ((c : Thread nD τ).loc main_arg9) := rfl

/-! ## The proof data of both regions, and what rides beside the arrays -/

/-- No region has a prefetched table. -/
abbrev adm : (p : Fin 2) → (pcfgs (F := F) p).Adm := fun p => (cfgs p).toPCfg_adm
/-- Each region's proof data at the contents it is entered with. -/
def pdats : (p : Fin 2) → (c : Dev nD) → Dat τ (Elt F) Unit ℕ (UR sig nD τ) ℕ (Pipeline.pin (pcfgs (F := F)) adm p) c
  | ⟨0, _⟩ => fun c => Proj.dat0 (V1 m ρ) c
  | ⟨1, _⟩ => fun c => AttnR.dat1 (V2 m ρ) c
abbrev 𝒱₀ : Variants := Variants.none
/-- No core owes another anything. -/
abbrev L : GSem nD τ sig → Finset Unit := fun _ => ∅
abbrev lv : GSem nD τ sig → Unit → ℕ := fun _ _ => 0
/-- Beside the arrays: the generator register at some state, and nothing owed. -/
abbrev R (c : Dev nD) : sProp 𝕄 := iprop((∃ r, prngReg c r) ∗ ∃ W, owes (c : Thread nD τ) (0 : CellTallies nD τ sig Unit) W)
/-- The casts as a stretch of host operations over the arrays. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- No cast allocates a buffer. -/
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state: every array at the last contents, the generator register at some state. -/
abbrev Tₙ (c : Dev nD) : sProp 𝕄 := iprop(StableHlo.held (c : Thread nD τ) (Pipeline.ucRefs τ sig) (W3 m ρ c) ∗ ∃ r, prngReg c r)

/-! ## The two regions as segments

Each region takes its windows' arrays out of the core's arrays at the contents it is entered with, runs its pipeline
under its body's obligation, and puts the arrays back at what the write-backs leave; the generator register goes into
the region's invariant and comes back; nothing is owed and the kernels have no semaphore of their own. The attention
region's invariant names the carried scratch's contents between points; at its two ends it is the plain one. -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_)
    unfold Pipeline.ΦA
    iintro ⟨Hp, -, Hr⟩
    isplitl [Hr]; · iexact Hr
    iexact Hp
  hout c := by
    rw [Pipeline.ownSems0_none]
    refine (show Pipeline.ΦA spec0 c ⊢ _ from ?_)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (AttnR.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (AttnR.hin1 (V2 m ρ) c)
    unfold Pipeline.ΦA
    iintro ⟨Hp, -, Hr⟩
    isplitl [Hr]; · iexact Hr
    iexact Hp
  hout c := by
    rw [Pipeline.ownSems0_none]
    refine (AttnR.hout1 (V2 m ρ) c).trans (show Pipeline.ΦA spec1 c ⊢ _ from ?_)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its three stretches, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution terminates, nothing faulting, with every argument
    array as launched and the two result arrays at what the attention region's write-backs leave. -/
theorem run_all : θ_run defs (onTc (τ := τ) (main (F := F))) ⟨m, fun _ => 0, ρ⟩ (fun r => ∀ c : Dev nD,
      r.2.mem ((c.tc : Thread nD τ).loc main_v5_1) = (AttnR.dat1 (V2 m ρ) c).arrAt 6 cfg1.N
      ∧ r.2.mem ((c.tc : Thread nD τ).loc main_v5_0) = (AttnR.dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v5_1 (by decide))).trans (W3_arr m ρ c 6),
        (h c _ (mem_uc main_v5_0 (by decide))).trans (W3_arr m ρ c 5),
        (h c _ (mem_uc main_arg0 (by decide))).trans (W3_main_arg0 m ρ c),
        (h c _ (mem_uc main_arg1 (by decide))).trans (W3_main_arg1 m ρ c),
        (h c _ (mem_uc main_arg2 (by decide))).trans (W3_main_arg2 m ρ c),
        (h c _ (mem_uc main_arg3 (by decide))).trans (W3_main_arg3 m ρ c),
        (h c _ (mem_uc main_arg4 (by decide))).trans (W3_main_arg4 m ρ c),
        (h c _ (mem_uc main_arg5 (by decide))).trans (W3_main_arg5 m ρ c),
        (h c _ (mem_uc main_arg6 (by decide))).trans (W3_main_arg6 m ρ c),
        (h c _ (mem_uc main_arg7 (by decide))).trans (W3_main_arg7 m ρ c),
        (h c _ (mem_uc main_arg8 (by decide))).trans (W3_main_arg8 m ρ c),
        (h c _ (mem_uc main_arg9 (by decide))).trans (W3_main_arg9 m ρ c)⟩)

end Cert.Kernel.Run

end
-- ==== Proof.ProjFrame.lean ====
import proofs.«420301_j24240795419151_3_alg».proof.Proof.Gen.KernelIdeal.Launch
import proofs.«420301_j24240795419151_3_alg».proof.Proof.Gen.KernelIdeal.Skeleton
import proofs.«420301_j24240795419151_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The projection region, block by block

The first region of the layer projects a block of 256 hidden-state rows to its query, key and value rows:
three matrix products against the whole weight matrices, a per-head root-mean-square normalisation of the
query and key rows, and the rotary embedding of both by the block's cosine and sine rows. Its grid has 16
points (2 batches by 8 row blocks); at each point the body reads eight blocks (hidden states, the three
weight matrices, cosines, sines, the two normalisation weights) and fills three (query, key, value rows).

This file states, at ANY contents `V` of the core's arrays when the region is entered and at any float
model `F`, what the body leaves at a point as a closed function of the eight blocks read there, and proves
that the body meets it at every point of the grid.
-/

set_option maxRecDepth 16384

noncomputable section

namespace Cert.KernelIdeal.Proj

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's array contents when the region is entered
variable (V : (c : Dev nD) → (b : Ref sig .tc) → Buf (Elt F) ((c : Thread nD τ).loc b))

/-! ## The blocks read at a point -/

/-- Window `w`'s block at point `t`: the part of its array, as the region finds it, that the window's index
    map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input's buffer holds its block at every point

The body never writes an input's buffer, so what it leaves there is the block it found. A point at which the
block index did not move fetches nothing, and the buffer still holds the previous point's block, which is
this point's: the weights and the normalisation vectors are fetched once, the hidden states, cosines and
sines at every point, and one statement covers both. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through: each the whole of its buffer -/

abbrev rH : Rect S1x256x2048 := Rect.unit (s := S1x256x2048) ![0, 0, 0] S1x256x2048.size inb_S1x256x2048_S1x256x2048_0_0_0
abbrev rWq : Rect S2048x2048 := Rect.unit (s := S2048x2048) ![0, 0] S2048x2048.size inb_S2048x2048_S2048x2048_0_0
abbrev rWkv : Rect S2048x1024 := Rect.unit (s := S2048x1024) ![0, 0] S2048x1024.size inb_S2048x1024_S2048x1024_0_0
abbrev rCS : Rect S1x256x128 := Rect.unit (s := S1x256x128) ![0, 0, 0] S1x256x128.size inb_S1x256x128_S1x256x128_0_0_0
abbrev rN : Rect S128 := Rect.unit (s := S128) ![0] S128.size inb_S128_S128_0
abbrev rKV : Rect S1x256x1024 := Rect.unit (s := S1x256x1024) ![0, 0, 0] S1x256x1024.size inb_S1x256x1024_S1x256x1024_0_0_0

/-! ## What the body leaves in each output buffer

Each output buffer is written once, whole; what is left is the store's payload, a function of the blocks read. -/

/-- The query rows: the hidden states times the query weights, normalised per head by the query
    normalisation weight, rotated by the cosines and sines, rounded to bf16. -/
def out0_8 (x0 : Vec F S1x256x2048 .f32) (x1 : Vec F S2048x2048 .bf16) (x4 x5 : Vec F S1x256x128 .f32) (x6 : Vec F S128 .f32) : Vec F S1x256x2048 .bf16 :=
  View.canon [⟨rH, k0_pay9 (k0_pay5 (View.ld x0 rH) (View.ld x1 rWq) (View.ld x6 rN)) (View.ld x4 rCS) (View.ld x5 rCS)⟩]

/-- The key rows: the same with the key weights and the key normalisation weight. -/
def out0_9 (x0 : Vec F S1x256x2048 .f32) (x2 : Vec F S2048x1024 .bf16) (x4 x5 : Vec F S1x256x128 .f32) (x7 : Vec F S128 .f32) : Vec F S1x256x1024 .bf16 :=
  View.canon [⟨rKV, k0_pay10 (k0_pay3 (View.ld x0 rH) (View.ld x2 rWkv)) (View.ld x7 rN) (k0_pay6 (View.ld x0 rH) (View.ld x2 rWkv)) (View.ld x4 rCS) (View.ld x5 rCS)⟩]

/-- The value rows: the hidden states times the value weights, rounded to bf16. -/
def out0_10 (x0 : Vec F S1x256x2048 .f32) (x3 : Vec F S2048x1024 .bf16) : Vec F S1x256x1024 .bf16 :=
  View.canon [⟨rKV, k0_pay1 (k0_pay11 (k0_pay4 (View.ld x0 rH) (View.ld x3 rWkv)))⟩]

/-- A whole-buffer store covers its buffer. -/
theorem cover0_8 (p0 : Vec F S1x256x2048 .bf16) (y : S1x256x2048.Idx) :
    ∃ pc ∈ ([⟨rH, p0⟩] : List (View.Piece (Elt F) S1x256x2048 .bf16)), y ∈ pc.1.set :=
  View.cover_of_tiled [⟨rH, p0⟩] S1x256x2048.size (by rfl) y

theorem cover0_9 (p0 : Vec F S1x256x1024 .bf16) (y : S1x256x1024.Idx) :
    ∃ pc ∈ ([⟨rKV, p0⟩] : List (View.Piece (Elt F) S1x256x1024 .bf16)), y ∈ pc.1.set :=
  View.cover_of_tiled [⟨rKV, p0⟩] S1x256x1024.size (by rfl) y

/-! ## The body on whole buffers

The body, run on eleven whole buffers of which the first eight read `x0 … x7` and the last three hold anything,
returns the eight as they were and the three at `out0_8`, `out0_9`, `out0_10` of what was read. It reads each
input once, whole; before each store it reads the output buffer it is about to overwrite, and drops the value. -/

set_option maxHeartbeats 4000000 in
theorem sound_kernel0 (c : Dev nD) (E : Set ℕ) (i : grid0.Coords) (a0 : Memref sig .tc .vmem S1x256x2048 .f32) (h0 : a0.IsWhole) (a1 : Memref sig .tc .vmem S2048x2048 .bf16) (h1 : a1.IsWhole) (a2 : Memref sig .tc .vmem S2048x1024 .bf16) (h2 : a2.IsWhole) (a3 : Memref sig .tc .vmem S2048x1024 .bf16) (h3 : a3.IsWhole) (a4 : Memref sig .tc .vmem S1x256x128 .f32) (h4 : a4.IsWhole) (a5 : Memref sig .tc .vmem S1x256x128 .f32) (h5 : a5.IsWhole) (a6 : Memref sig .tc .vmem S128 .f32) (h6 : a6.IsWhole) (a7 : Memref sig .tc .vmem S128 .f32) (h7 : a7.IsWhole) (a8 : Memref sig .tc .vmem S1x256x2048 .bf16) (h8 : a8.IsWhole) (a9 : Memref sig .tc .vmem S1x256x1024 .bf16) (h9 : a9.IsWhole) (a10 : Memref sig .tc .vmem S1x256x1024 .bf16) (h10 : a10.IsWhole)
    (x0 : Vec F S1x256x2048 .f32) (x1 : Vec F S2048x2048 .bf16) (x2 : Vec F S2048x1024 .bf16) (x3 : Vec F S2048x1024 .bf16) (x4 : Vec F S1x256x128 .f32) (x5 : Vec F S1x256x128 .f32) (x6 : Vec F S128 .f32) (x7 : Vec F S128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
        ∗ (∃ d, owns (c : Thread nD τ) a8 fullShare d) ∗ (∃ d, owns (c : Thread nD τ) a9 fullShare d) ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
            ∗ owns (c : Thread nD τ) a8 fullShare (out0_8 x0 x1 x4 x5 x6) ∗ owns (c : Thread nD τ) a9 fullShare (out0_9 x0 x2 x4 x5 x7) ∗ owns (c : Thread nD τ) a10 fullShare (out0_10 x0 x3)) -∗ K ⟨⟩))
      ⊢ wp frame (wpE (defs₀ (F := F)) Variants.none c none) E (cc0__proj_kernel i a0 h0 a1 h1 a2 h2 a3 h3 a4 h4 a5 h5 a6 h6 a7 h7 a8 h8 a9 h9 a10 h10) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_8 _)
  isplitl [H9]
  · iexists _; isplitr
    swap; · iexact H9
    ipureintro
    exact View.read_writes_eq_canon _ _ _ (cover0_9 _)
  iexists _; isplitr
  swap; · iexact H10
  ipureintro
  exact View.read_writes_eq_canon _ _ _ (cover0_9 _)

/-! ## The region's proof data -/

/-- The arrays as the region finds them; after the body at point `t`, each input's buffer at its block and each
    output's at the closed form of the blocks read there; the invariant the plain one (the other scoped buffers
    and the generator register, untouched); full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 4 t) (iblk0 V c 5 t) (iblk0 V c 6 t)
    | ⟨9, _⟩ => out0_9 (iblk0 V c 0 t) (iblk0 V c 2 t) (iblk0 V c 4 t) (iblk0 V c 5 t) (iblk0 V c 7 t)
    | ⟨10, _⟩ => out0_10 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 4 t) (iblk0 V c 5 t) (iblk0 V c 6 t) := by dsimp only [dat0]
theorem after0_9 (c : Dev nD) (t : Fin cfg0.N) : (dat0 V c).after 9 t = out0_9 (iblk0 V c 0 t) (iblk0 V c 2 t) (iblk0 V c 4 t) (iblk0 V c 5 t) (iblk0 V c 7 t) := by dsimp only [dat0]
theorem after0_10 (c : Dev nD) (t : Fin cfg0.N) : (dat0 V c).after 10 t = out0_10 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation -/

/-- What the body is handed at point `t`: the invariant, the core's debt, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 4000000 in
/-- At any point the inputs' buffers hold their blocks, so the body's triple on whole buffers applies; the
    invariant and the debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation0 (c : Dev nD) : BodyObligation (dat0 (F := F) V c) (defs₀ (F := F)) Variants.none () Set.univ := fun t => by
  rw [bigSep_W0, bigSep_W0]
  exact sound_body0 V c t

end Cert.KernelIdeal.Proj

end
-- ==== Proof.AttnFrame.lean ====
/-
  The frame half of the attention region, at any float family.

  The region walks a grid of batch × query block × head, the head innermost. At each point the body reads a block of
  queries, the head's keys and values, the whole output weight and a block of the mask; it stores the softmax of the
  scaled, masked scores into the weights' window, and adds the head's term of the output projection — the weighted
  values times the 128 rows of the output weight that belong to the head — into an accumulator the body keeps between
  points. The accumulator is zeroed at head 0 and copied to the output window at head 15; at the other heads the output
  window is left as it was found and is not written back.

  Stated here, at a parameter `V` (what the arrays hold when the region is entered): each window's block at a point;
  what the three kinds of point leave in the two output windows and in the accumulator, as functions of the blocks; the
  accumulator after each point, by recursion on the point; the invariant that carries it; the proof data and the body's
  obligation at every point; and that the invariant starts from and gives back what the launch hands the region.
-/
import proofs.«420301_j24240795419151_3_alg».proof.Proof.Gen.KernelIdeal.Launch
import proofs.«420301_j24240795419151_3_alg».proof.Proof.Gen.KernelIdeal.Skeleton
import proofs.«420301_j24240795419151_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.AttnR

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A rectangle that is the whole shape

Every buffer but the output weight is read and written whole: through the rectangle at zero offsets of the shape's own
extents. Every index lies in it, a load through it reads the contents, a store through it leaves its payload whatever
was stored before, and a load of what one such store left reads that payload. -/

section Whole

variable {Val : EltTy → Type} {S : Shape} {e : EltTy}

theorem mem_whole {off : Fin S.rank → ℕ} (h : off = fun _ => 0) (inb : ∀ a, off a + S.size a ≤ S.size a) (y : S.Idx) :
    y ∈ (Rect.unit off S.size inb).set := by
  subst h
  show y ∈ (Rect.whole S).set
  rw [Rect.set_whole]
  exact Finset.mem_univ y

theorem ld_whole {off : Fin S.rank → ℕ} (h : off = fun _ => 0) (inb : ∀ a, off a + S.size a ≤ S.size a)
    (X : S.Idx → Val e) : View.ld X (Rect.unit off S.size inb) = X := by
  subst h
  funext x
  show X ((Rect.whole S).emb x) = X x
  rw [Rect.emb_whole_apply]

theorem canon_cons_whole [∀ e, Nonempty (Val e)] {off : Fin S.rank → ℕ} (h : off = fun _ => 0)
    (inb : ∀ a, off a + S.size a ≤ S.size a) (w : S.Idx → Val e) (L : List (View.Piece Val S e)) :
    View.canon ((⟨Rect.unit off S.size inb, w⟩ : View.Piece Val S e) :: L) = w := by
  subst h
  funext y
  have hy := View.canon_cons_emb (Val := Val) (Rect.whole S) w L y
  rw [Rect.emb_whole_apply] at hy
  exact hy

theorem cover_whole {off : Fin S.rank → ℕ} (h : off = fun _ => 0) (inb : ∀ a, off a + S.size a ≤ S.size a)
    (w : S.Idx → Val e) (L : List (View.Piece Val S e)) (y : S.Idx) :
    ∃ p ∈ ((⟨Rect.unit off S.size inb, w⟩ : View.Piece Val S e) :: L), y ∈ p.1.set :=
  ⟨_, List.mem_cons_self, mem_whole h inb y⟩

theorem readCov_whole [∀ e, Nonempty (Val e)] {sig : RefSig} {κ : Kind} {sp : Space} (v : View sig κ sp S e)
    {off : Fin S.rank → ℕ} (h : off = fun _ => 0) (inb : ∀ a, off a + S.size a ≤ S.size a) (w : S.Idx → Val e)
    (L : List (View.Piece Val S e)) :
    v.readCov ((⟨Rect.unit off S.size inb, w⟩ : View.Piece Val S e) :: L) (Rect.unit off S.size inb).toLoadRect = w := by
  rw [View.readCov_eq_canon_ld v _ _ (cover_whole h inb w L), canon_cons_whole h inb, ld_whole h inb]

theorem z2 : (![0, 0] : Fin 2 → ℕ) = fun _ => 0 := by funext a; fin_cases a <;> rfl
theorem z3 : (![0, 0, 0] : Fin 3 → ℕ) = fun _ => 0 := by funext a; fin_cases a <;> rfl
theorem z4 : (![0, 0, 0, 0] : Fin 4 → ℕ) = fun _ => 0 := by funext a; fin_cases a <;> rfl

end Whole

variable (V : (c : Dev nD) → (b : Ref sig .tc) → Buf (Elt F) ((c : Thread nD τ).loc b))

/-- Window `w`'s block at point `t`, read off its array at the region-entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body reads and writes through: each buffer whole, and the 128 rows of the output weight
that belong to the point's head. -/

abbrev rQ : Rect S1x256x128 := Rect.unit (s := S1x256x128) ![0, 0, 0] S1x256x128.size inb_S1x256x128_S1x256x128_0_0_0
abbrev rK : Rect S1x2048x128 := Rect.unit (s := S1x2048x128) ![0, 0, 0] S1x2048x128.size inb_S1x2048x128_S1x2048x128_0_0_0
abbrev rM : Rect S1x1x256x2048 := Rect.unit (s := S1x1x256x2048) ![0, 0, 0, 0] S1x1x256x2048.size inb_S1x1x256x2048_S1x1x256x2048_0_0_0_0
abbrev rS : Rect S256x2048 := Rect.unit (s := S256x2048) ![0, 0] S256x2048.size inb_S256x2048_S256x2048_0_0
abbrev rO : Rect S1x256x2048 := Rect.unit (s := S1x256x2048) ![0, 0, 0] S1x256x2048.size inb_S1x256x2048_S1x256x2048_0_0_0
abbrev rW (i : grid1.Coords) : Rect S2048x2048 := Rect.unit (s := S2048x2048) (k1_off1 i) S128x2048.size (k1_off1_inb i)

/-- What every point leaves in the attention-weights window: its one whole store. -/
def aw1 (x0 : Vec F S1x256x128 .bf16) (x1 : Vec F S1x2048x128 .bf16) (x4 : Vec F S1x1x256x2048 .f32) : Vec F S1x1x256x2048 .f32 :=
  View.canon [⟨rM, k1_pay6 (View.ld x0 rQ) (View.ld x1 rK) (View.ld x4 rM)⟩]

/-- What the accumulating store leaves in the scratch when it held `prev`: the head's term added to `prev`. -/
def accStep (i : grid1.Coords) (x0 : Vec F S1x256x128 .bf16) (x1 x2 : Vec F S1x2048x128 .bf16) (x3 : Vec F S2048x2048 .bf16)
    (x4 : Vec F S1x1x256x2048 .f32) (prev : Vec F S256x2048 .f32) : Vec F S256x2048 .f32 :=
  View.canon [⟨rS, k1_pay1 (k1_pay4 (View.ld x2 rK)) (k1_pay7 (View.ld x0 rQ) (View.ld x1 rK) (View.ld x4 rM))
    (constant S256x128 .f32 0x00000000#32) (View.ld x3 (rW i)) (View.ld prev rS)⟩]

/-- What the last head's point leaves in the output window: the accumulator, reshaped. -/
def out1_6 (acc : Vec F S256x2048 .f32) : Vec F S1x256x2048 .f32 :=
  View.canon [⟨rO, k1_pay2 (View.ld acc rS)⟩]

abbrev condA (i : grid1.Coords) : Prop := (Scalar.cmpi .ne (Scalar.extui (Scalar.cmpi .eq (BitVec.ofNat 32 (i 2).val) 0#32)) 0#32) = 1#1
abbrev condC (i : grid1.Coords) : Prop := k1_cond2 i = 1#1

set_option maxHeartbeats 1000000 in
theorem runA (c : Dev nD) (E : Set ℕ) (i : grid1.Coords)
    (arg3 : Memref sig .tc .vmem S1x256x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S2048x2048 .bf16) (harg6 : arg6.IsWhole)
    (arg7 : Memref sig .tc .vmem S1x1x256x2048 .f32) (harg7 : arg7.IsWhole) (arg8 : Memref sig .tc .vmem S1x1x256x2048 .f32) (harg8 : arg8.IsWhole)
    (arg9 : Memref sig .tc .vmem S1x256x2048 .f32) (harg9 : arg9.IsWhole) (arg10 : Memref sig .tc .vmem S256x2048 .f32) (harg10 : arg10.IsWhole)
    (hcA : condA i) (hcC : ¬condC i)
    (x0 : Vec F S1x256x128 .bf16) (x1 x2 : Vec F S1x2048x128 .bf16) (x3 : Vec F S2048x2048 .bf16) (x4 : Vec F S1x1x256x2048 .f32)
    (xi6 : Vec F S1x256x2048 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (∃ d, owns (c : Thread nD τ) arg8 fullShare d) ∗ owns (c : Thread nD τ) arg9 fullShare xi6 ∗ (∃ d, owns (c : Thread nD τ) arg10 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (aw1 x0 x1 x4) ∗ owns (c : Thread nD τ) arg9 fullShare xi6
            ∗ owns (c : Thread nD τ) arg10 fullShare (accStep i x0 x1 x2 x3 x4 (k1_pay3 (F := F)))) -∗ K ⟨⟩))
      ⊢ wp frame (wpE (defs₀ (F := F)) Variants.none c none) E
          (cc1__attn_outproj_kernel i arg3 harg3 arg4 harg4 arg5 harg5 arg6 harg6 arg7 harg7 arg8 harg8 arg9 harg9 arg10 harg10) K := by
  simp only [cc1__attn_outproj_kernel_eq_skeleton]; unfold cc1__attn_outproj_kernel_skel
  simp only [k1_part1_eq_skeleton]; unfold k1_part1_skel
  unfold owns

  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds, %fs, -, HS⟩, Hk⟩
  subst hf0 hf1 hf2 hf3 hf4 hf6
  sl_exec (disch := first | exact hcA | exact hcC)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_whole z4 _ _ _)
  isplitl [H6]
  · iexists f6; isplitr; · ipureintro; rfl
    iexact H6
  iexists _; isplitr
  swap; · iexact HS
  ipureintro
  -- the zeros just stored are what the accumulating step loads
  have e : runA.sl.v37 (F := F) c arg10 = View.ld (k1_pay3 (F := F)) rS :=
    (readCov_whole arg10.view z2 _ _ []).trans (ld_whole (Val := Elt F) (S := S256x2048) (e := .f32) z2 inb_S256x2048_S256x2048_0_0 (k1_pay3 (F := F))).symm
  refine (View.read_writes_eq_canon _ _ _ (cover_whole z2 _ _ _)).trans ?_
  refine (canon_cons_whole z2 _ _ _).trans ?_
  unfold accStep
  refine Eq.trans ?_ (canon_cons_whole z2 _ _ _).symm
  exact congrArg (k1_pay1 _ _ _ _) e

set_option maxHeartbeats 1000000 in
theorem runB (c : Dev nD) (E : Set ℕ) (i : grid1.Coords)
    (arg3 : Memref sig .tc .vmem S1x256x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S2048x2048 .bf16) (harg6 : arg6.IsWhole)
    (arg7 : Memref sig .tc .vmem S1x1x256x2048 .f32) (harg7 : arg7.IsWhole) (arg8 : Memref sig .tc .vmem S1x1x256x2048 .f32) (harg8 : arg8.IsWhole)
    (arg9 : Memref sig .tc .vmem S1x256x2048 .f32) (harg9 : arg9.IsWhole) (arg10 : Memref sig .tc .vmem S256x2048 .f32) (harg10 : arg10.IsWhole)
    (hcA : ¬condA i) (hcC : ¬condC i)
    (x0 : Vec F S1x256x128 .bf16) (x1 x2 : Vec F S1x2048x128 .bf16) (x3 : Vec F S2048x2048 .bf16) (x4 : Vec F S1x1x256x2048 .f32)
    (xi6 : Vec F S1x256x2048 .f32) (prev : Vec F S256x2048 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (∃ d, owns (c : Thread nD τ) arg8 fullShare d) ∗ owns (c : Thread nD τ) arg9 fullShare xi6 ∗ owns (c : Thread nD τ) arg10 fullShare prev
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (aw1 x0 x1 x4) ∗ owns (c : Thread nD τ) arg9 fullShare xi6
            ∗ owns (c : Thread nD τ) arg10 fullShare (accStep i x0 x1 x2 x3 x4 prev)) -∗ K ⟨⟩))
      ⊢ wp frame (wpE (defs₀ (F := F)) Variants.none c none) E
          (cc1__attn_outproj_kernel i arg3 harg3 arg4 harg4 arg5 harg5 arg6 harg6 arg7 harg7 arg8 harg8 arg9 harg9 arg10 harg10) K := by
  simp only [cc1__attn_outproj_kernel_eq_skeleton]; unfold cc1__attn_outproj_kernel_skel
  simp only [k1_part1_eq_skeleton]; unfold k1_part1_skel
  unfold owns

  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs, %hfs, HS⟩, Hk⟩
  subst hf0 hf1 hf2 hf3 hf4 hf6 hfs
  sl_exec (disch := first | exact hcA | exact hcC)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_whole z4 _ _ _)
  isplitl [H6]
  · iexists f6; isplitr; · ipureintro; rfl
    iexact H6
  iexists _; isplitr
  swap; · iexact HS
  ipureintro
  exact View.read_writes_eq_canon _ _ _ (cover_whole z2 _ _ _)

set_option maxHeartbeats 1000000 in
theorem runC (c : Dev nD) (E : Set ℕ) (i : grid1.Coords)
    (arg3 : Memref sig .tc .vmem S1x256x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S2048x2048 .bf16) (harg6 : arg6.IsWhole)
    (arg7 : Memref sig .tc .vmem S1x1x256x2048 .f32) (harg7 : arg7.IsWhole) (arg8 : Memref sig .tc .vmem S1x1x256x2048 .f32) (harg8 : arg8.IsWhole)
    (arg9 : Memref sig .tc .vmem S1x256x2048 .f32) (harg9 : arg9.IsWhole) (arg10 : Memref sig .tc .vmem S256x2048 .f32) (harg10 : arg10.IsWhole)
    (hcA : ¬condA i) (hcC : condC i)
    (x0 : Vec F S1x256x128 .bf16) (x1 x2 : Vec F S1x2048x128 .bf16) (x3 : Vec F S2048x2048 .bf16) (x4 : Vec F S1x1x256x2048 .f32)
    (prev : Vec F S256x2048 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (∃ d, owns (c : Thread nD τ) arg8 fullShare d) ∗ (∃ d, owns (c : Thread nD τ) arg9 fullShare d) ∗ owns (c : Thread nD τ) arg10 fullShare prev
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (aw1 x0 x1 x4) ∗ owns (c : Thread nD τ) arg9 fullShare (out1_6 (accStep i x0 x1 x2 x3 x4 prev))
            ∗ owns (c : Thread nD τ) arg10 fullShare (accStep i x0 x1 x2 x3 x4 prev)) -∗ K ⟨⟩))
      ⊢ wp frame (wpE (defs₀ (F := F)) Variants.none c none) E
          (cc1__attn_outproj_kernel i arg3 harg3 arg4 harg4 arg5 harg5 arg6 harg6 arg7 harg7 arg8 harg8 arg9 harg9 arg10 harg10) K := by
  simp only [cc1__attn_outproj_kernel_eq_skeleton]; unfold cc1__attn_outproj_kernel_skel
  simp only [k1_part1_eq_skeleton]; unfold k1_part1_skel
  unfold owns

  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
  subst hf0 hf1 hf2 hf3 hf4 hfs
  sl_exec (disch := first | exact hcA | exact hcC)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_whole z4 _ _ _)
  isplitl [H6]
  · iexists _; isplitr
    swap; · iexact H6
    ipureintro
    -- the closing load reads what the accumulating step just stored
    have e : runC.sl.v46 c i arg3 arg4 arg5 arg6 arg7 arg10 f0 f1 f2 f3 f4 fs
        = View.ld (accStep i (arg3.view.read (Elt F) f0) (arg4.view.read (Elt F) f1) (arg5.view.read (Elt F) f2)
            (arg6.view.read (Elt F) f3) (arg7.view.read (Elt F) f4) (arg10.view.read (Elt F) fs)) rS :=
      View.readCov_eq_canon_ld _ _ _ (cover_whole z2 _ _ _)
    refine (View.read_writes_eq_canon _ _ _ (cover_whole z3 _ _ _)).trans ?_
    unfold out1_6
    exact congrArg (fun v => View.canon [(⟨rO, k1_pay2 v⟩ : View.Piece (Elt F) S1x256x2048 .f32)]) e
  iexists _; isplitr
  swap; · iexact HS
  ipureintro
  exact View.read_writes_eq_canon _ _ _ (cover_whole z2 _ _ _)

/-! ## The branch conditions over the grid

The innermost coordinate is the head. The accumulator is zeroed where it is 0 and the output is stored where it is 15;
elsewhere the output window is idle and is not written back. -/

theorem hcondA : ∀ t : Fin cfg1.N, condA (grid1.coords t) ↔ t.val % 16 = 0 :=
  (by decide +kernel : ∀ t : Fin grid1.N, condA (grid1.coords t) ↔ t.val % 16 = 0)
theorem hcondC : ∀ t : Fin cfg1.N, condC (grid1.coords t) ↔ t.val % 16 = 15 :=
  (by decide +kernel : ∀ t : Fin grid1.N, condC (grid1.coords t) ↔ t.val % 16 = 15)
theorem idle6_of_ne : ∀ t : Fin cfg1.N, ¬t.val % 16 = 15 → cfg1.idle 6 (grid1.coords t) = true :=
  (by decide +kernel : ∀ t : Fin grid1.N, ¬t.val % 16 = 15 → idle1 6 (grid1.coords t) = true)
theorem live6_of_eq : ∀ t : Fin cfg1.N, t.val % 16 = 15 → cfg1.idle 6 (grid1.coords t) = false :=
  (by decide +kernel : ∀ t : Fin grid1.N, t.val % 16 = 15 → idle1 6 (grid1.coords t) = false)
theorem noFlush6_of_ne (t : Fin cfg1.N) (h : ¬t.val % 16 = 15) : (cfg1.win 6).flush t = false := by
  cases hb : (cfg1.win 6).flush t with
  | false => rfl
  | true => exact absurd ((flush1_6 t).mp hb) h

/-! ## The inputs' buffers hold their blocks at every point, fetched there or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator after each point -/

/-- The scratch after point `n`: at a head-0 point the step over the zeros, elsewhere over what the point before left. -/
def accAt1 (c : Dev nD) : (n : ℕ) → n < cfg1.N → Vec F S256x2048 .f32
  | 0, hn => accStep (grid1.coords ⟨0, hn⟩) (iblk1 V c 0 ⟨0, hn⟩) (iblk1 V c 1 ⟨0, hn⟩) (iblk1 V c 2 ⟨0, hn⟩) (iblk1 V c 3 ⟨0, hn⟩) (iblk1 V c 4 ⟨0, hn⟩) (k1_pay3 (F := F))
  | n + 1, hn =>
    if (n + 1) % 16 = 0 then
      accStep (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (k1_pay3 (F := F))
    else
      accStep (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (accAt1 c n (Nat.lt_of_succ_lt hn))

theorem accAt1_zero (c : Dev nD) (t : Fin cfg1.N) (h0 : t.val % 16 = 0) :
    accAt1 V c t.val t.isLt = accStep (grid1.coords t) (iblk1 V c 0 t) (iblk1 V c 1 t) (iblk1 V c 2 t) (iblk1 V c 3 t) (iblk1 V c 4 t) (k1_pay3 (F := F)) := by
  obtain ⟨n, hn⟩ := t
  cases n with
  | zero => rfl
  | succ n => exact (if_pos h0).trans rfl

theorem accAt1_step (c : Dev nD) (t : Fin cfg1.N) (h0 : ¬t.val % 16 = 0) :
    accAt1 V c t.val t.isLt = accStep (grid1.coords t) (iblk1 V c 0 t) (iblk1 V c 1 t) (iblk1 V c 2 t) (iblk1 V c 3 t) (iblk1 V c 4 t) (accAt1 V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The invariant: what the region holds between points beside the windows -/

/-- The first region's staging buffers, which this region never touches: each whole at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f))

/-- The accumulator, as the memref the body is called with. -/
abbrev scM : Memref sig .tc .vmem S256x2048 .f32 := Memref.whole cc1_scratch0

/-- What the launch hands the region gives the first region's staging buffers, the accumulator at some contents and the
    generator register; -/
theorem PhiA_open (c : Dev nD) :
    (Pipeline.ΦA spec1 c : sProp 𝕄) ⊢ iprop((others c ∗ (∃ d, owns (c : Thread nD τ) scM fullShare d)) ∗ ∃ r, prngReg c r) := by
  unfold Pipeline.ΦA others
  rw [scopedRest1_eq]
  simp only [owns_whole]
  iintro ⟨⟨R0, R1, R2, R3, R4, R5, R6, R7, R8, R9, R10, R11, R12, R13, R14, R15, R16, ⟨%fS, HS⟩⟩, Hg⟩
  isplitr [Hg]
  swap; · iexact Hg
  isplitr [HS]
  swap
  · iexists fS; iexact HS
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  iexact R16

/-- and those three give it back. -/
theorem PhiA_close (c : Dev nD) :
    iprop((others c ∗ (∃ d, owns (c : Thread nD τ) scM fullShare d)) ∗ ∃ r, prngReg c r) ⊢ (Pipeline.ΦA spec1 c : sProp 𝕄) := by
  unfold Pipeline.ΦA others
  rw [scopedRest1_eq]
  simp only [owns_whole]
  iintro ⟨⟨⟨R0, R1, R2, R3, R4, R5, R6, R7, R8, R9, R10, R11, R12, R13, R14, R15, R16⟩, ⟨%d, HS⟩⟩, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  iexists d; iexact HS

/-- The invariant before position `n`: before the first point what the launch hands over; afterwards the first region's
    staging buffers at anything, the accumulator at what the point before left, and the generator register. -/
def PhiS (c : Dev nD) : (n : ℕ) → n ≤ cfg1.N → sProp 𝕄
  | 0, _ => Pipeline.ΦA spec1 c
  | n + 1, hn => iprop((others c ∗ owns (c : Thread nD τ) scM fullShare (accAt1 V c n hn)) ∗ ∃ r, prngReg c r)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((others c ∗ owns (c : Thread nD τ) scM fullShare (accAt1 V c n hn)) ∗ ∃ r, prngReg c r) := rfl

theorem PhiS_pos (c : Dev nD) (n : ℕ) (h : n ≤ cfg1.N) (hz : n ≠ 0) :
    PhiS V c n h = iprop((others c ∗ owns (c : Thread nD τ) scM fullShare (accAt1 V c (n - 1) (by omega))) ∗ ∃ r, prngReg c r) := by
  cases n with
  | zero => exact absurd rfl hz
  | succ n => rfl

/-! ## The proof data -/

/-- The arrays as the region finds them; after the body at a point each input's buffer at its block, the weights'
    window at the softmax of the point's head, the output window at the accumulator after the point; the invariant
    `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => aw1 (iblk1 V c 0 t) (iblk1 V c 1 t) (iblk1 V c 4 t)
    | ⟨6, _⟩ => out1_6 (accAt1 V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = aw1 (iblk1 V c 0 t) (iblk1 V c 1 t) (iblk1 V c 4 t) := by dsimp only [dat1]
theorem after1_6 (c : Dev nD) (t : Fin cfg1.N) : (dat1 V c).after 6 t = out1_6 (accAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' buffers hold their blocks; the point's head says which of the three runs
    applies; the invariant hands the body the accumulator at what the point before left (at anything before the first
    point, and before a head-0 point its contents are not read) and takes it back at this point's contents; the first
    region's buffers, the generator register and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from rfl, after1_0]
  rw [show (dat1 V c).leavesExact 1 t = owns (c : Thread nD τ) (st1_1 t) fullShare ((dat1 V c).after 1 t) from rfl, after1_1]
  rw [show (dat1 V c).leavesExact 2 t = owns (c : Thread nD τ) (st1_2 t) fullShare ((dat1 V c).after 2 t) from rfl, after1_2]
  rw [show (dat1 V c).leavesExact 3 t = owns (c : Thread nD τ) (st1_3 t) fullShare ((dat1 V c).after 3 t) from rfl, after1_3]
  rw [show (dat1 V c).leavesExact 4 t = owns (c : Thread nD τ) (st1_4 t) fullShare ((dat1 V c).after 4 t) from rfl, after1_4]
  rw [show (dat1 V c).leavesExact 5 t = owns (c : Thread nD τ) (st1_5 t) fullShare ((dat1 V c).after 5 t) from rfl, after1_5]
  have hN : t.val < 256 := lt_of_lt_of_eq t.isLt (show cfg1.N = 256 from N_1)
  by_cases h0 : t.val % 16 = 0
  · have h15 : ¬t.val % 16 = 15 := by omega
    rw [Dat.leavesExact_idle (dat1 V c) 6 t (idle6_of_ne t h15) (noFlush6_of_ne t h15)]
    rw [accAt1_zero V c t h0]
    by_cases hz : t.val = 0
    · rw [PhiS_castSucc V c t, PhiS_zero V c _ _ hz]
      iintro ⟨HΦ, Ho, ⟨%d0, H0⟩, ⟨%d1, H1⟩, ⟨%d2, H2⟩, ⟨%d3, H3⟩, ⟨%d4, H4⟩, ⟨%d5, H5⟩, ⟨%d6, H6⟩⟩
      ihave HΦ' := (PhiA_open (F := F) c) $$ HΦ
      icases HΦ' with ⟨⟨HR, HS⟩, Hg⟩
      iapply (runA c Set.univ (grid1.coords t) _ _ _ _ _ _ _ _ _ _ _ _ _ _ _ _ ((hcondA t).mpr h0) (fun h => h15 ((hcondC t).mp h))
        (iblk1 V c 0 t) (iblk1 V c 1 t) (iblk1 V c 2 t) (iblk1 V c 3 t) (iblk1 V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS]; · iexact HS
      iintro ⟨H0, H1, H2, H3, H4, H5, H6, HS⟩
      isplitl [HR HS Hg]
      · isplitr [Hg]
        swap; · iexact Hg
        isplitl [HR]; · iexact HR
        iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc V c t, PhiS_pos V c _ _ hz]
      iintro ⟨⟨⟨HR, HS⟩, Hg⟩, Ho, ⟨%d0, H0⟩, ⟨%d1, H1⟩, ⟨%d2, H2⟩, ⟨%d3, H3⟩, ⟨%d4, H4⟩, ⟨%d5, H5⟩, ⟨%d6, H6⟩⟩
      iapply (runA c Set.univ (grid1.coords t) _ _ _ _ _ _ _ _ _ _ _ _ _ _ _ _ ((hcondA t).mpr h0) (fun h => h15 ((hcondC t).mp h))
        (iblk1 V c 0 t) (iblk1 V c 1 t) (iblk1 V c 2 t) (iblk1 V c 3 t) (iblk1 V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS]; · iexists _; iexact HS
      iintro ⟨H0, H1, H2, H3, H4, H5, H6, HS⟩
      isplitl [HR HS Hg]
      · isplitr [Hg]
        swap; · iexact Hg
        isplitl [HR]; · iexact HR
        iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    rw [accAt1_step V c t h0]
    rw [PhiS_castSucc V c t, PhiS_pos V c _ _ hz]
    by_cases h15 : t.val % 16 = 15
    · rw [show (dat1 V c).leavesExact 6 t = owns (c : Thread nD τ) (st1_6 t) fullShare ((dat1 V c).after 6 t) from by
        unfold Dat.leavesExact; rw [live6_of_eq t h15], after1_6, accAt1_step V c t h0]
      iintro ⟨⟨⟨HR, HS⟩, Hg⟩, Ho, ⟨%d0, H0⟩, ⟨%d1, H1⟩, ⟨%d2, H2⟩, ⟨%d3, H3⟩, ⟨%d4, H4⟩, ⟨%d5, H5⟩, ⟨%d6, H6⟩⟩
      iapply (runC c Set.univ (grid1.coords t) _ _ _ _ _ _ _ _ _ _ _ _ _ _ _ _ (fun h => h0 ((hcondA t).mp h)) ((hcondC t).mpr h15)
        (iblk1 V c 0 t) (iblk1 V c 1 t) (iblk1 V c 2 t) (iblk1 V c 3 t) (iblk1 V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS]; · iexact HS
      iintro ⟨H0, H1, H2, H3, H4, H5, H6, HS⟩
      isplitl [HR HS Hg]
      · isplitr [Hg]
        swap; · iexact Hg
        isplitl [HR]; · iexact HR
        iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat1 V c) 6 t (idle6_of_ne t h15) (noFlush6_of_ne t h15)]
      iintro ⟨⟨⟨HR, HS⟩, Hg⟩, Ho, ⟨%d0, H0⟩, ⟨%d1, H1⟩, ⟨%d2, H2⟩, ⟨%d3, H3⟩, ⟨%d4, H4⟩, ⟨%d5, H5⟩, ⟨%d6, H6⟩⟩
      iapply (runB c Set.univ (grid1.coords t) _ _ _ _ _ _ _ _ _ _ _ _ _ _ _ _ (fun h => h0 ((hcondA t).mp h)) (fun h => h15 ((hcondC t).mp h))
        (iblk1 V c 0 t) (iblk1 V c 1 t) (iblk1 V c 2 t) (iblk1 V c 3 t) (iblk1 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS]; · iexact HS
      iintro ⟨H0, H1, H2, H3, H4, H5, H6, HS⟩
      isplitl [HR HS Hg]
      · isplitr [Hg]
        swap; · iexact Hg
        isplitl [HR]; · iexact HR
        iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  refine BIBase.Entails.trans ?_ (PhiA_close c)
  iintro ⟨⟨HR, HS⟩, Hg⟩
  isplitr [Hg]
  swap; · iexact Hg
  isplitl [HR]; · iexact HR
  iexists _; iexact HS

theorem hout1 (c : Dev nD) : (dat1 V c).Φ (Fin.last cfg1.N) ⊢ Pipeline.ΦA spec1 c :=
  Phi_out1 V c _ (by rw [Fin.val_last]; have : cfg1.N = 256 := N_1; omega)

end Cert.KernelIdeal.AttnR

end
-- ==== Proof.AttnRun.lean ====
import proofs.«420301_j24240795419151_3_alg».proof.Proof.ProjFrame
import proofs.«420301_j24240795419151_3_alg».proof.Proof.AttnFrame

/-!
# The whole run: host casts, the projection region, the attention region

The program casts the four weight matrices, runs the projection region (which fills the query, key and value arrays)
and then the attention region (which fills the attention weights and the layer's output). This file follows the
contents of the core's arrays through those three stretches: after the casts; after the projection region, whose
three output arrays hold what its write-backs leave and every other array what it held; after the attention region
likewise. Every weakly fair execution terminates with every array at the last of these contents. In particular each
argument array ends as launched (no stretch writes one), and the two result arrays end at what the attention region's
write-backs leave.
-/

set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' contents at each boundary -/

/-- At launch. -/
abbrev W0 : Dev nD → Valuation τ sig (Elt F) := fun c b => (s₀ m ρ).mem ((c : Dev nD), b)
/-- After the four casts of the weights. -/
abbrev W1 : Dev nD → Valuation τ sig (Elt F) := fun c => StableHlo.after hostOps0 (W0 m ρ c)
/-- The same read at the core's own references: what the projection region is entered with. -/
abbrev V1 : (c : Dev nD) → (b : Ref sig .tc) → Buf (Elt F) ((c : Thread nD τ).loc b) := fun c b => W1 m ρ c b
/-- After the projection region: its windows' arrays at what its write-backs leave, every other array as entered. -/
def W2 (c : Dev nD) : Valuation τ sig (Elt F) :=
  Pipeline.withArrays spec0 c (W1 m ρ c) fun w => (Proj.dat0 (V1 m ρ) c).arrAt w cfg0.N
theorem W2_arr (c : Dev nD) (w : Fin cfg0.W) :
    W2 m ρ c (Proc.devRef .tc (Pipeline.arrRef spec0 w)) = (Proj.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's own references: what the attention region is entered with. -/
abbrev V2 : (c : Dev nD) → (b : Ref sig .tc) → Buf (Elt F) ((c : Thread nD τ).loc b) := fun c b => W2 m ρ c b
theorem hF0 (c : Dev nD) (w : Fin cfg0.W) : (Proj.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the attention region: its windows' arrays at what its write-backs leave, every other array as entered. -/
def W3 (c : Dev nD) : Valuation τ sig (Elt F) :=
  Pipeline.withArrays spec1 c (W2 m ρ c) fun w => (AttnR.dat1 (V2 m ρ) c).arrAt w cfg1.N
theorem W3_arr (c : Dev nD) (w : Fin cfg1.W) :
    W3 m ρ c (Proc.devRef .tc (Pipeline.arrRef spec1 w)) = (AttnR.dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (AttnR.dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## What each stretch leaves alone

An array that is no output of a region either is one of its input windows' arrays, which the region hands back as
entered, or is none of its windows' arrays at all; the casts write only the four cast buffers. -/

/-- The casts leave every array but the four they write. -/
theorem W1_keeps (c : Dev nD) (b : Ref sig .tc) (hb : b ∉ ([main_v0, main_v1, main_v2, main_v3] : List (Ref sig .tc))) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne (List.ne_of_not_mem_cons hb),
      StableHlo.devRef_ne_of_ne (List.ne_of_not_mem_cons (List.not_mem_of_not_mem_cons hb)),
      StableHlo.devRef_ne_of_ne (List.ne_of_not_mem_cons (List.not_mem_of_not_mem_cons (List.not_mem_of_not_mem_cons hb))),
      StableHlo.devRef_ne_of_ne (List.ne_of_not_mem_cons (List.not_mem_of_not_mem_cons (List.not_mem_of_not_mem_cons (List.not_mem_of_not_mem_cons hb))))⟩))

/-- The projection region leaves every array but its three outputs: an input window's array comes back as entered
    (`Dat.arrAt_in`), and an array of no window is untouched. -/
theorem W2_keeps (c : Dev nD) (b : Ref sig .tc)
    (hin : ∀ w : Fin cfg0.W, Pipeline.arrRef spec0 w = b → (cfg0.win w).isOut = false)
    (hb : b ∉ ([main_v4_0, main_v4_1, main_v4_2] : List (Ref sig .tc))) :
    W2 m ρ c (Proc.devRef .tc b) = W1 m ρ c (Proc.devRef .tc b) := by
  by_cases h : ∃ w : Fin cfg0.W, Pipeline.arrRef spec0 w = b
  · obtain ⟨w, rfl⟩ := h
    exact (W2_arr m ρ c w).trans (((Proj.dat0 (V1 m ρ) c).arrAt_in w (hin w rfl) _).trans (Proj.A_eq0 (V1 m ρ) c w))
  · exact W2_of_ne m ρ c b fun w e => h ⟨w, e⟩

/-- The attention region likewise leaves every array but its two outputs. -/
theorem W3_keeps (c : Dev nD) (b : Ref sig .tc)
    (hin : ∀ w : Fin cfg1.W, Pipeline.arrRef spec1 w = b → (cfg1.win w).isOut = false)
    (hb : b ∉ ([main_v5_0, main_v5_1] : List (Ref sig .tc))) :
    W3 m ρ c (Proc.devRef .tc b) = W2 m ρ c (Proc.devRef .tc b) := by
  by_cases h : ∃ w : Fin cfg1.W, Pipeline.arrRef spec1 w = b
  · obtain ⟨w, rfl⟩ := h
    exact (W3_arr m ρ c w).trans (((AttnR.dat1 (V2 m ρ) c).arrAt_in w (hin w rfl) _).trans (AttnR.A_eq1 (V2 m ρ) c w))
  · exact W3_of_ne m ρ c b fun w e => h ⟨w, e⟩

/-! ### Each argument ends as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_keeps m ρ c main_arg0 (by decide) (by decide)
    _ = W1 m ρ c (Proc.devRef .tc main_arg0) := W2_keeps m ρ c main_arg0 (by decide) (by decide)
    _ = W0 m ρ c (Proc.devRef .tc main_arg0) := W1_keeps m ρ c main_arg0 (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_keeps m ρ c main_arg1 (by decide) (by decide)
    _ = W1 m ρ c (Proc.devRef .tc main_arg1) := W2_keeps m ρ c main_arg1 (by decide) (by decide)
    _ = W0 m ρ c (Proc.devRef .tc main_arg1) := W1_keeps m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_keeps m ρ c main_arg2 (by decide) (by decide)
    _ = W1 m ρ c (Proc.devRef .tc main_arg2) := W2_keeps m ρ c main_arg2 (by decide) (by decide)
    _ = W0 m ρ c (Proc.devRef .tc main_arg2) := W1_keeps m ρ c main_arg2 (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_keeps m ρ c main_arg3 (by decide) (by decide)
    _ = W1 m ρ c (Proc.devRef .tc main_arg3) := W2_keeps m ρ c main_arg3 (by decide) (by decide)
    _ = W0 m ρ c (Proc.devRef .tc main_arg3) := W1_keeps m ρ c main_arg3 (by decide)
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_keeps m ρ c main_arg4 (by decide) (by decide)
    _ = W1 m ρ c (Proc.devRef .tc main_arg4) := W2_keeps m ρ c main_arg4 (by decide) (by decide)
    _ = W0 m ρ c (Proc.devRef .tc main_arg4) := W1_keeps m ρ c main_arg4 (by decide)
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_keeps m ρ c main_arg5 (by decide) (by decide)
    _ = W1 m ρ c (Proc.devRef .tc main_arg5) := W2_keeps m ρ c main_arg5 (by decide) (by decide)
    _ = W0 m ρ c (Proc.devRef .tc main_arg5) := W1_keeps m ρ c main_arg5 (by decide)
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_keeps m ρ c main_arg6 (by decide) (by decide)
    _ = W1 m ρ c (Proc.devRef .tc main_arg6) := W2_keeps m ρ c main_arg6 (by decide) (by decide)
    _ = W0 m ρ c (Proc.devRef .tc main_arg6) := W1_keeps m ρ c main_arg6 (by decide)
    _ = m ((c : Thread nD τ).loc main_arg6) := rfl
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_keeps m ρ c main_arg7 (by decide) (by decide)
    _ = W1 m ρ c (Proc.devRef .tc main_arg7) := W2_keeps m ρ c main_arg7 (by decide) (by decide)
    _ = W0 m ρ c (Proc.devRef .tc main_arg7) := W1_keeps m ρ c main_arg7 (by decide)
    _ = m ((c : Thread nD τ).loc main_arg7) := rfl
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_keeps m ρ c main_arg8 (by decide) (by decide)
    _ = W1 m ρ c (Proc.devRef .tc main_arg8) := W2_keeps m ρ c main_arg8 (by decide) (by decide)
    _ = W0 m ρ c (Proc.devRef .tc main_arg8) := W1_keeps m ρ c main_arg8 (by decide)
    _ = m ((c : Thread nD τ).loc main_arg8) := rfl
theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_keeps m ρ c main_arg9 (by decide) (by decide)
    _ = W1 m ρ c (Proc.devRef .tc main_arg9) := W2_keeps m ρ c main_arg9 (by decide) (by decide)
    _ = W0 m ρ c (Proc.devRef .tc main_arg9) := W1_keeps m ρ c main_arg9 (by decide)
    _ = m ((c : Thread nD τ).loc main_arg9) := rfl

/-! ## The proof data of both regions, and what rides beside the arrays -/

/-- No region has a prefetched table. -/
abbrev adm : (p : Fin 2) → (pcfgs (F := F) p).Adm := fun p => (cfgs p).toPCfg_adm
/-- Each region's proof data at the contents it is entered with. -/
def pdats : (p : Fin 2) → (c : Dev nD) → Dat τ (Elt F) Unit ℕ (UR sig nD τ) ℕ (Pipeline.pin (pcfgs (F := F)) adm p) c
  | ⟨0, _⟩ => fun c => Proj.dat0 (V1 m ρ) c
  | ⟨1, _⟩ => fun c => AttnR.dat1 (V2 m ρ) c
abbrev 𝒱₀ : Variants := Variants.none
/-- No core owes another anything. -/
abbrev L : GSem nD τ sig → Finset Unit := fun _ => ∅
abbrev lv : GSem nD τ sig → Unit → ℕ := fun _ _ => 0
/-- Beside the arrays: the generator register at some state, and nothing owed. -/
abbrev R (c : Dev nD) : sProp 𝕄 := iprop((∃ r, prngReg c r) ∗ ∃ W, owes (c : Thread nD τ) (0 : CellTallies nD τ sig Unit) W)
/-- The casts as a stretch of host operations over the arrays. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- No cast allocates a buffer. -/
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state: every array at the last contents, the generator register at some state. -/
abbrev Tₙ (c : Dev nD) : sProp 𝕄 := iprop(StableHlo.held (c : Thread nD τ) (Pipeline.ucRefs τ sig) (W3 m ρ c) ∗ ∃ r, prngReg c r)

/-! ## The two regions as segments

Each region takes its windows' arrays out of the core's arrays at the contents it is entered with, runs its pipeline
under its body's obligation, and puts the arrays back at what the write-backs leave; the generator register goes into
the region's invariant and comes back; nothing is owed and the kernels have no semaphore of their own. The attention
region's invariant names the carried scratch's contents between points; at its two ends it is the plain one. -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_)
    unfold Pipeline.ΦA
    iintro ⟨Hp, -, Hr⟩
    isplitl [Hr]; · iexact Hr
    iexact Hp
  hout c := by
    rw [Pipeline.ownSems0_none]
    refine (show Pipeline.ΦA spec0 c ⊢ _ from ?_)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (AttnR.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (AttnR.hin1 (V2 m ρ) c)
    unfold Pipeline.ΦA
    iintro ⟨Hp, -, Hr⟩
    isplitl [Hr]; · iexact Hr
    iexact Hp
  hout c := by
    rw [Pipeline.ownSems0_none]
    refine (AttnR.hout1 (V2 m ρ) c).trans (show Pipeline.ΦA spec1 c ⊢ _ from ?_)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its three stretches, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution terminates, nothing faulting, with every argument
    array as launched and the two result arrays at what the attention region's write-backs leave. -/
theorem run_all : θ_run defs (onTc (τ := τ) (main (F := F))) ⟨m, fun _ => 0, ρ⟩ (fun r => ∀ c : Dev nD,
      r.2.mem ((c.tc : Thread nD τ).loc main_v5_1) = (AttnR.dat1 (V2 m ρ) c).arrAt 6 cfg1.N
      ∧ r.2.mem ((c.tc : Thread nD τ).loc main_v5_0) = (AttnR.dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v5_1 (by decide))).trans (W3_arr m ρ c 6),
        (h c _ (mem_uc main_v5_0 (by decide))).trans (W3_arr m ρ c 5),
        (h c _ (mem_uc main_arg0 (by decide))).trans (W3_main_arg0 m ρ c),
        (h c _ (mem_uc main_arg1 (by decide))).trans (W3_main_arg1 m ρ c),
        (h c _ (mem_uc main_arg2 (by decide))).trans (W3_main_arg2 m ρ c),
        (h c _ (mem_uc main_arg3 (by decide))).trans (W3_main_arg3 m ρ c),
        (h c _ (mem_uc main_arg4 (by decide))).trans (W3_main_arg4 m ρ c),
        (h c _ (mem_uc main_arg5 (by decide))).trans (W3_main_arg5 m ρ c),
        (h c _ (mem_uc main_arg6 (by decide))).trans (W3_main_arg6 m ρ c),
        (h c _ (mem_uc main_arg7 (by decide))).trans (W3_main_arg7 m ρ c),
        (h c _ (mem_uc main_arg8 (by decide))).trans (W3_main_arg8 m ρ c),
        (h c _ (mem_uc main_arg9 (by decide))).trans (W3_main_arg9 m ρ c)⟩)

end Cert.KernelIdeal.Run

end
-- ==== Proof.ProjValGeom.lean ====
/-
  The geometry of the projection region's windows over its 2 × 8 grid, decided once: the hidden states, the cosines,
  the sines and the three outputs move together (batch on axis 0, block of 256 rows on axis 1, block 0 on axis 2);
  the weights and the normalisation vectors stay at block 0; every (batch, row block) pair is some point's.
-/
import proofs.«420301_j24240795419151_3_alg».proof.Proof.Gen.KernelIdeal.Points
import Mathlib.Tactic.FinCases

noncomputable section

namespace Cert.KernelIdeal.ProjVal

open Cert.KernelIdeal Cert.KernelIdeal.Gen Idealize.ShloMosaic

/-! ## Zero offsets, however spelt -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The index maps over the grid

The hidden states, the cosines, the sines and the three outputs move together: batch on axis 0, row block on axis 1,
block 0 on axis 2. The weights and the normalisation vectors stay at block 0. -/

theorem idx_in : ∀ t : Fin cfg0.N,
    win0_0.index t (0 : Fin 3) = win0_8.index t (0 : Fin 3) ∧ win0_0.index t (1 : Fin 3) = win0_8.index t (1 : Fin 3)
    ∧ win0_0.index t (2 : Fin 3) = 0
    ∧ win0_4.index t (0 : Fin 3) = win0_8.index t (0 : Fin 3) ∧ win0_4.index t (1 : Fin 3) = win0_8.index t (1 : Fin 3)
    ∧ win0_4.index t (2 : Fin 3) = 0
    ∧ win0_5.index t (0 : Fin 3) = win0_8.index t (0 : Fin 3) ∧ win0_5.index t (1 : Fin 3) = win0_8.index t (1 : Fin 3)
    ∧ win0_5.index t (2 : Fin 3) = 0 :=
  (by decide +kernel : ∀ t : Fin grid0.N, _)

theorem idx_whole : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_6.index t (0 : Fin 1) = 0 ∧ win0_7.index t (0 : Fin 1) = 0 :=
  (by decide +kernel : ∀ t : Fin grid0.N, _)

theorem idx_out : ∀ t : Fin cfg0.N,
    win0_9.index t (0 : Fin 3) = win0_8.index t (0 : Fin 3) ∧ win0_9.index t (1 : Fin 3) = win0_8.index t (1 : Fin 3)
    ∧ win0_10.index t (0 : Fin 3) = win0_8.index t (0 : Fin 3) ∧ win0_10.index t (1 : Fin 3) = win0_8.index t (1 : Fin 3)
    ∧ win0_8.index t (2 : Fin 3) = 0 ∧ win0_9.index t (2 : Fin 3) = 0 ∧ win0_10.index t (2 : Fin 3) = 0
    ∧ win0_8.index t (0 : Fin 3) ≤ 1 ∧ win0_8.index t (1 : Fin 3) ≤ 7 :=
  (by decide +kernel : ∀ t : Fin grid0.N, _)

/-- Every (batch, row block) pair is some point's. -/
theorem idx_onto : ∀ (q0 : Fin 2) (q1 : Fin 8), ∃ t : Fin cfg0.N,
    win0_8.index t (0 : Fin 3) = q0.val ∧ win0_8.index t (1 : Fin 3) = q1.val :=
  (by decide +kernel : ∀ (q0 : Fin 2) (q1 : Fin 8), ∃ t : Fin grid0.N,
    win0_8.index t (0 : Fin 3) = q0.val ∧ win0_8.index t (1 : Fin 3) = q1.val)

end Cert.KernelIdeal.ProjVal

end
-- ==== Proof.AttnSpec.lean ====
/-
  The attention layer as plain functions of coordinates on the extended reals: the three projections, the per-head
  root-mean-square normalisation with a weight, the rotary embedding, grouped-query scores with an additive mask, the
  softmax along the keys, the weighted values and the output projection.

  Two places admit two spellings, and both are stated here. The softmax quotient is either the exponential times the
  reciprocal of the row's sum (`smMul`) or the exponential divided by that sum (`smDiv`); they agree exactly when the
  sum is not zero, which holds once every score is a real number (the row's maximum is then attained, so one term of
  the sum is `exp 0 = 1`). The output projection is either accumulated head by head, each head contributing the sum
  over its 128 lanes (`accHeads`), or is one sum over all 2048 columns (`outFlat`); these are one sum regrouped.

  Arrays are functions of `Fin` coordinates. A head `h` and a lane `d` address column `h * 128 + d` of a flat
  array (`colQ`, `colK`), and query head `h` reads key/value group `h / 2` (`kvOf`).
-/
import Idealize.ShloMosaic.PureOps.Ideal
import Idealize.ShloMosaic.PureOps.Ideal.Laws

noncomputable section

namespace Cert.Attn

open Idealize.ShloMosaic

/-- The divisor of the mean over a head's 128 lanes, as the word both programs carry. -/
def c128 : EReal := Ideal.ofBits .f32 0x43000000#32
/-- The normalisation's epsilon, as the word both programs carry. -/
def eps : EReal := Ideal.ofBits .f32 0x358637BD#32
/-- The score scale, as the word both programs carry. -/
def scl : EReal := Ideal.ofBits .f32 0x3DB504F3#32

/-- Column `h * 128 + d` of a 16-head flat array. -/
def colQ (h : Fin 16) (d : Fin 128) : Fin 2048 := ⟨h.val * 128 + d.val, by have := h.isLt; have := d.isLt; omega⟩
/-- Column `g * 128 + d` of an 8-group flat array. -/
def colK (g : Fin 8) (d : Fin 128) : Fin 1024 := ⟨g.val * 128 + d.val, by have := g.isLt; have := d.isLt; omega⟩
/-- The key/value group a query head reads. -/
def kvOf (h : Fin 16) : Fin 8 := ⟨h.val / 2, by have := h.isLt; omega⟩

/-- Row `(b, s)` of the hidden states against column `n` of a weight. -/
def proj {N : Nat} (hs : Fin 2 → Fin 2048 → Fin 2048 → EReal) (w : Fin 2048 → Fin N → EReal)
    (b : Fin 2) (s : Fin 2048) (n : Fin N) : EReal :=
  ∑ j : Fin 2048, hs b s j * w j n

/-- One head's row normalised by the reciprocal root of its mean square plus epsilon, then weighted. -/
def rms (x w : Fin 128 → EReal) (d : Fin 128) : EReal :=
  x d * Ideal.rsqrt (Ideal.div (∑ e : Fin 128, x e * x e) c128 + eps) * w d

/-- The rotation partner: lane `d < 64` takes minus lane `d + 64`, lane `d ≥ 64` takes lane `d - 64`. -/
def rot (y : Fin 128 → EReal) (d : Fin 128) : EReal :=
  if h : d.val < 64 then -(y ⟨d.val + 64, by omega⟩) else y ⟨d.val - 64, by have := d.isLt; omega⟩

/-- The rotary embedding of one head's row at one position. -/
def rope (y c s : Fin 128 → EReal) (d : Fin 128) : EReal := y d * c d + rot y d * s d

/-- The queries as a flat array `(b, s, h * 128 + d)`. -/
def qFlat (hs : Fin 2 → Fin 2048 → Fin 2048 → EReal) (wq : Fin 2048 → Fin 2048 → EReal) (qn : Fin 128 → EReal)
    (cs sn : Fin 2 → Fin 2048 → Fin 128 → EReal) (b : Fin 2) (s : Fin 2048) (n : Fin 2048) : EReal :=
  rope (rms (fun e => proj hs wq b s (colQ ⟨n.val / 128, by have := n.isLt; omega⟩ e)) qn) (cs b s) (sn b s)
    ⟨n.val % 128, Nat.mod_lt _ (by decide)⟩

/-- The keys as a flat array `(b, s, g * 128 + d)`. -/
def kFlat (hs : Fin 2 → Fin 2048 → Fin 2048 → EReal) (wk : Fin 2048 → Fin 1024 → EReal) (kn : Fin 128 → EReal)
    (cs sn : Fin 2 → Fin 2048 → Fin 128 → EReal) (b : Fin 2) (s : Fin 2048) (n : Fin 1024) : EReal :=
  rope (rms (fun e => proj hs wk b s (colK ⟨n.val / 128, by have := n.isLt; omega⟩ e)) kn) (cs b s) (sn b s)
    ⟨n.val % 128, Nat.mod_lt _ (by decide)⟩

/-- The values as a flat array `(b, s, g * 128 + d)`: the projection alone. -/
def vFlat (hs : Fin 2 → Fin 2048 → Fin 2048 → EReal) (wv : Fin 2048 → Fin 1024 → EReal)
    (b : Fin 2) (s : Fin 2048) (n : Fin 1024) : EReal :=
  proj hs wv b s n

/-- The score of query `s` against key `j` in head `h`: the scaled inner product over the head's lanes plus the mask. -/
def score (q : Fin 2 → Fin 2048 → Fin 2048 → EReal) (k : Fin 2 → Fin 2048 → Fin 1024 → EReal)
    (mask : Fin 2 → Fin 2048 → Fin 2048 → EReal) (b : Fin 2) (h : Fin 16) (s j : Fin 2048) : EReal :=
  (∑ d : Fin 128, q b s (colQ h d) * k b j (colK (kvOf h) d)) * scl + mask b s j

/-- A row's maximum, folded from minus infinity. -/
def rowMax (f : Fin 2048 → EReal) : EReal := (Finset.univ : Finset (Fin 2048)).fold max ⊥ f
/-- The exponential of a row's entry less the row's maximum. -/
def pexp (f : Fin 2048 → EReal) (j : Fin 2048) : EReal := Ideal.exp (f j - rowMax f)
/-- The sum of a row's exponentials. -/
def psum (f : Fin 2048 → EReal) : EReal := ∑ j : Fin 2048, pexp f j
/-- Softmax as the exponential times the reciprocal of the sum. -/
def smMul (f : Fin 2048 → EReal) (j : Fin 2048) : EReal := pexp f j * Ideal.div 1 (psum f)
/-- Softmax as the exponential divided by the sum. -/
def smDiv (f : Fin 2048 → EReal) (j : Fin 2048) : EReal := Ideal.div (pexp f j) (psum f)

/-- The attention weights `(b, h, s, j)`, in the product spelling. -/
def awMul (q : Fin 2 → Fin 2048 → Fin 2048 → EReal) (k : Fin 2 → Fin 2048 → Fin 1024 → EReal)
    (mask : Fin 2 → Fin 2048 → Fin 2048 → EReal) (b : Fin 2) (h : Fin 16) (s j : Fin 2048) : EReal :=
  smMul (score q k mask b h s) j
/-- The attention weights `(b, h, s, j)`, in the quotient spelling. -/
def awDiv (q : Fin 2 → Fin 2048 → Fin 2048 → EReal) (k : Fin 2 → Fin 2048 → Fin 1024 → EReal)
    (mask : Fin 2 → Fin 2048 → Fin 2048 → EReal) (b : Fin 2) (h : Fin 16) (s j : Fin 2048) : EReal :=
  smDiv (score q k mask b h s) j

/-- One head's weighted values `(b, h, s, d)`. -/
def headOut (aw : Fin 2 → Fin 16 → Fin 2048 → Fin 2048 → EReal) (v : Fin 2 → Fin 2048 → Fin 1024 → EReal)
    (b : Fin 2) (h : Fin 16) (s : Fin 2048) (d : Fin 128) : EReal :=
  ∑ j : Fin 2048, aw b h s j * v b j (colK (kvOf h) d)

/-- Head `h`'s contribution to output column `n`: its 128 lanes against rows `h * 128 …` of the output weight. -/
def headTerm (o : Fin 16 → Fin 128 → EReal) (wo : Fin 2048 → Fin 2048 → EReal) (n : Fin 2048) (h : Fin 16) : EReal :=
  ∑ d : Fin 128, o h d * wo (colQ h d) n

/-- The output projection accumulated head by head: zero plus head 0's term, then each later head's term added. -/
def accHeads (o : Fin 16 → Fin 128 → EReal) (wo : Fin 2048 → Fin 2048 → EReal) (n : Fin 2048) : (h : ℕ) → h < 16 → EReal
  | 0, hh => 0 + headTerm o wo n ⟨0, hh⟩
  | h + 1, hh => accHeads o wo n h (Nat.lt_of_succ_lt hh) + headTerm o wo n ⟨h + 1, hh⟩

/-- The output projection as one sum over all 2048 columns of the concatenated heads. -/
def outFlat (o : Fin 16 → Fin 128 → EReal) (wo : Fin 2048 → Fin 2048 → EReal) (n : Fin 2048) : EReal :=
  ∑ x : Fin 2048, o ⟨x.val / 128, by have := x.isLt; omega⟩ ⟨x.val % 128, Nat.mod_lt _ (by decide)⟩ * wo x n

/-- The layer's output `(b, s, n)`, accumulated head by head over weights in the product spelling. -/
def outAcc (q : Fin 2 → Fin 2048 → Fin 2048 → EReal) (k v : Fin 2 → Fin 2048 → Fin 1024 → EReal)
    (mask : Fin 2 → Fin 2048 → Fin 2048 → EReal) (wo : Fin 2048 → Fin 2048 → EReal)
    (b : Fin 2) (s : Fin 2048) (n : Fin 2048) : EReal :=
  accHeads (fun h d => headOut (awMul q k mask) v b h s d) wo n 15 (by decide)

/-- The layer's output `(b, s, n)`, as one sum over weights in the quotient spelling. -/
def outSum (q : Fin 2 → Fin 2048 → Fin 2048 → EReal) (k v : Fin 2 → Fin 2048 → Fin 1024 → EReal)
    (mask : Fin 2 → Fin 2048 → Fin 2048 → EReal) (wo : Fin 2048 → Fin 2048 → EReal)
    (b : Fin 2) (s : Fin 2048) (n : Fin 2048) : EReal :=
  outFlat (fun h d => headOut (awDiv q k mask) v b h s d) wo n

end Cert.Attn

end
-- ==== Proof.AttnArrays.lean ====
/-
  The attention layer's specification lifted from coordinates to arrays over literal shapes: each argument array is
  read at an index built from coordinates, and each intermediate and result is the coordinate function of
  `Cert.Attn` read back at an index's coordinates. The additive mask has a unit head axis, read at head 0.
-/
import proofs.«420301_j24240795419151_3_alg».proof.Proof.AttnSpec
import Idealize.ShloMosaic.Lib.ValueIdx

noncomputable section

namespace Cert.Attn

open Idealize.ShloMosaic Idealize.ShloMosaic.ValueIdx

/-- A rank-1 array as a function of its coordinate. -/
def c1 {n0 : Nat} (a : (⟨1, ![n0]⟩ : Shape).Idx → EReal) : Fin n0 → EReal := fun x => a (ix1 x)
/-- A rank-2 array as a function of its coordinates. -/
def c2 {n0 n1 : Nat} (a : (⟨2, ![n0, n1]⟩ : Shape).Idx → EReal) : Fin n0 → Fin n1 → EReal := fun x y => a (ix2 x y)
/-- A rank-3 array as a function of its coordinates. -/
def c3 {n0 n1 n2 : Nat} (a : (⟨3, ![n0, n1, n2]⟩ : Shape).Idx → EReal) : Fin n0 → Fin n1 → Fin n2 → EReal :=
  fun x y z => a (ix3 x y z)
/-- The mask `[2, 1, 2048, 2048]` as a function of batch, query and key: its unit axis read at 0. -/
def cMask (a : (⟨4, ![2, 1, 2048, 2048]⟩ : Shape).Idx → EReal) : Fin 2 → Fin 2048 → Fin 2048 → EReal :=
  fun b s j => a (ix4 b 0 s j)

/-- The query array `[2, 2048, 2048]` from the hidden states, the query weight, the two rotary tables and the norm weight. -/
def qArr (hs : (⟨3, ![2, 2048, 2048]⟩ : Shape).Idx → EReal) (wq : (⟨2, ![2048, 2048]⟩ : Shape).Idx → EReal)
    (cs sn : (⟨3, ![2, 2048, 128]⟩ : Shape).Idx → EReal) (qn : (⟨1, ![128]⟩ : Shape).Idx → EReal) :
    (⟨3, ![2, 2048, 2048]⟩ : Shape).Idx → EReal :=
  fun i => qFlat (c3 hs) (c2 wq) (c1 qn) (c3 cs) (c3 sn) (i 0) (i 1) (i 2)

/-- The key array `[2, 2048, 1024]`. -/
def kArr (hs : (⟨3, ![2, 2048, 2048]⟩ : Shape).Idx → EReal) (wk : (⟨2, ![2048, 1024]⟩ : Shape).Idx → EReal)
    (cs sn : (⟨3, ![2, 2048, 128]⟩ : Shape).Idx → EReal) (kn : (⟨1, ![128]⟩ : Shape).Idx → EReal) :
    (⟨3, ![2, 2048, 1024]⟩ : Shape).Idx → EReal :=
  fun i => kFlat (c3 hs) (c2 wk) (c1 kn) (c3 cs) (c3 sn) (i 0) (i 1) (i 2)

/-- The value array `[2, 2048, 1024]`. -/
def vArr (hs : (⟨3, ![2, 2048, 2048]⟩ : Shape).Idx → EReal) (wv : (⟨2, ![2048, 1024]⟩ : Shape).Idx → EReal) :
    (⟨3, ![2, 2048, 1024]⟩ : Shape).Idx → EReal :=
  fun i => vFlat (c3 hs) (c2 wv) (i 0) (i 1) (i 2)

/-- The attention weights `[2, 16, 2048, 2048]` in the product spelling, from query, key and mask arrays. -/
def awMulArr (q : (⟨3, ![2, 2048, 2048]⟩ : Shape).Idx → EReal) (k : (⟨3, ![2, 2048, 1024]⟩ : Shape).Idx → EReal)
    (mask : (⟨4, ![2, 1, 2048, 2048]⟩ : Shape).Idx → EReal) : (⟨4, ![2, 16, 2048, 2048]⟩ : Shape).Idx → EReal :=
  fun i => awMul (c3 q) (c3 k) (cMask mask) (i 0) (i 1) (i 2) (i 3)

/-- The attention weights `[2, 16, 2048, 2048]` in the quotient spelling. -/
def awDivArr (q : (⟨3, ![2, 2048, 2048]⟩ : Shape).Idx → EReal) (k : (⟨3, ![2, 2048, 1024]⟩ : Shape).Idx → EReal)
    (mask : (⟨4, ![2, 1, 2048, 2048]⟩ : Shape).Idx → EReal) : (⟨4, ![2, 16, 2048, 2048]⟩ : Shape).Idx → EReal :=
  fun i => awDiv (c3 q) (c3 k) (cMask mask) (i 0) (i 1) (i 2) (i 3)

/-- The layer's output `[2, 2048, 2048]` accumulated head by head over product-spelling weights. -/
def outAccArr (q : (⟨3, ![2, 2048, 2048]⟩ : Shape).Idx → EReal) (k v : (⟨3, ![2, 2048, 1024]⟩ : Shape).Idx → EReal)
    (mask : (⟨4, ![2, 1, 2048, 2048]⟩ : Shape).Idx → EReal) (wo : (⟨2, ![2048, 2048]⟩ : Shape).Idx → EReal) :
    (⟨3, ![2, 2048, 2048]⟩ : Shape).Idx → EReal :=
  fun i => outAcc (c3 q) (c3 k) (c3 v) (cMask mask) (c2 wo) (i 0) (i 1) (i 2)

/-- The layer's output `[2, 2048, 2048]` as one sum over quotient-spelling weights. -/
def outSumArr (q : (⟨3, ![2, 2048, 2048]⟩ : Shape).Idx → EReal) (k v : (⟨3, ![2, 2048, 1024]⟩ : Shape).Idx → EReal)
    (mask : (⟨4, ![2, 1, 2048, 2048]⟩ : Shape).Idx → EReal) (wo : (⟨2, ![2048, 2048]⟩ : Shape).Idx → EReal) :
    (⟨3, ![2, 2048, 2048]⟩ : Shape).Idx → EReal :=
  fun i => outSum (c3 q) (c3 k) (c3 v) (cMask mask) (c2 wo) (i 0) (i 1) (i 2)

end Cert.Attn

end
-- ==== Proof.ProjPay.lean ====
/-
  The values the projection region computes, index by index on the extended reals: each of the three stored
  payloads read at a row `r` of the block and a flat column `n`. A column `n` of a flat array is lane `n % 128` of head
  `n / 128`; the query and key payloads are the rotary embedding of the head's normalised row, the value payload is the
  bare projection.

  The first sections read the layout operations the payloads are built of at an index written by coordinates: the
  casts between a flat row and its heads, the unit axes a cast inserts, the broadcasts along unit axes, the two half
  slices, the concatenation of two halves, the lane sum and the block product.
-/
import proofs.«420301_j24240795419151_3_alg».proof.Proof.Gen.KernelIdeal.Skeleton
import proofs.«420301_j24240795419151_3_alg».proof.Proof.AttnArrays
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.ProjVal

open Cert.KernelIdeal Cert.KernelIdeal.Gen Cert.Attn Idealize.ShloMosaic Idealize.ShloMosaic.ValueIdx

variable {α : Type}

/-! ## Unit axes inserted by a cast -/

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[1, 1, a]` reads, at `(u, v, i)`, the operand at `i`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]
    simp)

/-! ## A flat row and its heads -/

/-- A `[256, 2048]` array cast to `[256, 16, 128]` reads, at `(r, h, d)`, the operand at `(r, h * 128 + d)`. -/
theorem shapeCast_flat_heads16_apply (x : (⟨2, ![256, 2048]⟩ : Shape).Idx → α)
    (h : (⟨2, ![256, 2048]⟩ : Shape).ShapeCasts ⟨3, ![256, 16, 128]⟩) (r : Fin 256) (hd : Fin 16) (d : Fin 128) :
    shapeCast ⟨3, ![256, 16, 128]⟩ x h (ix3 r hd d) = x (ix2 r (colQ hd d)) :=
  shapeCast_apply x h _ _ (by
    rw [Shape.rowMajor_val_three, Shape.rowMajor_val_two]
    show r.val * 2048 + (hd.val * 128 + d.val) = (r.val * 16 + hd.val) * 128 + d.val
    omega)

/-- A `[256, 1024]` array cast to `[256, 8, 128]` reads, at `(r, g, d)`, the operand at `(r, g * 128 + d)`. -/
theorem shapeCast_flat_heads8_apply (x : (⟨2, ![256, 1024]⟩ : Shape).Idx → α)
    (h : (⟨2, ![256, 1024]⟩ : Shape).ShapeCasts ⟨3, ![256, 8, 128]⟩) (r : Fin 256) (g : Fin 8) (d : Fin 128) :
    shapeCast ⟨3, ![256, 8, 128]⟩ x h (ix3 r g d) = x (ix2 r (colK g d)) :=
  shapeCast_apply x h _ _ (by
    rw [Shape.rowMajor_val_three, Shape.rowMajor_val_two]
    show r.val * 1024 + (g.val * 128 + d.val) = (r.val * 8 + g.val) * 128 + d.val
    omega)

/-- A `[256, 16, 128]` array cast to `[256, 2048]` reads, at `(r, n)`, the operand at head `n / 128`, lane `n % 128`. -/
theorem shapeCast_heads16_flat_apply (x : (⟨3, ![256, 16, 128]⟩ : Shape).Idx → α)
    (h : (⟨3, ![256, 16, 128]⟩ : Shape).ShapeCasts ⟨2, ![256, 2048]⟩) (r : Fin 256) (n : Fin 2048) :
    shapeCast ⟨2, ![256, 2048]⟩ x h (ix2 r n)
      = x (ix3 r ⟨n.val / 128, by have := n.isLt; omega⟩ ⟨n.val % 128, Nat.mod_lt _ (by decide)⟩) :=
  shapeCast_apply x h _ _ (by
    rw [Shape.rowMajor_val_three, Shape.rowMajor_val_two]
    show (r.val * 16 + n.val / 128) * 128 + n.val % 128 = r.val * 2048 + n.val
    omega)

/-- A `[256, 8, 128]` array cast to `[256, 1024]` reads, at `(r, n)`, the operand at group `n / 128`, lane `n % 128`. -/
theorem shapeCast_heads8_flat_apply (x : (⟨3, ![256, 8, 128]⟩ : Shape).Idx → α)
    (h : (⟨3, ![256, 8, 128]⟩ : Shape).ShapeCasts ⟨2, ![256, 1024]⟩) (r : Fin 256) (n : Fin 1024) :
    shapeCast ⟨2, ![256, 1024]⟩ x h (ix2 r n)
      = x (ix3 r ⟨n.val / 128, by have := n.isLt; omega⟩ ⟨n.val % 128, Nat.mod_lt _ (by decide)⟩) :=
  shapeCast_apply x h _ _ (by
    rw [Shape.rowMajor_val_three, Shape.rowMajor_val_two]
    show (r.val * 8 + n.val / 128) * 128 + n.val % 128 = r.val * 1024 + n.val
    omega)

/-! ## Broadcasts along unit axes -/

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1, c]` array broadcast to `[a, b, c]` reads, at `(i, j, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-! ## The two half slices and their concatenation -/

/-- A rank-3 array cut along its last axis from `o` reads, at `(i, j, e)`, the source at `(i, j, k)` with `k = o + e`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (i : Fin n0) (j : Fin n1) (e : Fin m) (k : Fin n2) (hk : k.val = o + e.val) :
    extractStridedSlice ⟨3, ![n0, n1, m]⟩ ![0, 0, o] X h (ix3 i j e) = X (ix3 i j k) :=
  extractStridedSlice_apply _ _ _ _ _ (fun ax => by
    match ax with
    | ⟨0, _⟩ => exact (Nat.zero_add _).symm
    | ⟨1, _⟩ => exact (Nat.zero_add _).symm
    | ⟨2, _⟩ => exact hk)

/-- Two rank-3 arrays laid end to end along the last axis read, at a lane below the first's extent, the first. -/
theorem concat3_axis2_left {a b m₁ m₂ c : Nat} (x₁ : (⟨3, ![a, b, m₁]⟩ : Shape).Idx → α)
    (x₂ : (⟨3, ![a, b, m₂]⟩ : Shape).Idx → α)
    (h : Shape.Concatenates [⟨3, ![a, b, m₁]⟩, ⟨3, ![a, b, m₂]⟩] ⟨3, ![a, b, c]⟩ 2)
    (p : Fin a) (q : Fin b) (k : Fin c) (hk : k.val < m₁) :
    concatenate ⟨3, ![a, b, c]⟩ 2 [⟨⟨3, ![a, b, m₁]⟩, x₁⟩, ⟨⟨3, ![a, b, m₂]⟩, x₂⟩] h (ix3 p q k)
      = x₁ (ix3 p q ⟨k.val, hk⟩) :=
  concatenate_pair_apply_left 2 x₁ x₂ h (ix3 p q k) rfl (ix3 p q ⟨k.val, hk⟩) (fun ax => by
    match ax with
    | ⟨0, _⟩ => rfl
    | ⟨1, _⟩ => rfl
    | ⟨2, _⟩ => rfl)

/-- … and, at a lane at or past the first's extent, the second at that lane less the extent. -/
theorem concat3_axis2_right {a b m₁ m₂ c : Nat} (x₁ : (⟨3, ![a, b, m₁]⟩ : Shape).Idx → α)
    (x₂ : (⟨3, ![a, b, m₂]⟩ : Shape).Idx → α)
    (h : Shape.Concatenates [⟨3, ![a, b, m₁]⟩, ⟨3, ![a, b, m₂]⟩] ⟨3, ![a, b, c]⟩ 2)
    (p : Fin a) (q : Fin b) (k : Fin c) (hk : m₁ ≤ k.val) (hk' : k.val - m₁ < m₂) :
    concatenate ⟨3, ![a, b, c]⟩ 2 [⟨⟨3, ![a, b, m₁]⟩, x₁⟩, ⟨⟨3, ![a, b, m₂]⟩, x₂⟩] h (ix3 p q k)
      = x₂ (ix3 p q ⟨k.val - m₁, hk'⟩) :=
  concatenate_pair_apply_right 2 x₁ x₂ h (ix3 p q k) rfl rfl (ix3 p q ⟨k.val - m₁, hk'⟩) (fun ax hax => by
    match ax with
    | ⟨0, _⟩ => rfl
    | ⟨1, _⟩ => rfl
    | ⟨2, _⟩ => exact absurd rfl hax)
    (by show k.val - m₁ + m₁ = k.val; omega)

/-! ## The lane sum -/

/-- The sum of a rank-3 array along its last axis reads, at `(i, j)`, the sum over the lanes `k` of the array at `(i, j, k)`. -/
theorem laneSum3_apply {a b c : Nat} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ k : Fin c, src (ix3 i j k) :=
  (Ideal.multiReduction_add_single src 0x00000000#32 h hφ hacc (ix2 i j)).trans
    (Finset.sum_congr rfl fun k _ => congrArg src (funext fun ax => Fin.ext (by
      match ax with
      | ⟨0, _⟩ => rfl
      | ⟨1, _⟩ => rfl
      | ⟨2, _⟩ => rfl)))

/-! ## The block products

A block of 256 rows times a whole weight matrix, accumulated into the zero splat: the entry at row `r` and column `c`
is the sum over the 2048 contracted positions of the row's entry times the column's. -/

theorem lhs_q_0 (i : S256x2048.Idx) (q : dot_S256x2048_S2048x2048_S256x2048_1_0_0_1_n_n.contr.Idx) :
    (dot_S256x2048_S2048x2048_S256x2048_1_0_0_1_n_n.lhsIdx i q 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl
theorem lhs_q_1 (i : S256x2048.Idx) (q : dot_S256x2048_S2048x2048_S256x2048_1_0_0_1_n_n.contr.Idx) :
    (dot_S256x2048_S2048x2048_S256x2048_1_0_0_1_n_n.lhsIdx i q 1).val = (q ⟨0, by decide⟩).val :=
  dot_S256x2048_S2048x2048_S256x2048_1_0_0_1_n_n.lhsIdx_val_of_single rfl i q
theorem rhs_q_0 (i : S256x2048.Idx) (q : dot_S256x2048_S2048x2048_S256x2048_1_0_0_1_n_n.contr.Idx) :
    (dot_S256x2048_S2048x2048_S256x2048_1_0_0_1_n_n.rhsIdx i q 0).val = (q ⟨0, by decide⟩).val :=
  dot_S256x2048_S2048x2048_S256x2048_1_0_0_1_n_n.rhsIdx_val_of_single rfl i q
theorem rhs_q_1 (i : S256x2048.Idx) (q : dot_S256x2048_S2048x2048_S256x2048_1_0_0_1_n_n.contr.Idx) :
    (dot_S256x2048_S2048x2048_S256x2048_1_0_0_1_n_n.rhsIdx i q 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

/-- The query product at `(r, c)`. -/
theorem matmul_q_apply {φ₁ φ₂ : FTy} (lhs : FVec Ideal S256x2048 φ₁) (rhs : FVec Ideal S2048x2048 φ₂) (r : Fin 256) (c : Fin 2048) :
    matmul dot_S256x2048_S2048x2048_S256x2048_1_0_0_1_n_n none lhs rhs (constant (F := Ideal) S256x2048 .f32 0x00000000#32) (ix2 r c)
      = ∑ j : Fin 2048, lhs (ix2 r j) * rhs (ix2 j c) := by
  simp only [matmul]
  rw [Ideal.matmul_constant_zero_apply, ← Equiv.sum_comp (ValueIdx.contrEquiv1 dot_S256x2048_S2048x2048_S256x2048_1_0_0_1_n_n 2048 rfl rfl).symm]
  refine Finset.sum_congr rfl fun k _ => ?_
  have hk := ValueIdx.contrEquiv1_symm_val dot_S256x2048_S2048x2048_S256x2048_1_0_0_1_n_n 2048 rfl rfl k
  have el : dot_S256x2048_S2048x2048_S256x2048_1_0_0_1_n_n.lhsIdx (ix2 r c) ((ValueIdx.contrEquiv1 dot_S256x2048_S2048x2048_S256x2048_1_0_0_1_n_n 2048 rfl rfl).symm k) = ix2 r k := funext fun a => Fin.ext (by
    match a with
    | ⟨0, _⟩ => exact lhs_q_0 _ _
    | ⟨1, _⟩ => exact (lhs_q_1 _ _).trans hk)
  have er : dot_S256x2048_S2048x2048_S256x2048_1_0_0_1_n_n.rhsIdx (ix2 r c) ((ValueIdx.contrEquiv1 dot_S256x2048_S2048x2048_S256x2048_1_0_0_1_n_n 2048 rfl rfl).symm k) = ix2 k c := funext fun a => Fin.ext (by
    match a with
    | ⟨0, _⟩ => exact (rhs_q_0 _ _).trans hk
    | ⟨1, _⟩ => exact rhs_q_1 _ _)
  rw [el, er]

theorem lhs_kv_0 (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem lhs_kv_1 (i : S256x1024.Idx) (q : dot_S256x2048_S2048x1024_S256x1024_1_0_0_1_n_n.contr.Idx) :
    (dot_S256x2048_S2048x1024_S256x1024_1_0_0_1_n_n.lhsIdx i q 1).val = (q ⟨0, by decide⟩).val :=
  dot_S256x2048_S2048x1024_S256x1024_1_0_0_1_n_n.lhsIdx_val_of_single rfl i q
theorem rhs_kv_0 (i : S256x1024.Idx) (q : dot_S256x2048_S2048x1024_S256x1024_1_0_0_1_n_n.contr.Idx) :
    (dot_S256x2048_S2048x1024_S256x1024_1_0_0_1_n_n.rhsIdx i q 0).val = (q ⟨0, by decide⟩).val :=
  dot_S256x2048_S2048x1024_S256x1024_1_0_0_1_n_n.rhsIdx_val_of_single rfl i q
theorem rhs_kv_1 (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- The key and value products at `(r, c)`. -/
theorem matmul_kv_apply {φ₁ φ₂ : FTy} (lhs : FVec Ideal S256x2048 φ₁) (rhs : FVec Ideal S2048x1024 φ₂) (r : Fin 256) (c : Fin 1024) :
    matmul dot_S256x2048_S2048x1024_S256x1024_1_0_0_1_n_n none lhs rhs (constant (F := Ideal) S256x1024 .f32 0x00000000#32) (ix2 r c)
      = ∑ j : Fin 2048, lhs (ix2 r j) * rhs (ix2 j c) := by
  simp only [matmul]
  rw [Ideal.matmul_constant_zero_apply, ← Equiv.sum_comp (ValueIdx.contrEquiv1 dot_S256x2048_S2048x1024_S256x1024_1_0_0_1_n_n 2048 rfl rfl).symm]
  refine Finset.sum_congr rfl fun k _ => ?_
  have hk := ValueIdx.contrEquiv1_symm_val dot_S256x2048_S2048x1024_S256x1024_1_0_0_1_n_n 2048 rfl rfl k
  have el : dot_S256x2048_S2048x1024_S256x1024_1_0_0_1_n_n.lhsIdx (ix2 r c) ((ValueIdx.contrEquiv1 dot_S256x2048_S2048x1024_S256x1024_1_0_0_1_n_n 2048 rfl rfl).symm k) = ix2 r k := funext fun a => Fin.ext (by
    match a with
    | ⟨0, _⟩ => exact lhs_kv_0 _ _
    | ⟨1, _⟩ => exact (lhs_kv_1 _ _).trans hk)
  have er : dot_S256x2048_S2048x1024_S256x1024_1_0_0_1_n_n.rhsIdx (ix2 r c) ((ValueIdx.contrEquiv1 dot_S256x2048_S2048x1024_S256x1024_1_0_0_1_n_n 2048 rfl rfl).symm k) = ix2 k c := funext fun a => Fin.ext (by
    match a with
    | ⟨0, _⟩ => exact (rhs_kv_0 _ _).trans hk
    | ⟨1, _⟩ => exact rhs_kv_1 _ _)
  rw [el, er]

/-! ## The payloads at an index

`P h e` below is the projection of the block's row `r` onto column `h * 128 + e` of a weight matrix: the sum over the
2048 hidden positions of the row's entry times the weight's. -/

/-- The reciprocal root at an index is the reciprocal root of the element. -/
theorem rsqrt_apply {s : Shape} {φ : FTy} (a : FVec Ideal s φ) (i : s.Idx) : rsqrt a i = Ideal.rsqrt (a i) := rfl

/-- The hidden-state block as a matrix: the unit batch axis dropped, the format change the identity. -/
theorem pay2_apply (x0 : Vec Ideal S1x256x2048 .f32) (r : Fin 256) (j : Fin 2048) :
    k0_pay2 x0 (ix2 r j) = x0 (ix3 (0 : Fin 1) r j) := by
  unfold k0_pay2
  exact shapeCast_1ab_ab_apply x0 _ r j

/-- The key projection by group and lane. -/
theorem pay3_apply (x0 : Vec Ideal S1x256x2048 .f32) (x2 : Vec Ideal S2048x1024 .bf16) (r : Fin 256) (g : Fin 8) (d : Fin 128) :
    k0_pay3 x0 x2 (ix3 r g d) = ∑ j : Fin 2048, x0 (ix3 (0 : Fin 1) r j) * x2 (ix2 j (colK g d)) := by
  unfold k0_pay3
  refine (shapeCast_flat_heads8_apply _ _ r g d).trans ?_
  refine (matmul_kv_apply _ _ r (colK g d)).trans ?_
  refine Finset.sum_congr rfl fun j _ => ?_
  rw [pay2_apply, shapeCast_self]

/-- The value projection by group and lane. -/
theorem pay4_apply (x0 : Vec Ideal S1x256x2048 .f32) (x3 : Vec Ideal S2048x1024 .bf16) (r : Fin 256) (g : Fin 8) (d : Fin 128) :
    k0_pay4 x0 x3 (ix3 r g d) = ∑ j : Fin 2048, x0 (ix3 (0 : Fin 1) r j) * x3 (ix2 j (colK g d)) := by
  unfold k0_pay4
  refine (shapeCast_flat_heads8_apply _ _ r g d).trans ?_
  refine (matmul_kv_apply _ _ r (colK g d)).trans ?_
  refine Finset.sum_congr rfl fun j _ => ?_
  rw [pay2_apply, shapeCast_self]

/-- The key rows' reciprocal root of the mean square plus epsilon, by group. -/
theorem pay6_apply (x0 : Vec Ideal S1x256x2048 .f32) (x2 : Vec Ideal S2048x1024 .bf16) (r : Fin 256) (g : Fin 8) (u : Fin 1) :
    k0_pay6 x0 x2 (ix3 r g u)
      = Ideal.rsqrt (Ideal.div (∑ e : Fin 128, (∑ j : Fin 2048, x0 (ix3 (0 : Fin 1) r j) * x2 (ix2 j (colK g e)))
          * (∑ j : Fin 2048, x0 (ix3 (0 : Fin 1) r j) * x2 (ix2 j (colK g e)))) c128 + eps) := by
  unfold k0_pay6
  simp only [rsqrt_apply, addf_apply, divf_apply, broadcast_apply]
  rw [shapeCast_ab_ab1_apply, laneSum3_apply]
  simp only [mulf_apply, pay3_apply]
  rfl

/-- The query rows normalised and weighted, by head and lane. -/
theorem pay5_apply (x0 : Vec Ideal S1x256x2048 .f32) (x1 : Vec Ideal S2048x2048 .bf16) (x6 : Vec Ideal S128 .f32)
    (r : Fin 256) (h : Fin 16) (d : Fin 128) :
    k0_pay5 x0 x1 x6 (ix3 r h d)
      = rms (fun e => ∑ j : Fin 2048, x0 (ix3 (0 : Fin 1) r j) * x1 (ix2 j (colQ h e))) (fun e => x6 (ix1 e)) d := by
  unfold k0_pay5
  simp only [mulf_apply]
  rw [broadcastTo_ab1_abc_apply, broadcastTo_11c_abc_apply, shapeCast_a_11a_apply]
  simp only [rsqrt_apply, addf_apply, divf_apply, broadcast_apply]
  rw [shapeCast_ab_ab1_apply, laneSum3_apply]
  simp only [mulf_apply, shapeCast_flat_heads16_apply, matmul_q_apply, pay2_apply, shapeCast_self]
  rfl

/-- A rotary table block by row and lane: its unit batch axis dropped and a unit head axis inserted. -/
theorem pay7_apply (x : Vec Ideal S1x256x128 .f32) (r : Fin 256) (u : Fin 1) (d : Fin 128) :
    k0_pay7 x (ix3 r u d) = x (ix3 (0 : Fin 1) r d) := by
  unfold k0_pay7
  rw [shapeCast_ab_a1b_apply, shapeCast_1ab_ab_apply]

theorem pay8_apply (x : Vec Ideal S1x256x128 .f32) (r : Fin 256) (u : Fin 1) (d : Fin 128) :
    k0_pay8 x (ix3 r u d) = x (ix3 (0 : Fin 1) r d) := by
  unfold k0_pay8
  rw [shapeCast_ab_a1b_apply, shapeCast_1ab_ab_apply]

/-- The rotation partner as the kernel builds it: zero minus the upper half of the lanes laid before the lower half. -/
theorem rotHalves_apply {a b : ℕ} (y : FVec Ideal ⟨3, ![a, b, 128]⟩ .f32)
    (hlo : (⟨3, ![a, b, 128]⟩ : Shape).Slices ![0, 0, 0] ⟨3, ![a, b, 64]⟩)
    (hhi : (⟨3, ![a, b, 128]⟩ : Shape).Slices ![0, 0, 64] ⟨3, ![a, b, 64]⟩)
    (hc : Shape.Concatenates [⟨3, ![a, b, 64]⟩, ⟨3, ![a, b, 64]⟩] ⟨3, ![a, b, 128]⟩ 2)
    (p : Fin a) (q : Fin b) (d : Fin 128) :
    concatenate ⟨3, ![a, b, 128]⟩ 2
        [⟨⟨3, ![a, b, 64]⟩, subf (broadcast ⟨3, ![a, b, 64]⟩ (Scalar.ofBits (F := Ideal) .f32 0x00000000#32))
            (extractStridedSlice ⟨3, ![a, b, 64]⟩ ![0, 0, 64] y hhi)⟩,
          ⟨⟨3, ![a, b, 64]⟩, extractStridedSlice ⟨3, ![a, b, 64]⟩ ![0, 0, 0] y hlo⟩] hc (ix3 p q d)
      = rot (fun e => y (ix3 p q e)) d := by
  unfold rot
  by_cases hd : d.val < 64
  · rw [dif_pos hd, concat3_axis2_left _ _ hc p q d hd, subf_apply, broadcast_apply,
      slice3_axis2_apply 64 y hhi p q ⟨d.val, hd⟩ ⟨d.val + 64, by omega⟩ (by show d.val + 64 = 64 + d.val; omega)]
    show Ideal.ofBits .f32 0x00000000#32 - _ = -_
    rw [Ideal.ofBits_zero_f32, zero_sub]
  · have hd' : d.val - 64 < 64 := by have := d.isLt; omega
    rw [dif_neg hd, concat3_axis2_right _ _ hc p q d (by omega) hd',
      slice3_axis2_apply 0 y hlo p q ⟨d.val - 64, hd'⟩ ⟨d.val - 64, by omega⟩ (by show d.val - 64 = 0 + (d.val - 64); omega)]

/-- The stored query block over any normalised rows `y`: the rotary embedding of head `n / 128`'s row at lane `n % 128`. -/
theorem pay9_apply (y : FVec Ideal S256x16x128 .f32) (x4 x5 : Vec Ideal S1x256x128 .f32) (r : Fin 256) (n : Fin 2048) :
    k0_pay9 y x4 x5 (ix3 (0 : Fin 1) r n)
      = rope (fun e => y (ix3 r ⟨n.val / 128, by have := n.isLt; omega⟩ e))
          (fun e => x4 (ix3 (0 : Fin 1) r e)) (fun e => x5 (ix3 (0 : Fin 1) r e)) ⟨n.val % 128, Nat.mod_lt _ (by decide)⟩ := by
  unfold k0_pay9
  rw [shapeCast_ab_1ab_apply]
  simp only [truncf_apply]
  rw [shapeCast_heads16_flat_apply]
  simp only [addf_apply, mulf_apply]
  rw [rotHalves_apply, broadcastTo_a1c_abc_apply, broadcastTo_a1c_abc_apply, pay7_apply, pay8_apply]
  rfl

/-- The stored key block over any projected rows `y` and reciprocal roots `s`: the rotary embedding of group `n / 128`'s
    row, scaled by its reciprocal root and weighted, at lane `n % 128`. -/
theorem pay10_apply (y : FVec Ideal S256x8x128 .f32) (x7 : Vec Ideal S128 .f32) (s : FVec Ideal S256x8x1 .f32)
    (x4 x5 : Vec Ideal S1x256x128 .f32) (r : Fin 256) (n : Fin 1024) :
    k0_pay10 y x7 s x4 x5 (ix3 (0 : Fin 1) r n)
      = rope (fun e => y (ix3 r ⟨n.val / 128, by have := n.isLt; omega⟩ e)
              * s (ix3 r ⟨n.val / 128, by have := n.isLt; omega⟩ (0 : Fin 1)) * x7 (ix1 e))
          (fun e => x4 (ix3 (0 : Fin 1) r e)) (fun e => x5 (ix3 (0 : Fin 1) r e)) ⟨n.val % 128, Nat.mod_lt _ (by decide)⟩ := by
  unfold k0_pay10
  rw [shapeCast_ab_1ab_apply]
  simp only [truncf_apply]
  rw [shapeCast_heads8_flat_apply]
  simp only [addf_apply, mulf_apply]
  rw [rotHalves_apply, broadcastTo_a1c_abc_apply, broadcastTo_a1c_abc_apply, pay7_apply, pay8_apply]
  simp only [mulf_apply, broadcastTo_ab1_abc_apply, broadcastTo_11c_abc_apply, shapeCast_a_11a_apply]
  rfl

/-! ## The three stored payloads -/

/-- The stored query block at row `r`, flat column `n`: the rotary embedding of head `n / 128`'s normalised row, at
    lane `n % 128`. -/
theorem pay_q (x0 : Vec Ideal S1x256x2048 .f32) (x1 : Vec Ideal S2048x2048 .bf16) (x4 x5 : Vec Ideal S1x256x128 .f32)
    (x6 : Vec Ideal S128 .f32) (r : Fin 256) (n : Fin 2048) :
    k0_pay9 (k0_pay5 x0 x1 x6) x4 x5 (ix3 (0 : Fin 1) r n)
      = rope (rms (fun e => ∑ j : Fin 2048, x0 (ix3 (0 : Fin 1) r j) * x1 (ix2 j (colQ ⟨n.val / 128, by have := n.isLt; omega⟩ e)))
            (fun e => x6 (ix1 e)))
          (fun e => x4 (ix3 (0 : Fin 1) r e)) (fun e => x5 (ix3 (0 : Fin 1) r e)) ⟨n.val % 128, Nat.mod_lt _ (by decide)⟩ := by
  rw [pay9_apply]
  simp only [pay5_apply]

/-- The stored key block at row `r`, flat column `n`: the same over the key weights, group `n / 128`. -/
theorem pay_k (x0 : Vec Ideal S1x256x2048 .f32) (x2 : Vec Ideal S2048x1024 .bf16) (x4 x5 : Vec Ideal S1x256x128 .f32)
    (x7 : Vec Ideal S128 .f32) (r : Fin 256) (n : Fin 1024) :
    k0_pay10 (k0_pay3 x0 x2) x7 (k0_pay6 x0 x2) x4 x5 (ix3 (0 : Fin 1) r n)
      = rope (rms (fun e => ∑ j : Fin 2048, x0 (ix3 (0 : Fin 1) r j) * x2 (ix2 j (colK ⟨n.val / 128, by have := n.isLt; omega⟩ e)))
            (fun e => x7 (ix1 e)))
          (fun e => x4 (ix3 (0 : Fin 1) r e)) (fun e => x5 (ix3 (0 : Fin 1) r e)) ⟨n.val % 128, Nat.mod_lt _ (by decide)⟩ := by
  rw [pay10_apply]
  simp only [pay3_apply, pay6_apply]
  rfl

/-- The stored value block at row `r`, flat column `n`: the bare projection. -/
theorem pay_v (x0 : Vec Ideal S1x256x2048 .f32) (x3 : Vec Ideal S2048x1024 .bf16) (r : Fin 256) (n : Fin 1024) :
    k0_pay1 (k0_pay11 (k0_pay4 x0 x3)) (ix3 (0 : Fin 1) r n) = ∑ j : Fin 2048, x0 (ix3 (0 : Fin 1) r j) * x3 (ix2 j n) := by
  have hc : colK ⟨n.val / 128, by have := n.isLt; omega⟩ ⟨n.val % 128, Nat.mod_lt _ (by decide)⟩ = n :=
    Fin.ext (by show n.val / 128 * 128 + n.val % 128 = n.val; omega)
  unfold k0_pay1 k0_pay11
  rw [shapeCast_ab_1ab_apply]
  simp only [truncf_apply]
  rw [shapeCast_heads8_flat_apply, pay4_apply, hc]

end Cert.KernelIdeal.ProjVal

end
-- ==== Proof.ProjValQ.lean ====
/-
  What the projection region leaves in its query array, on the extended reals: the query array of the layer's
  specification, as a function of the arrays the region finds. Point `t` of the 2 × 8 grid reads its block of 256
  rows of the hidden states, the cosines and the sines, and the whole weight and normalisation vector, and writes
  back its block of the output; what it writes is the specification's value at the block's rows, and the sixteen
  blocks tile the array.
-/
import proofs.«420301_j24240795419151_3_alg».proof.Proof.ProjValGeom
import proofs.«420301_j24240795419151_3_alg».proof.Proof.ProjPay
import proofs.«420301_j24240795419151_3_alg».proof.Proof.ProjFrame
import Idealize.ShloMosaic.Lib.Pipeline.Value

noncomputable section

namespace Cert.KernelIdeal.ProjVal

open Cert.KernelIdeal Cert.KernelIdeal.Gen Cert.Attn Idealize.ShloMosaic Idealize.ShloMosaic.ValueIdx
open Idealize.ShloMosaic.TcCoe Idealize.SL.Sem
open Idealize.ShloMosaic.Pipeline (Dat)

-- the core's array contents when the region is entered
variable (V : (c : Dev nD) → (b : Ref sig .tc) → Buf (Elt Ideal) ((c : Thread nD τ).loc b))

/-! ## The query array -/

/-- A block's query payload is the specification's query array at the array index `i` of the block's entry, once the blocks
    of hidden states, cosines and sines read are the arrays' rows at `i`'s batch and row, and the weight and the
    normalisation vector are read whole. -/
theorem q_block (A0 : S2x2048x2048.Idx → EReal) (W : S2048x2048.Idx → EReal) (C S : S2x2048x128.Idx → EReal)
    (Nw : S128.Idx → EReal) (x0 : Vec Ideal S1x256x2048 .f32) (xw : Vec Ideal S2048x2048 .bf16)
    (x4 x5 : Vec Ideal S1x256x128 .f32) (xn : Vec Ideal S128 .f32) (r : Fin 256) (n : Fin 2048)
    (i : (⟨3, ![2, 2048, 2048]⟩ : Shape).Idx) (hn : (i 2).val = n.val)
    (h0 : ∀ j : Fin 2048, x0 (ix3 (0 : Fin 1) r j) = A0 (ix3 (i 0) (i 1) j))
    (hw : ∀ (j : Fin 2048) (m : Fin 2048), xw (ix2 j m) = W (ix2 j m))
    (h4 : ∀ e : Fin 128, x4 (ix3 (0 : Fin 1) r e) = C (ix3 (i 0) (i 1) e))
    (h5 : ∀ e : Fin 128, x5 (ix3 (0 : Fin 1) r e) = S (ix3 (i 0) (i 1) e))
    (hnw : ∀ e : Fin 128, xn (ix1 e) = Nw (ix1 e)) :
    k0_pay9 (k0_pay5 x0 xw xn) x4 x5 (ix3 (0 : Fin 1) r n) = qArr A0 W C S Nw i := by
  have hn' : i 2 = n := Fin.ext hn
  rw [pay_q]
  unfold qArr qFlat proj c3 c2 c1
  rw [hn']
  simp only [h0, hw, h4, h5, hnw]

/-- What point `t` writes back to the query array is its block of the specification's query array. -/
theorem flushed8_eq (c : Dev nD) (t : Fin cfg0.N) :
    (Proj.dat0 (F := Ideal) V c).flushed 8 t
      = ((cfg0.win 8).blk t).view.read (Elt Ideal)
          (Attn.qArr (V c main_arg0) (V c main_v0) (V c main_arg1) (V c main_arg2) (V c main_arg8)) := by
  show (cfg0.win 8).cut (grid0.coords t) ((Proj.dat0 (F := Ideal) V c).after 8 t) = _
  rw [Proj.after0_8]
  unfold Proj.out0_8
  rw [View.canon_unit_zero hz3]
  simp only [View.ld_unit_zero (S := S1x256x2048) hz3, View.ld_unit_zero (S := S2048x2048) hz2,
    View.ld_unit_zero (S := S1x256x128) hz3, View.ld_unit_zero (S := S128) hz1]
  obtain ⟨a00, a01, a02, a40, a41, a42, a50, a51, a52⟩ := idx_in t
  obtain ⟨w10, w11, w20, w21, -, -, w6, w7⟩ := idx_whole t
  obtain ⟨o90, o91, -, -, o82, o92, -, -⟩ := idx_out t
  funext j
  obtain ⟨u, r, n, rfl⟩ : ∃ (u : Fin 1) (r : Fin 256) (n : Fin 2048), j = ix3 u r n := ⟨j 0, j 1, j 2, eq_ix3 j⟩
  obtain rfl : u = 0 := Subsingleton.elim _ _
  refine q_block (V c main_arg0) (V c main_v0) (V c main_arg1) (V c main_arg2) (V c main_arg8)
    (Proj.iblk0 V c 0 t) (Proj.iblk0 V c 1 t) (Proj.iblk0 V c 4 t) (Proj.iblk0 V c 5 t) (Proj.iblk0 V c 6 t) r n
    (((cfg0.win 8).blk t).view.emb (ix3 (0 : Fin 1) r n)) ?_ (fun x => ?_) (fun x m => ?_) (fun e => ?_) (fun e => ?_)
    (fun e => ?_)
  · show win0_8.index t (2 : Fin 3) * 2048 + 1 * n.val = n.val
    omega
  · show V c main_arg0 (((cfg0.win 0).blk t).view.emb (ix3 (0 : Fin 1) r x)) = _
    refine congrArg (V c main_arg0) (funext fun a => Fin.ext ?_)
    match a with
    | ⟨0, _⟩ => show win0_0.index t (0 : Fin 3) * 1 + 1 * 0 = win0_8.index t (0 : Fin 3) * 1 + 1 * 0; omega
    | ⟨1, _⟩ => show win0_0.index t (1 : Fin 3) * 256 + 1 * r.val = win0_8.index t (1 : Fin 3) * 256 + 1 * r.val; omega
    | ⟨2, _⟩ => show win0_0.index t (2 : Fin 3) * 2048 + 1 * x.val = x.val; omega
  · show V c main_v0 (((cfg0.win 1).blk t).view.emb (ix2 x m)) = _
    refine congrArg (V c main_v0) (funext fun a => Fin.ext ?_)
    match a with
    | ⟨0, _⟩ => show win0_1.index t (0 : Fin 2) * 2048 + 1 * x.val = x.val; omega
    | ⟨1, _⟩ => show win0_1.index t (1 : Fin 2) * 2048 + 1 * m.val = m.val; omega
  · show V c main_arg1 (((cfg0.win 4).blk t).view.emb (ix3 (0 : Fin 1) r e)) = _
    refine congrArg (V c main_arg1) (funext fun a => Fin.ext ?_)
    match a with
    | ⟨0, _⟩ => show win0_4.index t (0 : Fin 3) * 1 + 1 * 0 = win0_8.index t (0 : Fin 3) * 1 + 1 * 0; omega
    | ⟨1, _⟩ => show win0_4.index t (1 : Fin 3) * 256 + 1 * r.val = win0_8.index t (1 : Fin 3) * 256 + 1 * r.val; omega
    | ⟨2, _⟩ => show win0_4.index t (2 : Fin 3) * 128 + 1 * e.val = e.val; omega
  · show V c main_arg2 (((cfg0.win 5).blk t).view.emb (ix3 (0 : Fin 1) r e)) = _
    refine congrArg (V c main_arg2) (funext fun a => Fin.ext ?_)
    match a with
    | ⟨0, _⟩ => show win0_5.index t (0 : Fin 3) * 1 + 1 * 0 = win0_8.index t (0 : Fin 3) * 1 + 1 * 0; omega
    | ⟨1, _⟩ => show win0_5.index t (1 : Fin 3) * 256 + 1 * r.val = win0_8.index t (1 : Fin 3) * 256 + 1 * r.val; omega
    | ⟨2, _⟩ => show win0_5.index t (2 : Fin 3) * 128 + 1 * e.val = e.val; omega
  · show V c main_arg8 (((cfg0.win 6).blk t).view.emb (ix1 e)) = _
    refine congrArg (V c main_arg8) (funext fun a => Fin.ext ?_)
    match a with
    | ⟨0, _⟩ => show win0_6.index t (0 : Fin 1) * 128 + 1 * e.val = e.val; omega

/-- An index of the query array is in point `t`'s block iff each coordinate is in the block's range on its axis. -/
theorem mem_blk8 (t : Fin cfg0.N) (i : (⟨3, ![2, 2048, 2048]⟩ : Shape).Idx) :
    i ∈ ((cfg0.win 8).blk t).view.set
      ↔ ∀ a : Fin 3, win0_8.index t a * win0_8.size a ≤ (i a).val
          ∧ (i a).val < win0_8.index t a * win0_8.size a + win0_8.size a := by
  show i ∈ ((View.whole main_v4_0).slice (win0_8.rect t)).set ↔ _
  rw [View.set_slice_whole, Rect.mem_set_unit]
  exact Iff.rfl

/-- The sixteen blocks tile the query array. -/
theorem cover8 (i : (⟨3, ![2, 2048, 2048]⟩ : Shape).Idx) :
    ∃ t : Fin cfg0.N, (cfg0.win 8).flush t = true ∧ i ∈ ((cfg0.win 8).blk t).view.set := by
  have hi0 : (i 0).val < 2 := (i 0).isLt
  have hi1 : (i 1).val < 2048 := (i 1).isLt
  have hi2 : (i 2).val < 2048 := (i 2).isLt
  obtain ⟨t, q0, q1⟩ := idx_onto ⟨(i 0).val, hi0⟩ ⟨(i 1).val / 256, by omega⟩
  obtain ⟨o90, o91, -, -, o82, o92, -, -⟩ := idx_out t
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1
              simp only [] at q0 q1; omega
  | ⟨1, _⟩ => show win0_8.index t (1 : Fin 3) * 256 ≤ (i 1).val ∧ (i 1).val < win0_8.index t (1 : Fin 3) * 256 + 256
              simp only [] at q0 q1; omega
  | ⟨2, _⟩ => show win0_8.index t (2 : Fin 3) * 2048 ≤ (i 2).val ∧ (i 2).val < win0_8.index t (2 : Fin 3) * 2048 + 2048
              omega

/-- The query array after the region is the specification's. -/
theorem arr8 (c : Dev nD) :
    (Proj.dat0 (F := Ideal) V c).arrAt 8 cfg0.N
      = Attn.qArr (V c main_arg0) (V c main_v0) (V c main_arg1) (V c main_arg2) (V c main_arg8) :=
  (Proj.dat0 (F := Ideal) V c).arrAt_eq_of_cover 8
    (Attn.qArr (V c main_arg0) (V c main_v0) (V c main_arg1) (V c main_arg2) (V c main_arg8))
    (fun t _ => flushed8_eq V c t) cover8

end Cert.KernelIdeal.ProjVal

end
-- ==== Proof.ProjValK.lean ====
/-
  What the projection region leaves in its key array, on the extended reals: the key array of the layer's
  specification, as a function of the arrays the region finds. Point `t` of the 2 × 8 grid reads its block of 256
  rows of the hidden states, the cosines and the sines, and the whole weight and normalisation vector, and writes
  back its block of the output; what it writes is the specification's value at the block's rows, and the sixteen
  blocks tile the array.
-/
import proofs.«420301_j24240795419151_3_alg».proof.Proof.ProjValGeom
import proofs.«420301_j24240795419151_3_alg».proof.Proof.ProjPay
import proofs.«420301_j24240795419151_3_alg».proof.Proof.ProjFrame
import Idealize.ShloMosaic.Lib.Pipeline.Value

noncomputable section

namespace Cert.KernelIdeal.ProjVal

open Cert.KernelIdeal Cert.KernelIdeal.Gen Cert.Attn Idealize.ShloMosaic Idealize.ShloMosaic.ValueIdx
open Idealize.ShloMosaic.TcCoe Idealize.SL.Sem
open Idealize.ShloMosaic.Pipeline (Dat)

-- the core's array contents when the region is entered
variable (V : (c : Dev nD) → (b : Ref sig .tc) → Buf (Elt Ideal) ((c : Thread nD τ).loc b))

/-! ## The key array -/

/-- A block's key payload is the specification's key array at the array index `i` of the block's entry, once the blocks
    of hidden states, cosines and sines read are the arrays' rows at `i`'s batch and row, and the weight and the
    normalisation vector are read whole. -/
theorem k_block (A0 : S2x2048x2048.Idx → EReal) (W : S2048x1024.Idx → EReal) (C S : S2x2048x128.Idx → EReal)
    (Nw : S128.Idx → EReal) (x0 : Vec Ideal S1x256x2048 .f32) (xw : Vec Ideal S2048x1024 .bf16)
    (x4 x5 : Vec Ideal S1x256x128 .f32) (xn : Vec Ideal S128 .f32) (r : Fin 256) (n : Fin 1024)
    (i : (⟨3, ![2, 2048, 1024]⟩ : Shape).Idx) (hn : (i 2).val = n.val)
    (h0 : ∀ j : Fin 2048, x0 (ix3 (0 : Fin 1) r j) = A0 (ix3 (i 0) (i 1) j))
    (hw : ∀ (j : Fin 2048) (m : Fin 1024), xw (ix2 j m) = W (ix2 j m))
    (h4 : ∀ e : Fin 128, x4 (ix3 (0 : Fin 1) r e) = C (ix3 (i 0) (i 1) e))
    (h5 : ∀ e : Fin 128, x5 (ix3 (0 : Fin 1) r e) = S (ix3 (i 0) (i 1) e))
    (hnw : ∀ e : Fin 128, xn (ix1 e) = Nw (ix1 e)) :
    k0_pay10 (k0_pay3 x0 xw) xn (k0_pay6 x0 xw) x4 x5 (ix3 (0 : Fin 1) r n) = kArr A0 W C S Nw i := by
  have hn' : i 2 = n := Fin.ext hn
  rw [pay_k]
  unfold kArr kFlat proj c3 c2 c1
  rw [hn']
  simp only [h0, hw, h4, h5, hnw]

/-- What point `t` writes back to the key array is its block of the specification's key array. -/
theorem flushed9_eq (c : Dev nD) (t : Fin cfg0.N) :
    (Proj.dat0 (F := Ideal) V c).flushed 9 t
      = ((cfg0.win 9).blk t).view.read (Elt Ideal)
          (Attn.kArr (V c main_arg0) (V c main_v1) (V c main_arg1) (V c main_arg2) (V c main_arg9)) := by
  show (cfg0.win 9).cut (grid0.coords t) ((Proj.dat0 (F := Ideal) V c).after 9 t) = _
  rw [Proj.after0_9]
  unfold Proj.out0_9
  rw [View.canon_unit_zero hz3]
  simp only [View.ld_unit_zero (S := S1x256x2048) hz3, View.ld_unit_zero (S := S2048x1024) hz2,
    View.ld_unit_zero (S := S1x256x128) hz3, View.ld_unit_zero (S := S128) hz1]
  obtain ⟨a00, a01, a02, a40, a41, a42, a50, a51, a52⟩ := idx_in t
  obtain ⟨w10, w11, w20, w21, -, -, w6, w7⟩ := idx_whole t
  obtain ⟨o90, o91, -, -, o82, o92, -, -⟩ := idx_out t
  funext j
  obtain ⟨u, r, n, rfl⟩ : ∃ (u : Fin 1) (r : Fin 256) (n : Fin 1024), j = ix3 u r n := ⟨j 0, j 1, j 2, eq_ix3 j⟩
  obtain rfl : u = 0 := Subsingleton.elim _ _
  refine k_block (V c main_arg0) (V c main_v1) (V c main_arg1) (V c main_arg2) (V c main_arg9)
    (Proj.iblk0 V c 0 t) (Proj.iblk0 V c 2 t) (Proj.iblk0 V c 4 t) (Proj.iblk0 V c 5 t) (Proj.iblk0 V c 7 t) r n
    (((cfg0.win 9).blk t).view.emb (ix3 (0 : Fin 1) r n)) ?_ (fun x => ?_) (fun x m => ?_) (fun e => ?_) (fun e => ?_)
    (fun e => ?_)
  · show win0_9.index t (2 : Fin 3) * 1024 + 1 * n.val = n.val
    omega
  · show V c main_arg0 (((cfg0.win 0).blk t).view.emb (ix3 (0 : Fin 1) r x)) = _
    refine congrArg (V c main_arg0) (funext fun a => Fin.ext ?_)
    match a with
    | ⟨0, _⟩ => show win0_0.index t (0 : Fin 3) * 1 + 1 * 0 = win0_9.index t (0 : Fin 3) * 1 + 1 * 0; omega
    | ⟨1, _⟩ => show win0_0.index t (1 : Fin 3) * 256 + 1 * r.val = win0_9.index t (1 : Fin 3) * 256 + 1 * r.val; omega
    | ⟨2, _⟩ => show win0_0.index t (2 : Fin 3) * 2048 + 1 * x.val = x.val; omega
  · show V c main_v1 (((cfg0.win 2).blk t).view.emb (ix2 x m)) = _
    refine congrArg (V c main_v1) (funext fun a => Fin.ext ?_)
    match a with
    | ⟨0, _⟩ => show win0_2.index t (0 : Fin 2) * 2048 + 1 * x.val = x.val; omega
    | ⟨1, _⟩ => show win0_2.index t (1 : Fin 2) * 1024 + 1 * m.val = m.val; omega
  · show V c main_arg1 (((cfg0.win 4).blk t).view.emb (ix3 (0 : Fin 1) r e)) = _
    refine congrArg (V c main_arg1) (funext fun a => Fin.ext ?_)
    match a with
    | ⟨0, _⟩ => show win0_4.index t (0 : Fin 3) * 1 + 1 * 0 = win0_9.index t (0 : Fin 3) * 1 + 1 * 0; omega
    | ⟨1, _⟩ => show win0_4.index t (1 : Fin 3) * 256 + 1 * r.val = win0_9.index t (1 : Fin 3) * 256 + 1 * r.val; omega
    | ⟨2, _⟩ => show win0_4.index t (2 : Fin 3) * 128 + 1 * e.val = e.val; omega
  · show V c main_arg2 (((cfg0.win 5).blk t).view.emb (ix3 (0 : Fin 1) r e)) = _
    refine congrArg (V c main_arg2) (funext fun a => Fin.ext ?_)
    match a with
    | ⟨0, _⟩ => show win0_5.index t (0 : Fin 3) * 1 + 1 * 0 = win0_9.index t (0 : Fin 3) * 1 + 1 * 0; omega
    | ⟨1, _⟩ => show win0_5.index t (1 : Fin 3) * 256 + 1 * r.val = win0_9.index t (1 : Fin 3) * 256 + 1 * r.val; omega
    | ⟨2, _⟩ => show win0_5.index t (2 : Fin 3) * 128 + 1 * e.val = e.val; omega
  · show V c main_arg9 (((cfg0.win 7).blk t).view.emb (ix1 e)) = _
    refine congrArg (V c main_arg9) (funext fun a => Fin.ext ?_)
    match a with
    | ⟨0, _⟩ => show win0_7.index t (0 : Fin 1) * 128 + 1 * e.val = e.val; omega

/-- An index of the key array is in point `t`'s block iff each coordinate is in the block's range on its axis. -/
theorem mem_blk9 (t : Fin cfg0.N) (i : (⟨3, ![2, 2048, 1024]⟩ : Shape).Idx) :
    i ∈ ((cfg0.win 9).blk t).view.set
      ↔ ∀ a : Fin 3, win0_9.index t a * win0_9.size a ≤ (i a).val
          ∧ (i a).val < win0_9.index t a * win0_9.size a + win0_9.size a := by
  show i ∈ ((View.whole main_v4_1).slice (win0_9.rect t)).set ↔ _
  rw [View.set_slice_whole, Rect.mem_set_unit]
  exact Iff.rfl

/-- The sixteen blocks tile the key array. -/
theorem cover9 (i : (⟨3, ![2, 2048, 1024]⟩ : Shape).Idx) :
    ∃ t : Fin cfg0.N, (cfg0.win 9).flush t = true ∧ i ∈ ((cfg0.win 9).blk t).view.set := by
  have hi0 : (i 0).val < 2 := (i 0).isLt
  have hi1 : (i 1).val < 2048 := (i 1).isLt
  have hi2 : (i 2).val < 1024 := (i 2).isLt
  obtain ⟨t, q0, q1⟩ := idx_onto ⟨(i 0).val, hi0⟩ ⟨(i 1).val / 256, by omega⟩
  obtain ⟨o90, o91, -, -, o82, o92, -, -⟩ := idx_out t
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1
              simp only [] at q0 q1; omega
  | ⟨1, _⟩ => show win0_9.index t (1 : Fin 3) * 256 ≤ (i 1).val ∧ (i 1).val < win0_9.index t (1 : Fin 3) * 256 + 256
              simp only [] at q0 q1; omega
  | ⟨2, _⟩ => show win0_9.index t (2 : Fin 3) * 1024 ≤ (i 2).val ∧ (i 2).val < win0_9.index t (2 : Fin 3) * 1024 + 1024
              omega

/-- The key array after the region is the specification's. -/
theorem arr9 (c : Dev nD) :
    (Proj.dat0 (F := Ideal) V c).arrAt 9 cfg0.N
      = Attn.kArr (V c main_arg0) (V c main_v1) (V c main_arg1) (V c main_arg2) (V c main_arg9) :=
  (Proj.dat0 (F := Ideal) V c).arrAt_eq_of_cover 9
    (Attn.kArr (V c main_arg0) (V c main_v1) (V c main_arg1) (V c main_arg2) (V c main_arg9))
    (fun t _ => flushed9_eq V c t) cover9

end Cert.KernelIdeal.ProjVal

end
-- ==== Proof.ProjVal.lean ====
/-
  What the projection region leaves in its three output arrays, on the extended reals: the query, key and value arrays
  of the layer's specification, as functions of the arrays the region finds. The query and key arrays are in the two
  imported modules; here is the value array: point `t` of the 2 × 8 grid reads its block of 256 rows of the hidden
  states and the whole value weight, and writes back its block of the bare projection; the sixteen blocks tile the array.
-/
import proofs.«420301_j24240795419151_3_alg».proof.Proof.ProjValQ
import proofs.«420301_j24240795419151_3_alg».proof.Proof.ProjValK

noncomputable section

namespace Cert.KernelIdeal.ProjVal

open Cert.KernelIdeal Cert.KernelIdeal.Gen Cert.Attn Idealize.ShloMosaic Idealize.ShloMosaic.ValueIdx
open Idealize.ShloMosaic.TcCoe Idealize.SL.Sem
open Idealize.ShloMosaic.Pipeline (Dat)

-- the core's array contents when the region is entered
variable (V : (c : Dev nD) → (b : Ref sig .tc) → Buf (Elt Ideal) ((c : Thread nD τ).loc b))

/-! ## The value array -/

/-- A block's value payload is the specification's value array at the array index `i` of the block's entry, once the
    block of hidden states read is the array's rows at `i`'s batch and row and the weight block is the whole weight. -/
theorem v_block (A0 : S2x2048x2048.Idx → EReal) (Wv : S2048x1024.Idx → EReal) (x0 : Vec Ideal S1x256x2048 .f32)
    (x3 : Vec Ideal S2048x1024 .bf16) (r : Fin 256) (n : Fin 1024) (i : (⟨3, ![2, 2048, 1024]⟩ : Shape).Idx)
    (hn : (i 2).val = n.val) (h0 : ∀ j : Fin 2048, x0 (ix3 (0 : Fin 1) r j) = A0 (ix3 (i 0) (i 1) j))
    (h3 : ∀ (j : Fin 2048) (m : Fin 1024), x3 (ix2 j m) = Wv (ix2 j m)) :
    k0_pay1 (k0_pay11 (k0_pay4 x0 x3)) (ix3 (0 : Fin 1) r n) = vArr A0 Wv i := by
  have hn' : i 2 = n := Fin.ext hn
  rw [pay_v]
  unfold vArr vFlat proj c3 c2
  rw [hn']
  simp only [h0, h3]

/-- What point `t` writes back to the value array is its block of the specification's value array. -/
theorem flushed10_eq (c : Dev nD) (t : Fin cfg0.N) :
    (Proj.dat0 (F := Ideal) V c).flushed 10 t
      = ((cfg0.win 10).blk t).view.read (Elt Ideal) (Attn.vArr (V c main_arg0) (V c main_v2)) := by
  show (cfg0.win 10).cut (grid0.coords t) ((Proj.dat0 (F := Ideal) V c).after 10 t) = _
  rw [Proj.after0_10]
  unfold Proj.out0_10
  rw [View.canon_unit_zero hz3]
  simp only [View.ld_unit_zero (S := S1x256x2048) hz3, View.ld_unit_zero (S := S2048x1024) hz2]
  obtain ⟨a00, a01, a02, -⟩ := idx_in t
  obtain ⟨-, -, -, -, w30, w31, -⟩ := idx_whole t
  obtain ⟨-, -, o0, o1, -, -, o2, -⟩ := idx_out t
  funext j
  obtain ⟨u, r, n, rfl⟩ : ∃ (u : Fin 1) (r : Fin 256) (n : Fin 1024), j = ix3 u r n := ⟨j 0, j 1, j 2, eq_ix3 j⟩
  obtain rfl : u = 0 := Subsingleton.elim _ _
  refine v_block (V c main_arg0) (V c main_v2) (Proj.iblk0 V c 0 t) (Proj.iblk0 V c 3 t) r n
    (((cfg0.win 10).blk t).view.emb (ix3 (0 : Fin 1) r n)) ?_ (fun x => ?_) (fun x m => ?_)
  · show win0_10.index t (2 : Fin 3) * 1024 + 1 * n.val = n.val
    omega
  · show V c main_arg0 (((cfg0.win 0).blk t).view.emb (ix3 (0 : Fin 1) r x)) = _
    refine congrArg (V c main_arg0) (funext fun a => Fin.ext ?_)
    match a with
    | ⟨0, _⟩ => show win0_0.index t (0 : Fin 3) * 1 + 1 * 0 = win0_10.index t (0 : Fin 3) * 1 + 1 * 0; omega
    | ⟨1, _⟩ => show win0_0.index t (1 : Fin 3) * 256 + 1 * r.val = win0_10.index t (1 : Fin 3) * 256 + 1 * r.val; omega
    | ⟨2, _⟩ => show win0_0.index t (2 : Fin 3) * 2048 + 1 * x.val = x.val; omega
  · show V c main_v2 (((cfg0.win 3).blk t).view.emb (ix2 x m)) = _
    refine congrArg (V c main_v2) (funext fun a => Fin.ext ?_)
    match a with
    | ⟨0, _⟩ => show win0_3.index t (0 : Fin 2) * 2048 + 1 * x.val = x.val; omega
    | ⟨1, _⟩ => show win0_3.index t (1 : Fin 2) * 1024 + 1 * m.val = m.val; omega

/-- An index of the value array is in point `t`'s block iff each coordinate is in the block's range on its axis. -/
theorem mem_blk10 (t : Fin cfg0.N) (i : S2x2048x1024.Idx) :
    i ∈ ((cfg0.win 10).blk t).view.set
      ↔ ∀ a : Fin 3, win0_10.index t a * S1x256x1024.size a ≤ (i a).val
          ∧ (i a).val < win0_10.index t a * S1x256x1024.size a + S1x256x1024.size a := by
  show i ∈ ((View.whole main_v4_2).slice (win0_10.rect t)).set ↔ _
  rw [View.set_slice_whole, Rect.mem_set_unit]
  exact Iff.rfl

/-- The sixteen blocks tile the value array. -/
theorem cover10 (i : S2x2048x1024.Idx) :
    ∃ t : Fin cfg0.N, (cfg0.win 10).flush t = true ∧ i ∈ ((cfg0.win 10).blk t).view.set := by
  have hi0 : (i 0).val < 2 := (i 0).isLt
  have hi1 : (i 1).val < 2048 := (i 1).isLt
  have hi2 : (i 2).val < 1024 := (i 2).isLt
  obtain ⟨t, q0, q1⟩ := idx_onto ⟨(i 0).val, hi0⟩ ⟨(i 1).val / 256, by omega⟩
  obtain ⟨-, -, o0, o1, -, -, o2, -⟩ := idx_out t
  refine ⟨t, flush0_10 t, ?_⟩
  rw [mem_blk10]
  intro a
  match a with
  | ⟨0, _⟩ => show win0_10.index t (0 : Fin 3) * 1 ≤ (i 0).val ∧ (i 0).val < win0_10.index t (0 : Fin 3) * 1 + 1
              simp only [] at q0 q1; omega
  | ⟨1, _⟩ => show win0_10.index t (1 : Fin 3) * 256 ≤ (i 1).val ∧ (i 1).val < win0_10.index t (1 : Fin 3) * 256 + 256
              simp only [] at q0 q1; omega
  | ⟨2, _⟩ => show win0_10.index t (2 : Fin 3) * 1024 ≤ (i 2).val ∧ (i 2).val < win0_10.index t (2 : Fin 3) * 1024 + 1024
              omega

/-- The value array after the region is the specification's. -/
theorem arr10 (c : Dev nD) :
    (Proj.dat0 (F := Ideal) V c).arrAt 10 cfg0.N = Attn.vArr (V c main_arg0) (V c main_v2) :=
  (Proj.dat0 (F := Ideal) V c).arrAt_eq_of_cover 10 (Attn.vArr (V c main_arg0) (V c main_v2))
    (fun t _ => flushed10_eq V c t) cover10

end Cert.KernelIdeal.ProjVal

end
-- ==== Proof.AttnPay.lean ====
/-
  The second region's pure values read at an index, on the extended reals.

  The attention block's score row is the scaled inner product of one query row with every key plus the mask row; the
  block's weights are the softmax of that row in the product spelling (the exponential of the entry less the row's
  maximum, times the reciprocal of the row's sum of exponentials). The head's contribution to the output block is the
  weights against the values, then against the head's rows of the output weight, added to what the accumulator held.
-/
import proofs.«420301_j24240795419151_3_alg».proof.Proof.Gen.KernelIdeal.Skeleton
import proofs.«420301_j24240795419151_3_alg».proof.Proof.AttnArrays
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.AttnVal

open Cert.KernelIdeal Cert.KernelIdeal.Gen Cert.Attn Idealize.ShloMosaic Idealize.ShloMosaic.ValueIdx

/-! ## The words the region carries -/

/-- The maximum's starting word is minus infinity. -/
theorem ofBits_negInf : Ideal.ofBits .f32 0xFF800000#32 = ⊥ := by simp [Ideal.ofBits, Ideal.ieee]
/-- The quotient's numerator word is one. -/
theorem ofBits_one : Ideal.ofBits .f32 0x3F800000#32 = 1 := by
  simp [Ideal.ofBits, Ideal.ieee]
  rw [← EReal.coe_mul, ← EReal.coe_one]
  exact congrArg _ (by norm_num)

/-! ## The layout-only values -/

/-- The value block with its unit axis dropped. -/
theorem pay4_apply (x2 : Vec Ideal S1x2048x128 .bf16) (j : Fin 2048) (d : Fin 128) :
    k1_pay4 x2 (ix2 j d) = x2 (ix3 0 j d) := by
  unfold k1_pay4
  exact shapeCast_1ab_ab_apply x2 _ j d

/-- The accumulator's first contents: zero everywhere. -/
theorem pay3_apply (i : S256x2048.Idx) : k1_pay3 (F := Ideal) i = 0 := by
  unfold k1_pay3
  rw [shapeCast_self]
  exact Ideal.ofBits_zero_f32

/-- The accumulator written out as the output block: a unit axis added. -/
theorem pay2_apply (a : Vec Ideal S256x2048 .f32) (r : Fin 256) (n : Fin 2048) :
    k1_pay2 a (ix3 0 r n) = a (ix2 r n) := by
  unfold k1_pay2
  exact shapeCast_ab_1ab_apply a _ 0 r n

/-! ## The three matrix products at an index

Each product contracts one axis of each operand; its contraction index is that axis's one coordinate, and the
operands' indices at a result index and a contraction coordinate are read axis by axis. -/

theorem lhs_qk_0 (i : S256x2048.Idx) (q : dot_S256x128_S2048x128_S256x2048_1_1_0_0_n_n.contr.Idx) :
    (dot_S256x128_S2048x128_S256x2048_1_1_0_0_n_n.lhsIdx i q 0).val = (i 0).val := by
  unfold DotDims.lhsIdx
  rw [dif_neg (show ¬(0 : Fin S256x128.rank) ∈ dot_S256x128_S2048x128_S256x2048_1_1_0_0_n_n.lhsBatch by decide), dif_pos (show (0 : Fin S256x128.rank) ∈ dot_S256x128_S2048x128_S256x2048_1_1_0_0_n_n.lhsNonContracting by decide)]
  rfl
theorem lhs_qk_1 (i : S256x2048.Idx) (q : dot_S256x128_S2048x128_S256x2048_1_1_0_0_n_n.contr.Idx) :
    (dot_S256x128_S2048x128_S256x2048_1_1_0_0_n_n.lhsIdx i q 1).val = (q ⟨0, by decide⟩).val :=
  dot_S256x128_S2048x128_S256x2048_1_1_0_0_n_n.lhsIdx_val_of_single rfl i q
theorem rhs_qk_0 (i : S256x2048.Idx) (q : dot_S256x128_S2048x128_S256x2048_1_1_0_0_n_n.contr.Idx) :
    (dot_S256x128_S2048x128_S256x2048_1_1_0_0_n_n.rhsIdx i q 0).val = (i 1).val := by
  unfold DotDims.rhsIdx
  rw [dif_neg (show ¬(0 : Fin S2048x128.rank) ∈ dot_S256x128_S2048x128_S256x2048_1_1_0_0_n_n.rhsBatch by decide), dif_pos (show (0 : Fin S2048x128.rank) ∈ dot_S256x128_S2048x128_S256x2048_1_1_0_0_n_n.rhsNonContracting by decide)]
  rfl
theorem rhs_qk_1 (i : S256x2048.Idx) (q : dot_S256x128_S2048x128_S256x2048_1_1_0_0_n_n.contr.Idx) :
    (dot_S256x128_S2048x128_S256x2048_1_1_0_0_n_n.rhsIdx i q 1).val = (q ⟨0, by decide⟩).val :=
  dot_S256x128_S2048x128_S256x2048_1_1_0_0_n_n.rhsIdx_val_of_single rfl i q
/-- Queries against keys, both contracted along their lanes: entry `(r, c)` is the inner product of query row `r` with key row `c`. -/
theorem matmul_qk_apply (a : FVec Ideal S256x128 .bf16) (b : FVec Ideal S2048x128 .bf16) (r : Fin 256) (c : Fin 2048) :
    matmul dot_S256x128_S2048x128_S256x2048_1_1_0_0_n_n none a b (constant (F := Ideal) S256x2048 .f32 0x00000000#32) (ix2 r c)
      = ∑ k : Fin 128, a (ix2 r k) * b (ix2 c k) := by
  simp only [matmul]
  rw [Ideal.matmul_constant_zero_apply, ← Equiv.sum_comp (ValueIdx.contrEquiv1 dot_S256x128_S2048x128_S256x2048_1_1_0_0_n_n 128 rfl rfl).symm]
  refine Finset.sum_congr rfl fun k _ => ?_
  have hk := ValueIdx.contrEquiv1_symm_val dot_S256x128_S2048x128_S256x2048_1_1_0_0_n_n 128 rfl rfl k
  have el : dot_S256x128_S2048x128_S256x2048_1_1_0_0_n_n.lhsIdx (ix2 r c) ((ValueIdx.contrEquiv1 dot_S256x128_S2048x128_S256x2048_1_1_0_0_n_n 128 rfl rfl).symm k) = ix2 r k := funext fun x => Fin.ext (by
    match x with
    | ⟨0, _⟩ => exact lhs_qk_0 _ _
    | ⟨1, _⟩ => exact (lhs_qk_1 _ _).trans hk)
  have er : dot_S256x128_S2048x128_S256x2048_1_1_0_0_n_n.rhsIdx (ix2 r c) ((ValueIdx.contrEquiv1 dot_S256x128_S2048x128_S256x2048_1_1_0_0_n_n 128 rfl rfl).symm k) = ix2 c k := funext fun x => Fin.ext (by
    match x with
    | ⟨0, _⟩ => exact rhs_qk_0 _ _
    | ⟨1, _⟩ => exact (rhs_qk_1 _ _).trans hk)
  rw [el, er]

theorem lhs_pv_0 (i : S256x128.Idx) (q : dot_S256x2048_S2048x128_S256x128_1_0_0_1_n_n.contr.Idx) :
    (dot_S256x2048_S2048x128_S256x128_1_0_0_1_n_n.lhsIdx i q 0).val = (i 0).val := by
  unfold DotDims.lhsIdx
  rw [dif_neg (show ¬(0 : Fin S256x2048.rank) ∈ dot_S256x2048_S2048x128_S256x128_1_0_0_1_n_n.lhsBatch by decide), dif_pos (show (0 : Fin S256x2048.rank) ∈ dot_S256x2048_S2048x128_S256x128_1_0_0_1_n_n.lhsNonContracting by decide)]
  rfl
theorem lhs_pv_1 (i : S256x128.Idx) (q : dot_S256x2048_S2048x128_S256x128_1_0_0_1_n_n.contr.Idx) :
    (dot_S256x2048_S2048x128_S256x128_1_0_0_1_n_n.lhsIdx i q 1).val = (q ⟨0, by decide⟩).val :=
  dot_S256x2048_S2048x128_S256x128_1_0_0_1_n_n.lhsIdx_val_of_single rfl i q
theorem rhs_pv_1 (i : S256x128.Idx) (q : dot_S256x2048_S2048x128_S256x128_1_0_0_1_n_n.contr.Idx) :
    (dot_S256x2048_S2048x128_S256x128_1_0_0_1_n_n.rhsIdx i q 1).val = (i 1).val := by
  unfold DotDims.rhsIdx
  rw [dif_neg (show ¬(1 : Fin S2048x128.rank) ∈ dot_S256x2048_S2048x128_S256x128_1_0_0_1_n_n.rhsBatch by decide), dif_pos (show (1 : Fin S2048x128.rank) ∈ dot_S256x2048_S2048x128_S256x128_1_0_0_1_n_n.rhsNonContracting by decide)]
  rfl
theorem rhs_pv_0 (i : S256x128.Idx) (q : dot_S256x2048_S2048x128_S256x128_1_0_0_1_n_n.contr.Idx) :
    (dot_S256x2048_S2048x128_S256x128_1_0_0_1_n_n.rhsIdx i q 0).val = (q ⟨0, by decide⟩).val :=
  dot_S256x2048_S2048x128_S256x128_1_0_0_1_n_n.rhsIdx_val_of_single rfl i q
/-- Weights against values: entry `(r, c)` sums over the keys. -/
theorem matmul_pv_apply (a : FVec Ideal S256x2048 .bf16) (b : FVec Ideal S2048x128 .bf16) (r : Fin 256) (c : Fin 128) :
    matmul dot_S256x2048_S2048x128_S256x128_1_0_0_1_n_n none a b (constant (F := Ideal) S256x128 .f32 0x00000000#32) (ix2 r c)
      = ∑ k : Fin 2048, a (ix2 r k) * b (ix2 k c) := by
  simp only [matmul]
  rw [Ideal.matmul_constant_zero_apply, ← Equiv.sum_comp (ValueIdx.contrEquiv1 dot_S256x2048_S2048x128_S256x128_1_0_0_1_n_n 2048 rfl rfl).symm]
  refine Finset.sum_congr rfl fun k _ => ?_
  have hk := ValueIdx.contrEquiv1_symm_val dot_S256x2048_S2048x128_S256x128_1_0_0_1_n_n 2048 rfl rfl k
  have el : dot_S256x2048_S2048x128_S256x128_1_0_0_1_n_n.lhsIdx (ix2 r c) ((ValueIdx.contrEquiv1 dot_S256x2048_S2048x128_S256x128_1_0_0_1_n_n 2048 rfl rfl).symm k) = ix2 r k := funext fun x => Fin.ext (by
    match x with
    | ⟨0, _⟩ => exact lhs_pv_0 _ _
    | ⟨1, _⟩ => exact (lhs_pv_1 _ _).trans hk)
  have er : dot_S256x2048_S2048x128_S256x128_1_0_0_1_n_n.rhsIdx (ix2 r c) ((ValueIdx.contrEquiv1 dot_S256x2048_S2048x128_S256x128_1_0_0_1_n_n 2048 rfl rfl).symm k) = ix2 k c := funext fun x => Fin.ext (by
    match x with
    | ⟨0, _⟩ => exact (rhs_pv_0 _ _).trans hk
    | ⟨1, _⟩ => exact rhs_pv_1 _ _)
  rw [el, er]

theorem lhs_ow_0 (i : S256x2048.Idx) (q : dot_S256x128_S128x2048_S256x2048_1_0_0_1_n_n.contr.Idx) :
    (dot_S256x128_S128x2048_S256x2048_1_0_0_1_n_n.lhsIdx i q 0).val = (i 0).val := by
  unfold DotDims.lhsIdx
  rw [dif_neg (show ¬(0 : Fin S256x128.rank) ∈ dot_S256x128_S128x2048_S256x2048_1_0_0_1_n_n.lhsBatch by decide), dif_pos (show (0 : Fin S256x128.rank) ∈ dot_S256x128_S128x2048_S256x2048_1_0_0_1_n_n.lhsNonContracting by decide)]
  rfl
theorem lhs_ow_1 (i : S256x2048.Idx) (q : dot_S256x128_S128x2048_S256x2048_1_0_0_1_n_n.contr.Idx) :
    (dot_S256x128_S128x2048_S256x2048_1_0_0_1_n_n.lhsIdx i q 1).val = (q ⟨0, by decide⟩).val :=
  dot_S256x128_S128x2048_S256x2048_1_0_0_1_n_n.lhsIdx_val_of_single rfl i q
theorem rhs_ow_1 (i : S256x2048.Idx) (q : dot_S256x128_S128x2048_S256x2048_1_0_0_1_n_n.contr.Idx) :
    (dot_S256x128_S128x2048_S256x2048_1_0_0_1_n_n.rhsIdx i q 1).val = (i 1).val := by
  unfold DotDims.rhsIdx
  rw [dif_neg (show ¬(1 : Fin S128x2048.rank) ∈ dot_S256x128_S128x2048_S256x2048_1_0_0_1_n_n.rhsBatch by decide), dif_pos (show (1 : Fin S128x2048.rank) ∈ dot_S256x128_S128x2048_S256x2048_1_0_0_1_n_n.rhsNonContracting by decide)]
  rfl
theorem rhs_ow_0 (i : S256x2048.Idx) (q : dot_S256x128_S128x2048_S256x2048_1_0_0_1_n_n.contr.Idx) :
    (dot_S256x128_S128x2048_S256x2048_1_0_0_1_n_n.rhsIdx i q 0).val = (q ⟨0, by decide⟩).val :=
  dot_S256x128_S128x2048_S256x2048_1_0_0_1_n_n.rhsIdx_val_of_single rfl i q
/-- A head's rows against its rows of the output weight: entry `(r, c)` sums over the head's lanes. -/
theorem matmul_ow_apply (a : FVec Ideal S256x128 .bf16) (b : FVec Ideal S128x2048 .bf16) (r : Fin 256) (c : Fin 2048) :
    matmul dot_S256x128_S128x2048_S256x2048_1_0_0_1_n_n none a b (constant (F := Ideal) S256x2048 .f32 0x00000000#32) (ix2 r c)
      = ∑ k : Fin 128, a (ix2 r k) * b (ix2 k c) := by
  simp only [matmul]
  rw [Ideal.matmul_constant_zero_apply, ← Equiv.sum_comp (ValueIdx.contrEquiv1 dot_S256x128_S128x2048_S256x2048_1_0_0_1_n_n 128 rfl rfl).symm]
  refine Finset.sum_congr rfl fun k _ => ?_
  have hk := ValueIdx.contrEquiv1_symm_val dot_S256x128_S128x2048_S256x2048_1_0_0_1_n_n 128 rfl rfl k
  have el : dot_S256x128_S128x2048_S256x2048_1_0_0_1_n_n.lhsIdx (ix2 r c) ((ValueIdx.contrEquiv1 dot_S256x128_S128x2048_S256x2048_1_0_0_1_n_n 128 rfl rfl).symm k) = ix2 r k := funext fun x => Fin.ext (by
    match x with
    | ⟨0, _⟩ => exact lhs_ow_0 _ _
    | ⟨1, _⟩ => exact (lhs_ow_1 _ _).trans hk)
  have er : dot_S256x128_S128x2048_S256x2048_1_0_0_1_n_n.rhsIdx (ix2 r c) ((ValueIdx.contrEquiv1 dot_S256x128_S128x2048_S256x2048_1_0_0_1_n_n 128 rfl rfl).symm k) = ix2 k c := funext fun x => Fin.ext (by
    match x with
    | ⟨0, _⟩ => exact (rhs_ow_0 _ _).trans hk
    | ⟨1, _⟩ => exact rhs_ow_1 _ _)
  rw [el, er]
/-! ## The row operations at an index -/

/-- The exponential at an index is the exponential of the entry. -/
theorem exp_apply {s : Shape} {φ : FTy} (a : FVec Ideal s φ) (i : s.Idx) : exp a i = Ideal.exp (a i) := rfl

/-- A row index with the key coordinate put back is the pair. -/
theorem lift_row (h : S256x2048.Reduces [1] S256) (r : Fin 256) (k : Fin 2048) : h.lift (ix1 r) k = ix2 r k :=
  funext fun a => Fin.ext (by match a with | ⟨0, _⟩ => rfl | ⟨1, _⟩ => rfl)

/-- The sum along the keys, row by row. -/
theorem rowsum_apply (s : FVec Ideal S256x2048 .f32) (h : S256x2048.Reduces [1] S256) (hφ : FKind.Formats .f32)
    (hacc : (0x00000000#32 : BitVec 32) = 0x00000000#32) (r : Fin 256) :
    multiReduction (F := Ideal) .add [1] S256 s 0x00000000#32 h hφ hacc (ix1 r) = ∑ j : Fin 2048, s (ix2 r j) := by
  refine (Ideal.multiReduction_add_single s 0x00000000#32 h hφ hacc (ix1 r)).trans ?_
  exact Finset.sum_congr rfl fun k _ => congrArg s (lift_row h r k)

/-- The maximum along the keys, row by row, folded from minus infinity. -/
theorem rowmax_apply (s : FVec Ideal S256x2048 .f32) (h : S256x2048.Reduces [1] S256) (hφ : FKind.Formats .f32)
    (hacc : (0xFF800000#32 : BitVec 32) = 0xFF800000#32) (r : Fin 256) :
    multiReduction (F := Ideal) .maximumf [1] S256 s 0xFF800000#32 h hφ hacc (ix1 r) = rowMax (fun j => s (ix2 r j)) := by
  refine (Ideal.multiReduction_maximumf_single s 0xFF800000#32 h hφ hacc (ix1 r)).trans ?_
  unfold rowMax
  show (Finset.univ : Finset (Fin 2048)).fold max (Ideal.ofBits .f32 0xFF800000#32) (s ∘ h.lift (ix1 r)) = _
  rw [ofBits_negInf]
  exact congrArg (fun f : Fin 2048 → EReal => (Finset.univ : Finset (Fin 2048)).fold max ⊥ f) (funext fun k => congrArg s (lift_row h r k))

/-- A column of 256 entries viewed as a 256 by 1 array. -/
theorem cast_col_apply {α : Type} (v : S256.Idx → α) (h : S256.ShapeCasts S256x1) (r : Fin 256) (u : Fin 1) :
    shapeCast S256x1 v h (ix2 r u) = v (ix1 r) :=
  shapeCast_apply v h _ _ (by
    have hu : u.val = 0 := by omega
    rw [Shape.rowMajor_val_one, Shape.rowMajor_val_two]
    show r.val = r.val * 1 + u.val
    rw [hu, Nat.mul_one, Nat.add_zero])

/-- A 256 by 1 column spread along the keys reads its row's one entry. -/
theorem bcast_col_apply {α : Type} (v : S256x1.Idx → α) (h : S256x1.Broadcasts S256x2048) (r : Fin 256) (j : Fin 2048) :
    broadcastTo S256x2048 v h (ix2 r j) = v (ix2 r (0 : Fin 1)) := by
  refine broadcastTo_apply v h (ix2 r j) (ix2 r (0 : Fin 1)) fun ax => ?_
  match ax with
  | ⟨0, _⟩ => rfl
  | ⟨1, _⟩ => rfl

/-- The mask block with its two unit axes dropped. -/
theorem cast_11ab_ab_apply {α : Type} (x : S1x1x256x2048.Idx → α) (h : S1x1x256x2048.ShapeCasts S256x2048) (r : Fin 256) (j : Fin 2048) :
    shapeCast S256x2048 x h (ix2 r j) = x (ix4 (0 : Fin 1) (0 : Fin 1) r j) :=
  shapeCast_apply x h _ _ (by
    rw [Shape.rowMajor_val_four, Shape.rowMajor_val_two]
    show ((0 * 1 + 0) * 256 + r.val) * 2048 + j.val = r.val * 2048 + j.val
    omega)

/-- The weights block with two unit axes added. -/
theorem cast_ab_11ab_apply {α : Type} (x : S256x2048.Idx → α) (h : S256x2048.ShapeCasts S1x1x256x2048) (u0 u1 : Fin 1) (r : Fin 256) (j : Fin 2048) :
    shapeCast S1x1x256x2048 x h (ix4 u0 u1 r j) = x (ix2 r j) :=
  shapeCast_apply x h _ _ (by
    have h0 : u0.val = 0 := by omega
    have h1 : u1.val = 0 := by omega
    rw [Shape.rowMajor_val_four, Shape.rowMajor_val_two]
    show r.val * 2048 + j.val = ((u0.val * 1 + u1.val) * 256 + r.val) * 2048 + j.val
    rw [h0, h1]; omega)

/-! ## The weights' value cut in two: the scores, then the softmax of an array of rows -/

/-- The block's scores as an array: queries against keys, scaled, plus the mask block. -/
def scoreArr (x0 : Vec Ideal S1x256x128 .bf16) (x1 : Vec Ideal S1x2048x128 .bf16) (x4 : Vec Ideal S1x1x256x2048 .f32) :
    FVec Ideal S256x2048 .f32 :=
  addf (mulf (matmul dot_S256x128_S2048x128_S256x2048_1_1_0_0_n_n none (shapeCast S256x128 x0 shapeCasts_S1x256x128_S256x128 : FVec Ideal S256x128 .bf16)
      (shapeCast S2048x128 x1 shapeCasts_S1x2048x128_S2048x128 : FVec Ideal S2048x128 .bf16) (constant S256x2048 .f32 0x00000000#32))
    (broadcast S256x2048 (Scalar.ofBits .f32 0x3DB504F3#32))) (shapeCast S256x2048 x4 shapeCasts_S1x1x256x2048_S256x2048)

/-- The exponentials of an array's entries less their rows' maxima. -/
def pexpArr (s : FVec Ideal S256x2048 .f32) : FVec Ideal S256x2048 .f32 :=
  exp (subf s (broadcastTo S256x2048 (shapeCast S256x1
    (multiReduction .maximumf [1] S256 s 0xFF800000#32 reduces_S256x2048_S256 (.inl rfl) rfl) shapeCasts_S256_S256x1)
    broadcasts_S256x1_S256x2048))

/-- The softmax of an array of rows, in the product spelling. -/
def smArr (s : FVec Ideal S256x2048 .f32) : FVec Ideal S256x2048 .f32 :=
  mulf (pexpArr s) (broadcastTo S256x2048 (divf (broadcast S256x1 (Scalar.ofBits .f32 0x3F800000#32))
    (shapeCast S256x1 (multiReduction .add [1] S256 (pexpArr s) 0x00000000#32 reduces_S256x2048_S256 (.inl rfl) rfl)
      shapeCasts_S256_S256x1)) broadcasts_S256x1_S256x2048)

set_option maxRecDepth 65536 in
/-- The weights' value is the softmax of the scores' array. -/
theorem pay5_eq (x0 : Vec Ideal S1x256x128 .bf16) (x1 : Vec Ideal S1x2048x128 .bf16) (x4 : Vec Ideal S1x1x256x2048 .f32) :
    k1_pay5 x0 x1 x4 = smArr (scoreArr x0 x1 x4) := rfl

/-- the block's score row: the scaled inner product of query row r with every key, plus the mask row -/
def scoreRow (x0 : Vec Ideal S1x256x128 .bf16) (x1 : Vec Ideal S1x2048x128 .bf16) (x4 : Vec Ideal S1x1x256x2048 .f32)
    (r : Fin 256) : Fin 2048 → EReal :=
  fun j => (∑ d : Fin 128, x0 (ix3 0 r d) * x1 (ix3 0 j d)) * scl + x4 (ix4 0 0 r j)

/-- The scores' array at an index is the score row's entry. -/
theorem scoreArr_apply (x0 : Vec Ideal S1x256x128 .bf16) (x1 : Vec Ideal S1x2048x128 .bf16) (x4 : Vec Ideal S1x1x256x2048 .f32)
    (r : Fin 256) (j : Fin 2048) : scoreArr x0 x1 x4 (ix2 r j) = scoreRow x0 x1 x4 r j := by
  unfold scoreArr scoreRow
  rw [addf_apply, mulf_apply, broadcast_apply, matmul_qk_apply, cast_11ab_ab_apply]
  simp only [shapeCast_1ab_ab_apply]
  rfl

/-- The exponentials' array at an index. -/
theorem pexpArr_apply (s : FVec Ideal S256x2048 .f32) (r : Fin 256) (j : Fin 2048) :
    pexpArr s (ix2 r j) = pexp (fun j => s (ix2 r j)) j := by
  unfold pexpArr
  rw [exp_apply, subf_apply, bcast_col_apply, cast_col_apply, rowmax_apply]
  rfl

/-- The softmax array at an index is the row's softmax entry. -/
theorem smArr_apply (s : FVec Ideal S256x2048 .f32) (r : Fin 256) (j : Fin 2048) :
    smArr s (ix2 r j) = smMul (fun j => s (ix2 r j)) j := by
  unfold smArr
  rw [mulf_apply, pexpArr_apply, bcast_col_apply, divf_apply, broadcast_apply, cast_col_apply, rowsum_apply]
  simp only [pexpArr_apply]
  unfold smMul psum
  exact congrArg (fun t => pexp (fun j => s (ix2 r j)) j * Ideal.div t (∑ j' : Fin 2048, pexp (fun j => s (ix2 r j)) j')) ofBits_one

/-! ## The weights at an index -/

theorem pay5_apply (x0 : Vec Ideal S1x256x128 .bf16) (x1 : Vec Ideal S1x2048x128 .bf16) (x4 : Vec Ideal S1x1x256x2048 .f32)
    (r : Fin 256) (j : Fin 2048) : k1_pay5 x0 x1 x4 (ix2 r j) = smMul (scoreRow x0 x1 x4 r) j := by
  rw [pay5_eq, smArr_apply]
  exact congrArg (fun f => smMul f j) (funext fun j' => scoreArr_apply x0 x1 x4 r j')

theorem pay6_apply (x0 : Vec Ideal S1x256x128 .bf16) (x1 : Vec Ideal S1x2048x128 .bf16) (x4 : Vec Ideal S1x1x256x2048 .f32)
    (r : Fin 256) (j : Fin 2048) : k1_pay6 x0 x1 x4 (ix4 0 0 r j) = smMul (scoreRow x0 x1 x4 r) j := by
  unfold k1_pay6
  exact (cast_ab_11ab_apply _ _ 0 0 r j).trans (pay5_apply x0 x1 x4 r j)

theorem pay7_apply (x0 : Vec Ideal S1x256x128 .bf16) (x1 : Vec Ideal S1x2048x128 .bf16) (x4 : Vec Ideal S1x1x256x2048 .f32)
    (r : Fin 256) (j : Fin 2048) : k1_pay7 x0 x1 x4 (ix2 r j) = smMul (scoreRow x0 x1 x4 r) j :=
  pay5_apply x0 x1 x4 r j

/-! ## A head's contribution added to the accumulator -/

theorem pay1_apply (v : FVec Ideal S2048x128 .bf16) (p : FVec Ideal S256x2048 .bf16) (w : Vec Ideal S128x2048 .bf16)
    (prev : Vec Ideal S256x2048 .f32) (r : Fin 256) (n : Fin 2048) :
    k1_pay1 v p (constant (F := Ideal) S256x128 .f32 0x00000000#32) w prev (ix2 r n)
      = prev (ix2 r n) + ∑ d : Fin 128, (∑ j : Fin 2048, p (ix2 r j) * v (ix2 j d)) * w (ix2 d n) := by
  unfold k1_pay1
  rw [shapeCast_self, addf_apply, shapeCast_self, matmul_ow_apply]
  refine congrArg (prev (ix2 r n) + ·) (Finset.sum_congr rfl fun d _ => ?_)
  rw [truncf_apply, matmul_pv_apply]

end Cert.KernelIdeal.AttnVal

end
-- ==== Proof.AttnVal.lean ====
import proofs.«420301_j24240795419151_3_alg».proof.Proof.AttnFrame
import proofs.«420301_j24240795419151_3_alg».proof.Proof.AttnPay
import Idealize.ShloMosaic.Lib.Pipeline.Value
import Idealize.ShloMosaic.Lib.ValueIdx
import Idealize.ShloMosaic.PureOps.Ideal.Laws

/-!
# What the attention region leaves in the output array

The second region visits, for each batch and each block of 256 query rows, the 16 heads in order. At every head it
adds to an accumulator the head's softmax weights against the head's values, against the head's 128 rows of the
output weight; at head 0 the accumulator starts from zero, and at head 15 it is written to the output block. So the
accumulator after head `h` is zero plus the terms of heads `0 … h` added in that order, and the output array ends
holding, at every batch, position and column, that sum over all 16 heads.
-/

set_option maxRecDepth 16384

noncomputable section

namespace Cert.KernelIdeal.AttnVal

open Cert.KernelIdeal Cert.KernelIdeal.Gen Cert.KernelIdeal.AttnR Cert.Attn
open Idealize.ShloMosaic Idealize.ShloMosaic.ValueIdx
open Idealize.ShloMosaic.TcCoe Idealize.SL.Sem
open Idealize.ShloMosaic.Pipeline (Dat)

/-! ## The grid: batch, query block and head of a point; each window's block index there -/

theorem idxA : ∀ t : Fin cfg1.N,
    win1_0.index t (0 : Fin 3) = t.val / 128 ∧ win1_0.index t (1 : Fin 3) = (t.val / 16) % 8 ∧ win1_0.index t (2 : Fin 3) = t.val % 16
    ∧ win1_1.index t (0 : Fin 3) = t.val / 128 ∧ win1_1.index t (1 : Fin 3) = 0 ∧ win1_1.index t (2 : Fin 3) = (t.val % 16) / 2
    ∧ win1_2.index t (0 : Fin 3) = t.val / 128 ∧ win1_2.index t (1 : Fin 3) = 0 ∧ win1_2.index t (2 : Fin 3) = (t.val % 16) / 2
    ∧ win1_3.index t (0 : Fin 2) = 0 ∧ win1_3.index t (1 : Fin 2) = 0
    ∧ win1_4.index t (0 : Fin 4) = t.val / 128 ∧ win1_4.index t (1 : Fin 4) = 0 ∧ win1_4.index t (2 : Fin 4) = (t.val / 16) % 8 ∧ win1_4.index t (3 : Fin 4) = 0 :=
  (by decide +kernel : ∀ t : Fin grid1.N, _)

theorem idxB : ∀ t : Fin cfg1.N,
    win1_5.index t (0 : Fin 4) = t.val / 128 ∧ win1_5.index t (1 : Fin 4) = t.val % 16 ∧ win1_5.index t (2 : Fin 4) = (t.val / 16) % 8 ∧ win1_5.index t (3 : Fin 4) = 0
    ∧ win1_6.index t (0 : Fin 3) = t.val / 128 ∧ win1_6.index t (1 : Fin 3) = (t.val / 16) % 8 ∧ win1_6.index t (2 : Fin 3) = 0
    ∧ k1_off1 (grid1.coords t) (0 : Fin 2) = (t.val % 16) * 128 ∧ k1_off1 (grid1.coords t) (1 : Fin 2) = 0 :=
  (by decide +kernel : ∀ t : Fin grid1.N, _)

/-- The batch, the query block and the head of a grid point. -/
def bOf (t : Fin cfg1.N) : Fin 2 := ⟨t.val / 128, by have := t.isLt; have h : cfg1.N = 256 := N_1; omega⟩
def qOf (t : Fin cfg1.N) : Fin 8 := ⟨(t.val / 16) % 8, by omega⟩
def hOf (t : Fin cfg1.N) : Fin 16 := ⟨t.val % 16, by omega⟩
/-- Row `r` of query block `qi`. -/
def rowOf (qi : Fin 8) (r : Fin 256) : Fin 2048 := ⟨qi.val * 256 + r.val, by have := qi.isLt; have := r.isLt; omega⟩

theorem read_blk0 (A : Vec Ideal S2x2048x2048 .bf16) (t : Fin cfg1.N) (r : Fin 256) (d : Fin 128) :
    ((cfg1.win 0).blk t).view.read (Elt Ideal) A (ix3 0 r d) = A (ix3 (bOf t) (rowOf (qOf t) r) (colQ (hOf t) d)) := by
  obtain ⟨e0, e1, e2, -⟩ := idxA t
  rw [View.read_apply]
  show A _ = A _
  refine congrArg A ?_
  funext a; apply Fin.ext
  match a with
  | ⟨0, _⟩ => show win1_0.index t (0 : Fin 3) * 1 + 1 * 0 = t.val / 128; omega
  | ⟨1, _⟩ => show win1_0.index t (1 : Fin 3) * 256 + 1 * r.val = (t.val / 16) % 8 * 256 + r.val; omega
  | ⟨2, _⟩ => show win1_0.index t (2 : Fin 3) * 128 + 1 * d.val = t.val % 16 * 128 + d.val; omega

theorem read_blk1 (A : Vec Ideal S2x2048x1024 .bf16) (t : Fin cfg1.N) (j : Fin 2048) (d : Fin 128) :
    ((cfg1.win 1).blk t).view.read (Elt Ideal) A (ix3 0 j d) = A (ix3 (bOf t) j (colK (kvOf (hOf t)) d)) := by
  obtain ⟨-, -, -, e0, e1, e2, -⟩ := idxA t
  rw [View.read_apply]
  show A _ = A _
  refine congrArg A ?_
  funext a; apply Fin.ext
  match a with
  | ⟨0, _⟩ => show win1_1.index t (0 : Fin 3) * 1 + 1 * 0 = t.val / 128; omega
  | ⟨1, _⟩ => show win1_1.index t (1 : Fin 3) * 2048 + 1 * j.val = j.val; omega
  | ⟨2, _⟩ => show win1_1.index t (2 : Fin 3) * 128 + 1 * d.val = t.val % 16 / 2 * 128 + d.val; omega

theorem read_blk2 (A : Vec Ideal S2x2048x1024 .bf16) (t : Fin cfg1.N) (j : Fin 2048) (d : Fin 128) :
    ((cfg1.win 2).blk t).view.read (Elt Ideal) A (ix3 0 j d) = A (ix3 (bOf t) j (colK (kvOf (hOf t)) d)) := by
  obtain ⟨-, -, -, -, -, -, e0, e1, e2, -⟩ := idxA t
  rw [View.read_apply]
  show A _ = A _
  refine congrArg A ?_
  funext a; apply Fin.ext
  match a with
  | ⟨0, _⟩ => show win1_2.index t (0 : Fin 3) * 1 + 1 * 0 = t.val / 128; omega
  | ⟨1, _⟩ => show win1_2.index t (1 : Fin 3) * 2048 + 1 * j.val = j.val; omega
  | ⟨2, _⟩ => show win1_2.index t (2 : Fin 3) * 128 + 1 * d.val = t.val % 16 / 2 * 128 + d.val; omega

theorem read_blk3 (A : Vec Ideal S2048x2048 .bf16) (t : Fin cfg1.N) (x : Fin 2048) (n : Fin 2048) :
    ((cfg1.win 3).blk t).view.read (Elt Ideal) A (ix2 x n) = A (ix2 x n) := by
  obtain ⟨-, -, -, -, -, -, -, -, -, e0, e1, -⟩ := idxA t
  rw [View.read_apply]
  show A _ = A _
  refine congrArg A ?_
  funext a; apply Fin.ext
  match a with
  | ⟨0, _⟩ => show win1_3.index t (0 : Fin 2) * 2048 + 1 * x.val = x.val; omega
  | ⟨1, _⟩ => show win1_3.index t (1 : Fin 2) * 2048 + 1 * n.val = n.val; omega

theorem read_blk4 (A : Vec Ideal S2x1x2048x2048 .f32) (t : Fin cfg1.N) (r : Fin 256) (j : Fin 2048) :
    ((cfg1.win 4).blk t).view.read (Elt Ideal) A (ix4 0 0 r j) = A (ix4 (bOf t) 0 (rowOf (qOf t) r) j) := by
  obtain ⟨-, -, -, -, -, -, -, -, -, -, -, e0, e1, e2, e3⟩ := idxA t
  rw [View.read_apply]
  show A _ = A _
  refine congrArg A ?_
  funext a; apply Fin.ext
  match a with
  | ⟨0, _⟩ => show win1_4.index t (0 : Fin 4) * 1 + 1 * 0 = t.val / 128; omega
  | ⟨1, _⟩ => show win1_4.index t (1 : Fin 4) * 1 + 1 * 0 = 0; omega
  | ⟨2, _⟩ => show win1_4.index t (2 : Fin 4) * 256 + 1 * r.val = (t.val / 16) % 8 * 256 + r.val; omega
  | ⟨3, _⟩ => show win1_4.index t (3 : Fin 4) * 2048 + 1 * j.val = j.val; omega

/-- The rows of the output weight the body loads at a point: rows `h * 128 …` of the whole matrix. -/
theorem ld_rows (X : Vec Ideal S2048x2048 .bf16) (t : Fin cfg1.N) (d : Fin 128) (n : Fin 2048) :
    View.ld X (Rect.unit (s := S2048x2048) (k1_off1 (grid1.coords t)) S128x2048.size (k1_off1_inb (grid1.coords t))) (ix2 d n)
      = X (ix2 (colQ (hOf t) d) n) := by
  obtain ⟨-, -, -, -, -, -, -, e0, e1⟩ := idxB t
  show X _ = X _
  refine congrArg X ?_
  funext a; apply Fin.ext
  match a with
  | ⟨0, _⟩ => show k1_off1 (grid1.coords t) (0 : Fin 2) + 1 * d.val = t.val % 16 * 128 + d.val; omega
  | ⟨1, _⟩ => show k1_off1 (grid1.coords t) (1 : Fin 2) + 1 * n.val = n.val; omega

/-- An index of the output array lies in point `t`'s block iff each coordinate lies in the block's range. -/
theorem mem_blk6 (t : Fin cfg1.N) (i : S2x2048x2048.Idx) :
    i ∈ ((cfg1.win 6).blk t).view.set ↔ ∀ a : Fin 3, win1_6.index t a * S1x256x2048.size a ≤ (i a).val ∧ (i a).val < win1_6.index t a * S1x256x2048.size a + S1x256x2048.size a := by
  show i ∈ ((View.whole main_v5_1).slice (win1_6.rect t)).set ↔ _
  rw [View.set_slice_whole, Rect.mem_set_unit]
  exact Iff.rfl

/-- Every index of the output array lies in the block of the last head's point of its batch and query block. -/
theorem cover6 (i : S2x2048x2048.Idx) :
    ∃ t : Fin cfg1.N, (cfg1.win 6).flush t = true ∧ i ∈ ((cfg1.win 6).blk t).view.set := by
  have hN : cfg1.N = 256 := N_1
  have h0 : (i 0).val < 2 := (i 0).isLt
  have h1 : (i 1).val < 2048 := (i 1).isLt
  have h2 : (i 2).val < 2048 := (i 2).isLt
  let t : Fin cfg1.N := ⟨((i 0).val * 8 + (i 1).val / 256) * 16 + 15, by omega⟩
  have htv : t.val = ((i 0).val * 8 + (i 1).val / 256) * 16 + 15 := rfl
  obtain ⟨-, -, -, -, e0, e1, e2, -⟩ := idxB t
  refine ⟨t, (flush1_6 t).mpr (by omega), ?_⟩
  rw [mem_blk6]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 256 ≤ (i 1).val ∧ (i 1).val < win1_6.index t (1 : Fin 3) * 256 + 256; omega
  | ⟨2, _⟩ => show win1_6.index t (2 : Fin 3) * 2048 ≤ (i 2).val ∧ (i 2).val < win1_6.index t (2 : Fin 3) * 2048 + 2048; omega

/-- A block of the output array, read at row `r` and column `n`. -/
theorem read_blk6 (A : Vec Ideal S2x2048x2048 .f32) (t : Fin cfg1.N) (r : Fin 256) (n : Fin 2048) :
    ((cfg1.win 6).blk t).view.read (Elt Ideal) A (ix3 0 r n) = A (ix3 (bOf t) (rowOf (qOf t) r) n) := by
  obtain ⟨-, -, -, -, e0, e1, e2, -⟩ := idxB t
  rw [View.read_apply]
  show A _ = A _
  refine congrArg A ?_
  funext a; apply Fin.ext
  match a with
  | ⟨0, _⟩ => show win1_6.index t (0 : Fin 3) * 1 + 1 * 0 = t.val / 128; omega
  | ⟨1, _⟩ => show win1_6.index t (1 : Fin 3) * 256 + 1 * r.val = (t.val / 16) % 8 * 256 + r.val; omega
  | ⟨2, _⟩ => show win1_6.index t (2 : Fin 3) * 2048 + 1 * n.val = n.val; omega

/-! ## One head's step of the accumulation, on the specification's side -/

theorem accHeads_zero (o : Fin 16 → Fin 128 → EReal) (wo : Fin 2048 → Fin 2048 → EReal) (n : Fin 2048) (hh : 0 < 16) :
    accHeads o wo n 0 hh = 0 + headTerm o wo n ⟨0, hh⟩ := rfl

theorem accHeads_succ (o : Fin 16 → Fin 128 → EReal) (wo : Fin 2048 → Fin 2048 → EReal) (n : Fin 2048) (h : ℕ) (hh : h + 1 < 16) :
    accHeads o wo n (h + 1) hh = accHeads o wo n h (Nat.lt_of_succ_lt hh) + headTerm o wo n ⟨h + 1, hh⟩ := rfl

/-! ## The arrays the region reads, and the blocks of them a point is handed -/

variable (V : (c : Dev nD) → (b : Ref sig .tc) → Buf (Elt Ideal) ((c : Thread nD τ).loc b))

abbrev qA (c : Dev nD) : Vec Ideal S2x2048x2048 .bf16 := V c main_v4_0
abbrev kA (c : Dev nD) : Vec Ideal S2x2048x1024 .bf16 := V c main_v4_1
abbrev vA (c : Dev nD) : Vec Ideal S2x2048x1024 .bf16 := V c main_v4_2
abbrev woA (c : Dev nD) : Vec Ideal S2048x2048 .bf16 := V c main_v3
abbrev mA (c : Dev nD) : Vec Ideal S2x1x2048x2048 .f32 := V c main_arg3

abbrev xq (c : Dev nD) (t : Fin cfg1.N) : Vec Ideal S1x256x128 .bf16 := iblk1 V c 0 t
abbrev xk (c : Dev nD) (t : Fin cfg1.N) : Vec Ideal S1x2048x128 .bf16 := iblk1 V c 1 t
abbrev xv (c : Dev nD) (t : Fin cfg1.N) : Vec Ideal S1x2048x128 .bf16 := iblk1 V c 2 t
abbrev xw (c : Dev nD) (t : Fin cfg1.N) : Vec Ideal S2048x2048 .bf16 := iblk1 V c 3 t
abbrev xm (c : Dev nD) (t : Fin cfg1.N) : Vec Ideal S1x1x256x2048 .f32 := iblk1 V c 4 t

theorem xq_apply (c : Dev nD) (t : Fin cfg1.N) (r : Fin 256) (d : Fin 128) :
    xq V c t (ix3 0 r d) = qA V c (ix3 (bOf t) (rowOf (qOf t) r) (colQ (hOf t) d)) := read_blk0 (qA V c) t r d
theorem xk_apply (c : Dev nD) (t : Fin cfg1.N) (j : Fin 2048) (d : Fin 128) :
    xk V c t (ix3 0 j d) = kA V c (ix3 (bOf t) j (colK (kvOf (hOf t)) d)) := read_blk1 (kA V c) t j d
theorem xv_apply (c : Dev nD) (t : Fin cfg1.N) (j : Fin 2048) (d : Fin 128) :
    xv V c t (ix3 0 j d) = vA V c (ix3 (bOf t) j (colK (kvOf (hOf t)) d)) := read_blk2 (vA V c) t j d
theorem xw_apply (c : Dev nD) (t : Fin cfg1.N) (x : Fin 2048) (n : Fin 2048) :
    xw V c t (ix2 x n) = woA V c (ix2 x n) := read_blk3 (woA V c) t x n
theorem xm_apply (c : Dev nD) (t : Fin cfg1.N) (r : Fin 256) (j : Fin 2048) :
    xm V c t (ix4 0 0 r j) = mA V c (ix4 (bOf t) 0 (rowOf (qOf t) r) j) := read_blk4 (mA V c) t r j

/-- One head's weighted values at batch `b` and position `s`, over the region's arrays. -/
def oHead (c : Dev nD) (b : Fin 2) (s : Fin 2048) : Fin 16 → Fin 128 → EReal :=
  fun h d => headOut (awMul (c3 (qA V c)) (c3 (kA V c)) (cMask (mA V c))) (c3 (vA V c)) b h s d

/-! ## The accumulating store at an index -/

/-- What the accumulating store leaves, at row `r` and column `n`: what was there plus, over the head's 128 lanes,
    the softmax row against the values, against the loaded rows of the output weight. -/
theorem accStep_at (i : grid1.Coords) (x0 : Vec Ideal S1x256x128 .bf16) (x1 x2 : Vec Ideal S1x2048x128 .bf16)
    (x3 : Vec Ideal S2048x2048 .bf16) (x4 : Vec Ideal S1x1x256x2048 .f32) (prev : Vec Ideal S256x2048 .f32)
    (r : Fin 256) (n : Fin 2048) :
    accStep i x0 x1 x2 x3 x4 prev (ix2 r n)
      = prev (ix2 r n) + ∑ d : Fin 128, (∑ j : Fin 2048, smMul (scoreRow x0 x1 x4 r) j * x2 (ix3 0 j d)) * View.ld x3 (rW i) (ix2 d n) := by
  unfold accStep
  rw [canon_cons_whole z2, ld_whole z3 _ x2, ld_whole z3 _ x0, ld_whole z3 _ x1, ld_whole z4 _ x4, ld_whole z2 _ prev]
  refine (pay1_apply _ _ _ _ r n).trans ?_
  simp only [pay7_apply, pay4_apply]

/-- The block's score row is the specification's score row of the point's batch, head and position. -/
theorem scoreRow_eq (c : Dev nD) (t : Fin cfg1.N) (r : Fin 256) :
    scoreRow (xq V c t) (xk V c t) (xm V c t) r
      = score (c3 (qA V c)) (c3 (kA V c)) (cMask (mA V c)) (bOf t) (hOf t) (rowOf (qOf t) r) := by
  funext j
  have e : ∀ d : Fin 128, xq V c t (ix3 0 r d) * xk V c t (ix3 0 j d)
      = qA V c (ix3 (bOf t) (rowOf (qOf t) r) (colQ (hOf t) d)) * kA V c (ix3 (bOf t) j (colK (kvOf (hOf t)) d)) :=
    fun d => by rw [xq_apply, xk_apply]
  show (∑ d : Fin 128, xq V c t (ix3 0 r d) * xk V c t (ix3 0 j d)) * scl + xm V c t (ix4 0 0 r j) = _
  rw [Finset.sum_congr rfl (fun d _ => e d), xm_apply]
  rfl

/-- The head's term of a point: the step's sum is the specification's term of the point's head. -/
theorem head_step (c : Dev nD) (t : Fin cfg1.N) (r : Fin 256) (n : Fin 2048) :
    (∑ d : Fin 128, (∑ j : Fin 2048, smMul (scoreRow (xq V c t) (xk V c t) (xm V c t) r) j * xv V c t (ix3 0 j d))
        * View.ld (xw V c t) (rW (grid1.coords t)) (ix2 d n))
      = headTerm (oHead V c (bOf t) (rowOf (qOf t) r)) (c2 (woA V c)) n (hOf t) := by
  rw [scoreRow_eq]
  unfold headTerm oHead headOut awMul
  refine Finset.sum_congr rfl fun d _ => ?_
  rw [ld_rows, xw_apply]
  refine congrArg (· * woA V c (ix2 (colQ (hOf t) d) n)) ?_
  refine Finset.sum_congr rfl fun j _ => ?_
  rw [xv_apply]
  rfl

/-! ## The accumulator after each point is the heads' sum so far -/

theorem accHeads_of_zero (o : Fin 16 → Fin 128 → EReal) (wo : Fin 2048 → Fin 2048 → EReal) (n : Fin 2048)
    (h : ℕ) (hh : h < 16) (h0 : h = 0) : accHeads o wo n h hh = 0 + headTerm o wo n ⟨h, hh⟩ := by
  subst h0; rfl

theorem accHeads_of_pos (o : Fin 16 → Fin 128 → EReal) (wo : Fin 2048 → Fin 2048 → EReal) (n : Fin 2048)
    (h : ℕ) (hh : h < 16) (h0 : h ≠ 0) :
    accHeads o wo n h hh = accHeads o wo n (h - 1) (by omega) + headTerm o wo n ⟨h, hh⟩ := by
  cases h with
  | zero => exact absurd rfl h0
  | succ k => rfl

theorem accHeads_congr (o : Fin 16 → Fin 128 → EReal) (wo : Fin 2048 → Fin 2048 → EReal) (n : Fin 2048)
    {h h' : ℕ} (hh : h < 16) (hh' : h' < 16) (e : h = h') : accHeads o wo n h hh = accHeads o wo n h' hh' := by
  subst e; rfl

/-- At a head-0 point the accumulator is zero plus head 0's term. -/
theorem acc_reset (c : Dev nD) (t : Fin cfg1.N) (h0 : t.val % 16 = 0) (r : Fin 256) (n : Fin 2048) :
    accAt1 V c t.val t.isLt (ix2 r n)
      = accHeads (oHead V c (bOf t) (rowOf (qOf t) r)) (c2 (woA V c)) n (t.val % 16) (Nat.mod_lt _ (by decide)) := by
  refine (congrFun (accAt1_zero V c t h0) (ix2 r n)).trans ?_
  refine (accStep_at (grid1.coords t) (xq V c t) (xk V c t) (xv V c t) (xw V c t) (xm V c t) (k1_pay3 (F := Ideal)) r n).trans ?_
  rw [pay3_apply, head_step]
  exact (accHeads_of_zero _ _ _ _ _ h0).symm

/-- At a later head it is what the point before left plus this head's term. -/
theorem acc_add (c : Dev nD) (t : Fin cfg1.N) (h0 : ¬t.val % 16 = 0) (r : Fin 256) (n : Fin 2048)
    (hlt : t.val - 1 < cfg1.N)
    (ih : accAt1 V c (t.val - 1) hlt (ix2 r n)
      = accHeads (oHead V c (bOf t) (rowOf (qOf t) r)) (c2 (woA V c)) n (t.val % 16 - 1) (by omega)) :
    accAt1 V c t.val t.isLt (ix2 r n)
      = accHeads (oHead V c (bOf t) (rowOf (qOf t) r)) (c2 (woA V c)) n (t.val % 16) (Nat.mod_lt _ (by decide)) := by
  refine (congrFun (accAt1_step V c t h0) (ix2 r n)).trans ?_
  refine (accStep_at (grid1.coords t) (xq V c t) (xk V c t) (xv V c t) (xw V c t) (xm V c t) _ r n).trans ?_
  rw [head_step]
  rw [accHeads_of_pos _ _ _ _ _ h0]
  exact congrArg (· + headTerm (oHead V c (bOf t) (rowOf (qOf t) r)) (c2 (woA V c)) n (hOf t)) ih

theorem acc_eq (c : Dev nD) (n : ℕ) : ∀ (hn : n < cfg1.N) (r : Fin 256) (nn : Fin 2048),
    accAt1 V c n hn (ix2 r nn)
      = accHeads (oHead V c (bOf ⟨n, hn⟩) (rowOf (qOf ⟨n, hn⟩) r)) (c2 (woA V c)) nn (n % 16) (Nat.mod_lt _ (by decide)) := by
  induction n with
  | zero => intro hn r nn; exact acc_reset V c ⟨0, hn⟩ rfl r nn
  | succ m ih =>
    intro hn r nn
    by_cases h0 : (m + 1) % 16 = 0
    · exact acc_reset V c ⟨m + 1, hn⟩ h0 r nn
    · have hN : cfg1.N = 256 := N_1
      have hb : bOf ⟨m, Nat.lt_of_succ_lt hn⟩ = bOf ⟨m + 1, hn⟩ := Fin.ext (by show m / 128 = (m + 1) / 128; omega)
      have hq : qOf ⟨m, Nat.lt_of_succ_lt hn⟩ = qOf ⟨m + 1, hn⟩ := Fin.ext (by show m / 16 % 8 = (m + 1) / 16 % 8; omega)
      have ih' := ih (Nat.lt_of_succ_lt hn) r nn
      rw [hb, hq] at ih'
      refine acc_add V c ⟨m + 1, hn⟩ h0 r nn (Nat.lt_of_succ_lt hn) (ih'.trans ?_)
      exact accHeads_congr _ _ _ _ _ (by show m % 16 = (m + 1) % 16 - 1; omega)

/-! ## The output array -/

theorem blk6_ext (X Y : Vec Ideal S1x256x2048 .f32) (h : ∀ (r : Fin 256) (n : Fin 2048), X (ix3 0 r n) = Y (ix3 0 r n)) : X = Y := by
  funext j
  obtain ⟨a, r, n, rfl⟩ : ∃ (a : Fin 1) (r : Fin 256) (n : Fin 2048), j = ix3 a r n := ⟨j 0, j 1, j 2, eq_ix3 j⟩
  obtain rfl : a = 0 := Subsingleton.elim _ _
  exact h r n

/-- What the last head's point writes back is its block of the specification's output. -/
theorem flushed6_eq (c : Dev nD) (t : Fin cfg1.N) (hf : (cfg1.win 6).flush t = true) :
    (dat1 V c).flushed 6 t
      = ((cfg1.win 6).blk t).view.read (Elt Ideal) (outAccArr (qA V c) (kA V c) (vA V c) (mA V c) (woA V c)) := by
  have h15 : t.val % 16 = 15 := (flush1_6 t).mp hf
  show (cfg1.win 6).cut (grid1.coords t) ((dat1 V c).after 6 t) = _
  rw [after1_6]
  show out1_6 (accAt1 V c t.val t.isLt) = _
  refine blk6_ext _ _ fun r n => ?_
  rw [read_blk6]
  unfold out1_6
  rw [canon_cons_whole z3, ld_whole z2 _ (accAt1 V c t.val t.isLt), pay2_apply, acc_eq V c t.val t.isLt r n]
  show _ = accHeads (oHead V c (bOf t) (rowOf (qOf t) r)) (c2 (woA V c)) n 15 (by decide)
  exact accHeads_congr _ _ _ _ _ h15

/-- The output array after the region: the heads' accumulated output projection. -/
theorem arr6 (V : (c : Dev nD) → (b : Ref sig .tc) → Buf (Elt Ideal) ((c : Thread nD τ).loc b)) (c : Dev nD) :
    (AttnR.dat1 (F := Ideal) V c).arrAt 6 cfg1.N
      = Attn.outAccArr (V c main_v4_0) (V c main_v4_1) (V c main_v4_2) (V c main_arg3) (V c main_v3) :=
  (dat1 V c).arrAt_eq_of_cover 6 _ (flushed6_eq V c) cover6

end Cert.KernelIdeal.AttnVal

end
-- ==== Proof.AttnValW.lean ====
/-
  What the second region leaves in the attention-weights array, on the extended reals.

  Grid point `t` of (2, 8, 16) is batch `t / 128`, query block `(t / 16) % 8` (rows `256 * block … + 255`), head
  `t % 16`. The point's query block holds the head's 128 lanes of its 256 rows, its key block the 2048 rows of group
  `head / 2`, its mask block its 256 rows. Every point writes back its weights block: the softmax, in the product
  spelling, of each row's masked scaled scores; and the blocks of all points tile the array.
-/
import proofs.«420301_j24240795419151_3_alg».proof.Proof.AttnFrame
import proofs.«420301_j24240795419151_3_alg».proof.Proof.AttnPay
import proofs.«420301_j24240795419151_3_alg».proof.Proof.AttnArrays
import Idealize.ShloMosaic.Lib.Pipeline.Value
import Idealize.ShloMosaic.Lib.ValueIdx
import Idealize.ShloMosaic.PureOps.Ideal.Laws

set_option maxRecDepth 16384

noncomputable section

namespace Cert.KernelIdeal.AttnValW

open Cert.KernelIdeal Cert.KernelIdeal.Gen Cert.KernelIdeal.AttnR Cert.KernelIdeal.AttnVal Cert.Attn
open Idealize.ShloMosaic Idealize.ShloMosaic.TcCoe Idealize.ShloMosaic.ValueIdx
open Idealize.ShloMosaic.Pipeline (Dat Cfg Window)

/-! ## A grid point's coordinates -/

/-- The batch of point `t`. -/
def bOf (t : Fin cfg1.N) : Fin 2 := ⟨t.val / 128, by have := t.isLt; have : cfg1.N = 256 := N_1; omega⟩
/-- The query block of point `t`. -/
def qOf (t : Fin cfg1.N) : Fin 8 := ⟨t.val / 16 % 8, Nat.mod_lt _ (by decide)⟩
/-- The head of point `t`. -/
def hOf (t : Fin cfg1.N) : Fin 16 := ⟨t.val % 16, Nat.mod_lt _ (by decide)⟩
/-- Row `r` of point `t`'s query block, as a position. -/
def rowOf (t : Fin cfg1.N) (r : Fin 256) : Fin 2048 := ⟨(t.val / 16 % 8) * 256 + r.val, by have := r.isLt; omega⟩

/-- The printed index maps of the query, key, mask and weights windows, decided over the grid. -/
theorem idx_facts : ∀ t : Fin cfg1.N,
    win1_0.index t (0 : Fin 3) = t.val / 128 ∧ win1_0.index t (1 : Fin 3) = t.val / 16 % 8 ∧ win1_0.index t (2 : Fin 3) = t.val % 16
    ∧ win1_1.index t (0 : Fin 3) = t.val / 128 ∧ win1_1.index t (1 : Fin 3) = 0 ∧ win1_1.index t (2 : Fin 3) = t.val % 16 / 2
    ∧ win1_4.index t (0 : Fin 4) = t.val / 128 ∧ win1_4.index t (1 : Fin 4) = 0 ∧ win1_4.index t (2 : Fin 4) = t.val / 16 % 8 ∧ win1_4.index t (3 : Fin 4) = 0
    ∧ win1_5.index t (0 : Fin 4) = t.val / 128 ∧ win1_5.index t (1 : Fin 4) = t.val % 16 ∧ win1_5.index t (2 : Fin 4) = t.val / 16 % 8 ∧ win1_5.index t (3 : Fin 4) = 0 :=
  (by decide +kernel : ∀ t : Fin grid1.N, _)

/-! ## The blocks, read where the rectangles say

A block's coordinate in the array is, on each axis, the block index times the block's size plus the coordinate inside
the block. -/

/-- The query block: the head's 128 lanes of the query block's 256 rows. -/
theorem read0 (A : S2x2048x2048.Idx → EReal) (t : Fin cfg1.N) (r : Fin 256) (d : Fin 128) :
    ((cfg1.win 0).blk t).view.read (Elt Ideal) A (ix3 (0 : Fin 1) r d) = A (ix3 (bOf t) (rowOf t r) (colQ (hOf t) d)) := by
  obtain ⟨e0, e1, e2, -⟩ := idx_facts t
  show A (((cfg1.win 0).blk t).view.emb (ix3 (0 : Fin 1) r d)) = _
  refine congrArg A (funext fun a => Fin.ext ?_)
  have := r.isLt; have := d.isLt
  match a with
  | ⟨0, _⟩ => show win1_0.index t (0 : Fin 3) * 1 + 1 * 0 = t.val / 128; omega
  | ⟨1, _⟩ => show win1_0.index t (1 : Fin 3) * 256 + 1 * r.val = t.val / 16 % 8 * 256 + r.val; omega
  | ⟨2, _⟩ => show win1_0.index t (2 : Fin 3) * 128 + 1 * d.val = t.val % 16 * 128 + d.val; omega

/-- The key block: all 2048 rows of the lanes of group `head / 2`. -/
theorem read1 (A : S2x2048x1024.Idx → EReal) (t : Fin cfg1.N) (j : Fin 2048) (d : Fin 128) :
    ((cfg1.win 1).blk t).view.read (Elt Ideal) A (ix3 (0 : Fin 1) j d) = A (ix3 (bOf t) j (colK (kvOf (hOf t)) d)) := by
  obtain ⟨-, -, -, e0, e1, e2, -⟩ := idx_facts t
  show A (((cfg1.win 1).blk t).view.emb (ix3 (0 : Fin 1) j d)) = _
  refine congrArg A (funext fun a => Fin.ext ?_)
  have := j.isLt; have := d.isLt
  match a with
  | ⟨0, _⟩ => show win1_1.index t (0 : Fin 3) * 1 + 1 * 0 = t.val / 128; omega
  | ⟨1, _⟩ => show win1_1.index t (1 : Fin 3) * 2048 + 1 * j.val = j.val; omega
  | ⟨2, _⟩ => show win1_1.index t (2 : Fin 3) * 128 + 1 * d.val = t.val % 16 / 2 * 128 + d.val; omega

/-- The mask block: the query block's 256 rows, all 2048 keys. -/
theorem read4 (A : S2x1x2048x2048.Idx → EReal) (t : Fin cfg1.N) (r : Fin 256) (j : Fin 2048) :
    ((cfg1.win 4).blk t).view.read (Elt Ideal) A (ix4 (0 : Fin 1) (0 : Fin 1) r j) = A (ix4 (bOf t) (0 : Fin 1) (rowOf t r) j) := by
  obtain ⟨-, -, -, -, -, -, e0, e1, e2, e3, -⟩ := idx_facts t
  show A (((cfg1.win 4).blk t).view.emb (ix4 (0 : Fin 1) (0 : Fin 1) r j)) = _
  refine congrArg A (funext fun a => Fin.ext ?_)
  have := r.isLt; have := j.isLt
  match a with
  | ⟨0, _⟩ => show win1_4.index t (0 : Fin 4) * 1 + 1 * 0 = t.val / 128; omega
  | ⟨1, _⟩ => show win1_4.index t (1 : Fin 4) * 1 + 1 * 0 = 0; omega
  | ⟨2, _⟩ => show win1_4.index t (2 : Fin 4) * 256 + 1 * r.val = t.val / 16 % 8 * 256 + r.val; omega
  | ⟨3, _⟩ => show win1_4.index t (3 : Fin 4) * 2048 + 1 * j.val = j.val; omega

/-- The weights block: the query block's 256 rows of the point's head, all 2048 keys. -/
theorem read5 (A : S2x16x2048x2048.Idx → EReal) (t : Fin cfg1.N) (r : Fin 256) (j : Fin 2048) :
    ((cfg1.win 5).blk t).view.read (Elt Ideal) A (ix4 (0 : Fin 1) (0 : Fin 1) r j) = A (ix4 (bOf t) (hOf t) (rowOf t r) j) := by
  obtain ⟨-, -, -, -, -, -, -, -, -, -, e0, e1, e2, e3⟩ := idx_facts t
  show A (((cfg1.win 5).blk t).view.emb (ix4 (0 : Fin 1) (0 : Fin 1) r j)) = _
  refine congrArg A (funext fun a => Fin.ext ?_)
  have := r.isLt; have := j.isLt
  match a with
  | ⟨0, _⟩ => show win1_5.index t (0 : Fin 4) * 1 + 1 * 0 = t.val / 128; omega
  | ⟨1, _⟩ => show win1_5.index t (1 : Fin 4) * 1 + 1 * 0 = t.val % 16; omega
  | ⟨2, _⟩ => show win1_5.index t (2 : Fin 4) * 256 + 1 * r.val = t.val / 16 % 8 * 256 + r.val; omega
  | ⟨3, _⟩ => show win1_5.index t (3 : Fin 4) * 2048 + 1 * j.val = j.val; omega

/-! ## The point's score row and weights block -/

/-- The score row of the point's blocks is the specification's score row at the point's batch, head and position. -/
theorem scoreRow_blocks (Q : S2x2048x2048.Idx → EReal) (K : S2x2048x1024.Idx → EReal) (M : S2x1x2048x2048.Idx → EReal)
    (t : Fin cfg1.N) (r : Fin 256) :
    scoreRow (((cfg1.win 0).blk t).view.read (Elt Ideal) Q) (((cfg1.win 1).blk t).view.read (Elt Ideal) K)
        (((cfg1.win 4).blk t).view.read (Elt Ideal) M) r
      = score (c3 Q) (c3 K) (cMask M) (bOf t) (hOf t) (rowOf t r) := by
  funext j
  unfold scoreRow score
  refine congrArg₂ (· + ·) (congrArg (· * scl) (Finset.sum_congr rfl fun d _ => ?_)) ?_
  · exact congrArg₂ (· * ·) (read0 Q t r d) (read1 K t j d)
  · exact read4 M t r j

/-- The one whole store of the weights block, at an index: the softmax of the row's scores. -/
theorem aw1_at (x0 : Vec Ideal S1x256x128 .bf16) (x1 : Vec Ideal S1x2048x128 .bf16) (x4 : Vec Ideal S1x1x256x2048 .f32)
    (r : Fin 256) (j : Fin 2048) :
    aw1 (F := Ideal) x0 x1 x4 (ix4 0 0 r j) = smMul (scoreRow x0 x1 x4 r) j := by
  unfold aw1
  rw [canon_cons_whole z4, ld_whole z3, ld_whole z3, ld_whole z4]
  exact pay6_apply x0 x1 x4 r j

/-- Two weights blocks that agree at every (row, key) are equal: the two leading axes have one coordinate. -/
theorem blk5_ext (X Y : S1x1x256x2048.Idx → EReal)
    (h : ∀ (r : Fin 256) (j : Fin 2048), X (ix4 (0 : Fin 1) (0 : Fin 1) r j) = Y (ix4 (0 : Fin 1) (0 : Fin 1) r j)) : X = Y := by
  funext y
  obtain ⟨z0, z1, r, j, rfl⟩ : ∃ (z0 z1 : Fin 1) (r : Fin 256) (j : Fin 2048), y = ix4 z0 z1 r j :=
    ⟨y 0, y 1, y 2, y 3, eq_ix4 y⟩
  obtain rfl : z0 = 0 := Subsingleton.elim _ _
  obtain rfl : z1 = 0 := Subsingleton.elim _ _
  exact h r j

variable (V : (c : Dev nD) → (b : Ref sig .tc) → Buf (Elt Ideal) ((c : Thread nD τ).loc b))

/-- What point `t` writes back is its block of the specification's weights. -/
theorem flushed5_eq (c : Dev nD) (t : Fin cfg1.N) :
    (dat1 (F := Ideal) V c).flushed 5 t
      = ((cfg1.win 5).blk t).view.read (Elt Ideal) (awMulArr (V c main_v4_0) (V c main_v4_1) (V c main_arg3)) := by
  show (cfg1.win 5).cut (grid1.coords t) ((dat1 (F := Ideal) V c).after 5 t) = _
  rw [after1_5]
  refine blk5_ext _ _ (fun r j => ?_)
  rw [read5]
  show aw1 (F := Ideal) (iblk1 V c 0 t) (iblk1 V c 1 t) (iblk1 V c 4 t) (ix4 0 0 r j) = _
  rw [aw1_at]
  exact congrArg (fun f => smMul f j) (scoreRow_blocks (V c main_v4_0) (V c main_v4_1) (V c main_arg3) t r)

/-! ## The weights blocks tile the array -/

/-- An index of the array is in point `t`'s block iff each coordinate is in the block's range on its axis. -/
theorem mem_blk5 (t : Fin cfg1.N) (i : S2x16x2048x2048.Idx) :
    i ∈ ((cfg1.win 5).blk t).view.set ↔ ∀ a : Fin 4, win1_5.index t a * S1x1x256x2048.size a ≤ (i a).val
      ∧ (i a).val < win1_5.index t a * S1x1x256x2048.size a + S1x1x256x2048.size a := by
  show i ∈ ((View.whole main_v5_0).slice (win1_5.rect t)).set ↔ _
  rw [View.set_slice_whole, Rect.mem_set_unit]
  exact Iff.rfl

/-- Entry (b, h, s, j) lies in the block of the point of batch `b`, query block `s / 256`, head `h`. -/
theorem cover5 (i : S2x16x2048x2048.Idx) :
    ∃ t : Fin cfg1.N, (cfg1.win 5).flush t = true ∧ i ∈ ((cfg1.win 5).blk t).view.set := by
  have h0 : (i 0).val < 2 := (i 0).isLt
  have h1 : (i 1).val < 16 := (i 1).isLt
  have h2 : (i 2).val < 2048 := (i 2).isLt
  have h3 : (i 3).val < 2048 := (i 3).isLt
  have hN : cfg1.N = 256 := N_1
  obtain ⟨t, tv⟩ : ∃ t : Fin cfg1.N, t.val = ((i 0).val * 8 + (i 2).val / 256) * 16 + (i 1).val :=
    ⟨⟨((i 0).val * 8 + (i 2).val / 256) * 16 + (i 1).val, by omega⟩, rfl⟩
  refine ⟨t, flush1_5 t, ?_⟩
  obtain ⟨-, -, -, -, -, -, -, -, -, -, e0, e1, e2, e3⟩ := idx_facts t
  rw [mem_blk5]
  intro a
  match a with
  | ⟨0, _⟩ => show win1_5.index t (0 : Fin 4) * 1 ≤ (i 0).val ∧ (i 0).val < win1_5.index t (0 : Fin 4) * 1 + 1; omega
  | ⟨1, _⟩ => show win1_5.index t (1 : Fin 4) * 1 ≤ (i 1).val ∧ (i 1).val < win1_5.index t (1 : Fin 4) * 1 + 1; omega
  | ⟨2, _⟩ => show win1_5.index t (2 : Fin 4) * 256 ≤ (i 2).val ∧ (i 2).val < win1_5.index t (2 : Fin 4) * 256 + 256; omega
  | ⟨3, _⟩ => show win1_5.index t (3 : Fin 4) * 2048 ≤ (i 3).val ∧ (i 3).val < win1_5.index t (3 : Fin 4) * 2048 + 2048; omega

/-! ## The array -/

/-- After the region the attention-weights array holds the specification's weights, in the product spelling. -/
theorem arr5 (c : Dev nD) :
    (AttnR.dat1 (F := Ideal) V c).arrAt 5 cfg1.N = Attn.awMulArr (V c main_v4_0) (V c main_v4_1) (V c main_arg3) :=
  (dat1 (F := Ideal) V c).arrAt_eq_of_cover 5 (awMulArr (V c main_v4_0) (V c main_v4_1) (V c main_arg3))
    (fun t _ => flushed5_eq V c t) cover5

end Cert.KernelIdeal.AttnValW

end
-- ==== Proof.LibERealSage.lean ====
import Mathlib.Data.EReal.Basic
import Mathlib.Data.EReal.Operations
import Mathlib.Data.EReal.Inv
import Mathlib.Algebra.BigOperators.Group.Finset.Basic
import Idealize.ShloMosaic.PureOps.Ideal
import Idealize.ShloMosaic.PureOps.Ideal.Laws

/-!
# Finite extended reals, and the algebra of a two-relation mean-aggregating graph layer

General lemmas over `EReal`.

* `IsReal x`: the extended real `x` is (the image of) a real number; closure under the ring
  operations, `max`, finite sums.
* Distributivity `x * (a + b) = x * a + x * b` holds on the finite extended reals (it fails at
  `x = ⊤, a = 1, b = -1`), hence `∑ X (A + B) = ∑ X A + ∑ X B` for finite families.
* Reassociations of the sums that make up one output entry of a layer whose node type has one,
  respectively two, incoming relations.
* Division by a nonzero real is the product with the quotient `1 / r`.
* Gathering from, and scatter-adding into, an everywhere finite array gives an everywhere finite
  array.
-/

namespace Cert.LibERealSage

open Idealize.ShloMosaic

/-! ### Finite extended reals -/

/-- An extended real is *real* (finite) when it is the image of a real number. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- The sum of two real extended reals is real. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The product of two real extended reals is real. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The negation of a real extended real is real. -/
theorem isReal_neg {x : EReal} (hx : IsReal x) : IsReal (-x) := by
  obtain ⟨a, rfl⟩ := hx
  exact ⟨-a, (EReal.coe_neg a).symm⟩

/-- The maximum of two real extended reals is real. -/
theorem isReal_max {x y : EReal} (hx : IsReal x) (hy : IsReal y) : IsReal (max x y) := by
  rcases le_total x y with h | h
  · rw [max_eq_right h]; exact hy
  · rw [max_eq_left h]; exact hx

/-- `max x 0` is real when `x` is. -/
theorem isReal_max_zero {x : EReal} (hx : IsReal x) : IsReal (max x 0) :=
  isReal_max hx isReal_zero

/-- A finite sum of real extended reals is real. -/
theorem isReal_sum {ι : Type*} (S : Finset ι) (f : ι → EReal) (h : ∀ i ∈ S, IsReal (f i)) :
    IsReal (∑ i ∈ S, f i) := by
  classical
  induction S using Finset.induction_on with
  | empty => simpa using isReal_zero
  | insert a s ha ih =>
    rw [Finset.sum_insert ha]
    exact isReal_add (h a (Finset.mem_insert_self a s))
      (ih (fun i hi => h i (Finset.mem_insert_of_mem hi)))

/-- A sum over a whole finite type of real extended reals is real. -/
theorem isReal_sum_univ {ι : Type*} [Fintype ι] (f : ι → EReal) (h : ∀ i, IsReal (f i)) :
    IsReal (∑ i, f i) :=
  isReal_sum Finset.univ f (fun i _ => h i)

/-- An extended real is real exactly when it is neither infinity. -/
theorem isReal_iff (x : EReal) : IsReal x ↔ x ≠ ⊤ ∧ x ≠ ⊥ := by
  constructor
  · rintro ⟨r, rfl⟩
    exact ⟨EReal.coe_ne_top r, EReal.coe_ne_bot r⟩
  · rintro ⟨h1, h2⟩
    induction x using EReal.rec with
    | bot => exact absurd rfl h2
    | coe r => exact ⟨r, rfl⟩
    | top => exact absurd rfl h1

/-! ### Distributivity on the finite extended reals -/

/-- Multiplication distributes over addition when all three extended reals are real. -/
theorem mul_add_of_isReal {x a b : EReal} (hx : IsReal x) (ha : IsReal a) (hb : IsReal b) :
    x * (a + b) = x * a + x * b := by
  obtain ⟨x, rfl⟩ := hx
  obtain ⟨a, rfl⟩ := ha
  obtain ⟨b, rfl⟩ := hb
  rw [← EReal.coe_add, ← EReal.coe_mul, ← EReal.coe_mul, ← EReal.coe_mul, ← EReal.coe_add,
    mul_add]

section Families

variable {ι : Type*} [Fintype ι]

/-- A contraction against a sum of two finite families is the sum of the two contractions, when
    the contracted family is finite too. -/
theorem sum_mul_add (X A B : ι → EReal) (hX : ∀ j, IsReal (X j)) (hA : ∀ j, IsReal (A j))
    (hB : ∀ j, IsReal (B j)) :
    ∑ j, X j * (A j + B j) = ∑ j, X j * A j + ∑ j, X j * B j := by
  rw [← Finset.sum_add_distrib]
  exact Finset.sum_congr rfl (fun j _ => mul_add_of_isReal (hX j) (hA j) (hB j))

/-- One output entry of a layer whose node type has ONE incoming relation: the neighbour term,
    the root term and the bias, summed in two different orders. No finiteness is needed. -/
theorem one_rel_entry (A W X R : ι → EReal) (β : EReal) :
    (((0 : EReal) + ∑ j, A j * W j) + ∑ j, X j * ((0 : EReal) + R j)) + ((0 : EReal) + β)
      = ((((0 : EReal) + ∑ j, A j * W j) + β) + ∑ j, X j * R j) := by
  simp only [zero_add]
  rw [add_right_comm]

/-- One output entry of a layer whose node type has TWO incoming relations: on one side the two
    neighbour terms, ONE root term against the sum of the two root matrices and the sum of the
    two biases; on the other side the two relations' (neighbour, bias, root) triples added in
    turn. Needs the root features and the two root matrices finite. -/
theorem two_rel_entry (A1 W1 A2 W2 X R1 R2 : ι → EReal) (β1 β2 : EReal)
    (hX : ∀ j, IsReal (X j)) (hR1 : ∀ j, IsReal (R1 j)) (hR2 : ∀ j, IsReal (R2 j)) :
    ((((0 : EReal) + ∑ j, A1 j * W1 j) + ∑ j, A2 j * W2 j)
        + ∑ j, X j * (((0 : EReal) + R1 j) + R2 j)) + (((0 : EReal) + β1) + β2)
      = ((((((0 : EReal) + ∑ j, A1 j * W1 j) + β1) + ∑ j, X j * R1 j) + ∑ j, A2 j * W2 j) + β2)
        + ∑ j, X j * R2 j := by
  simp only [zero_add]
  rw [sum_mul_add X R1 R2 hX hR1 hR2]
  ac_rfl

/-- `one_rel_entry` under `max · 0`. -/
theorem one_rel_entry_relu (A W X R : ι → EReal) (β : EReal) :
    max ((((0 : EReal) + ∑ j, A j * W j) + ∑ j, X j * ((0 : EReal) + R j)) + ((0 : EReal) + β)) 0
      = max ((((0 : EReal) + ∑ j, A j * W j) + β) + ∑ j, X j * R j) 0 :=
  congrArg (max · 0) (one_rel_entry A W X R β)

/-- `two_rel_entry` under `max · 0`. -/
theorem two_rel_entry_relu (A1 W1 A2 W2 X R1 R2 : ι → EReal) (β1 β2 : EReal)
    (hX : ∀ j, IsReal (X j)) (hR1 : ∀ j, IsReal (R1 j)) (hR2 : ∀ j, IsReal (R2 j)) :
    max (((((0 : EReal) + ∑ j, A1 j * W1 j) + ∑ j, A2 j * W2 j)
        + ∑ j, X j * (((0 : EReal) + R1 j) + R2 j)) + (((0 : EReal) + β1) + β2)) 0
      = max (((((((0 : EReal) + ∑ j, A1 j * W1 j) + β1) + ∑ j, X j * R1 j) + ∑ j, A2 j * W2 j) + β2)
        + ∑ j, X j * R2 j) 0 :=
  congrArg (max · 0) (two_rel_entry A1 W1 A2 W2 X R1 R2 β1 β2 hX hR1 hR2)

end Families

/-! ### Division by a nonzero real -/

/-- Division by a nonzero real is the product with the quotient `1 / r`, at the infinities
    too. -/
theorem div_eq_mul_one_div (s : EReal) {r : ℝ} (hr : r ≠ 0) :
    Idealize.ShloMosaic.Ideal.div s (r : EReal)
      = s * Idealize.ShloMosaic.Ideal.div 1 (r : EReal) := by
  rw [Ideal.div_coe hr, Ideal.div_coe hr, one_mul]

/-- The quotient `1 / r` by a nonzero real is real. -/
theorem isReal_div_one {r : ℝ} (hr : r ≠ 0) :
    IsReal (Idealize.ShloMosaic.Ideal.div 1 (r : EReal)) :=
  ⟨1 / r, by rw [Ideal.div_coe hr, one_mul]⟩

/-- The quotient of a real by a nonzero real is real. -/
theorem isReal_div {s : EReal} (hs : IsReal s) {r : ℝ} (hr : r ≠ 0) :
    IsReal (Idealize.ShloMosaic.Ideal.div s (r : EReal)) := by
  rw [Ideal.div_coe hr]
  exact isReal_mul hs (isReal_coe _)

/-- `max c 1` of a real `c` is a real number that is at least one. -/
theorem isReal_max_one' (c : EReal) (hc : IsReal c) :
    ∃ r : ℝ, 1 ≤ r ∧ max c 1 = (r : EReal) := by
  obtain ⟨a, rfl⟩ := hc
  refine ⟨max a 1, le_max_right a 1, ?_⟩
  rw [← EReal.coe_one]
  exact (EReal.coe_strictMono.monotone.map_max).symm

/-- `max c 1` of a real `c` is a nonzero real number. -/
theorem isReal_max_one (c : EReal) (hc : IsReal c) :
    ∃ r : ℝ, r ≠ 0 ∧ max c 1 = (r : EReal) := by
  obtain ⟨r, h1, h⟩ := isReal_max_one' c hc
  exact ⟨r, by linarith, h⟩

/-! ### Finiteness through a gather and an accumulating scatter -/

/-- Every element of a gather from an everywhere real array is real. -/
theorem isReal_gather {s si t : Shape} {w : Nat} (d : GatherDims s si t) (x : s.Idx → EReal)
    (idx : IVec si w) (hx : ∀ i, IsReal (x i)) :
    ∀ j, IsReal (Host.gather (α := EReal) d x idx j) :=
  fun j => hx (d.operandIdx j idx)

/-- Every element of an accumulating scatter of everywhere real updates into an everywhere real
    array is real. -/
theorem isReal_scatterAdd {φ : FTy} {s si u : Shape} {w : Nat} (d : ScatterDims s si u)
    (x : FVec Ideal s φ) (idx : IVec si w) (upd : FVec Ideal u φ)
    (hx : ∀ i, IsReal (x i)) (hu : ∀ j, IsReal (upd j)) :
    ∀ i, IsReal (Host.scatterAdd (F := Ideal) d x idx upd i) := by
  intro i
  show IsReal (x i + ∑ j ∈ Finset.univ.filter (fun j => d.resultIdx? j idx = some i), upd j)
  exact isReal_add (hx i) (isReal_sum _ _ (fun j _ => hu j))

end Cert.LibERealSage
-- ==== Proof.LibTile.lean ====
/- Sums over a range cut into equal tiles. A sum over `Fin (m * n)` is the sum over the `m` tiles of the sums over the
   `n` places inside a tile, place `p` of tile `t` being `n * t + p`; and an accumulator that starts at zero plus the
   first tile's sum and adds one tile's sum per step ends at the whole sum. Stated over any additive commutative monoid,
   then at the literal sizes 20 tiles of 5000 in 100000. -/
import Mathlib.Algebra.BigOperators.Fin
import Mathlib.Algebra.BigOperators.Intervals
import Mathlib.Logic.Equiv.Fin.Basic

namespace Cert.Hand.LibTile

variable {M : Type*} [AddCommMonoid M]

/-- Place `p` of tile `t` lies inside the range. -/
theorem tile_lt {m n N : ℕ} (h : m * n = N) {t p : ℕ} (ht : t < m) (hp : p < n) : n * t + p < N := by
  subst h
  calc n * t + p < n * t + n := Nat.add_lt_add_left hp _
    _ = n * (t + 1) := (Nat.mul_succ n t).symm
    _ ≤ n * m := Nat.mul_le_mul_left n ht
    _ = m * n := Nat.mul_comm n m

/-- The whole sum is the sum over tiles of the sums inside each tile. -/
theorem sum_tiles {m n N : ℕ} (h : m * n = N) (f : Fin N → M) :
    ∑ t : Fin m, ∑ p : Fin n, f ⟨n * t.val + p.val, tile_lt h t.isLt p.isLt⟩ = ∑ r : Fin N, f r := by
  subst h
  rw [← Fintype.sum_prod_type (f := fun x : Fin m × Fin n => f ⟨n * x.1.val + x.2.val, tile_lt rfl x.1.isLt x.2.isLt⟩),
    ← Equiv.sum_comp finProdFinEquiv f]
  refine Finset.sum_congr rfl fun x _ => congrArg f (Fin.ext ?_)
  show n * x.1.val + x.2.val = x.2.val + n * x.1.val
  exact Nat.add_comm _ _

/-- An accumulator that is zero plus tile 0's sum after the first step and gains tile `k + 1`'s sum at step `k + 1`
    holds, after step `k`, the sum of the tiles up to `k`. -/
theorem acc_eq_sum_range {n : ℕ} (a : ℕ → M) (g : ℕ → Fin n → M) (m : ℕ)
    (h0 : a 0 = 0 + ∑ p : Fin n, g 0 p) (hs : ∀ k, k + 1 < m → a (k + 1) = a k + ∑ p : Fin n, g (k + 1) p) :
    ∀ k, k < m → a k = ∑ t ∈ Finset.range (k + 1), ∑ p : Fin n, g t p
  | 0, _ => by rw [h0, zero_add, Finset.sum_range_one]
  | k + 1, hk => by
    rw [hs k hk, acc_eq_sum_range a g m h0 hs k (Nat.lt_of_succ_lt hk), Finset.sum_range_succ _ (k + 1)]

/-- So after the last of `m` steps it holds the sum over all tiles, -/
theorem acc_last_eq_sum_fin {n : ℕ} (a : ℕ → M) (g : ℕ → Fin n → M) (m : ℕ) (hm : 0 < m)
    (h0 : a 0 = 0 + ∑ p : Fin n, g 0 p) (hs : ∀ k, k + 1 < m → a (k + 1) = a k + ∑ p : Fin n, g (k + 1) p) :
    a (m - 1) = ∑ t : Fin m, ∑ p : Fin n, g t.val p := by
  rw [acc_eq_sum_range a g m h0 hs (m - 1) (Nat.sub_lt hm Nat.one_pos), Nat.sub_add_cancel hm,
    Finset.sum_range fun t => ∑ p : Fin n, g t p]

/-- and when tile `t`'s place `p` is entry `n * t + p` of a function on the whole range, the whole sum of that
    function. -/
theorem acc_last_eq_sum {m n N : ℕ} (h : m * n = N) (hm : 0 < m) (f : Fin N → M) (a : ℕ → M) (g : ℕ → Fin n → M)
    (hg : ∀ (t : ℕ) (ht : t < m) (p : Fin n), g t p = f ⟨n * t + p.val, tile_lt h ht p.isLt⟩)
    (h0 : a 0 = 0 + ∑ p : Fin n, g 0 p) (hs : ∀ k, k + 1 < m → a (k + 1) = a k + ∑ p : Fin n, g (k + 1) p) :
    a (m - 1) = ∑ r : Fin N, f r := by
  rw [acc_last_eq_sum_fin a g m hm h0 hs, ← sum_tiles h f]
  exact Finset.sum_congr rfl fun t _ => Finset.sum_congr rfl fun p _ => hg t.val t.isLt p

/-! ## At 20 tiles of 5000 rows in 100000 -/

/-- Row `p` of block `t` is a row of the array. -/
theorem row_lt {t p : ℕ} (ht : t < 20) (hp : p < 5000) : 5000 * t + p < 100000 := tile_lt (m := 20) (n := 5000) rfl ht hp

/-- The sum over the 100000 rows is the sum over the 20 blocks of the sums over each block's 5000 rows. -/
theorem sum_blocks (f : Fin 100000 → M) :
    ∑ t : Fin 20, ∑ p : Fin 5000, f ⟨5000 * t.val + p.val, row_lt t.isLt p.isLt⟩ = ∑ r : Fin 100000, f r :=
  sum_tiles (m := 20) (n := 5000) rfl f

/-- An accumulator started at zero plus block 0's sum and fed one block's sum per step holds, after the twentieth step,
    the sum over all 100000 rows. -/
theorem acc_blocks (f : Fin 100000 → M) (a : ℕ → M) (g : ℕ → Fin 5000 → M)
    (hg : ∀ (t : ℕ) (ht : t < 20) (p : Fin 5000), g t p = f ⟨5000 * t + p.val, row_lt ht p.isLt⟩)
    (h0 : a 0 = 0 + ∑ p : Fin 5000, g 0 p) (hs : ∀ k, k + 1 < 20 → a (k + 1) = a k + ∑ p : Fin 5000, g (k + 1) p) :
    a 19 = ∑ r : Fin 100000, f r :=
  acc_last_eq_sum (m := 20) (n := 5000) rfl (by decide) f a g hg h0 hs

end Cert.Hand.LibTile
-- ==== Proof.AttnLaws.lean ====
/-
  The laws that join the two spellings of the attention layer. The softmax quotient written as a product with the
  reciprocal of the row's sum equals the quotient by that sum when the sum is not zero; the sum is not zero once every
  score is a real number; every score is a real number once the inputs are. The output projection accumulated head by
  head is the one sum over all columns regrouped.
-/
import proofs.«420301_j24240795419151_3_alg».proof.Proof.AttnArrays
import proofs.«420301_j24240795419151_3_alg».proof.Proof.LibERealSage
import proofs.«420301_j24240795419151_3_alg».proof.Proof.LibTile
import Mathlib.Data.Finset.Fold
import Mathlib.Algebra.Order.BigOperators.Group.Finset
import Mathlib.Data.EReal.Basic
import Mathlib.Data.EReal.Operations
import Mathlib.Data.EReal.Inv
import Mathlib.Analysis.SpecialFunctions.Exp
import Mathlib.Analysis.SpecialFunctions.Sqrt
import Mathlib.Tactic.Positivity

noncomputable section

namespace Cert.Attn

open Idealize.ShloMosaic Idealize.ShloMosaic.ValueIdx Cert.LibERealSage

/-- Every entry of the array is a real number. -/
def RealArr {s : Shape} (a : s.Idx → EReal) : Prop := ∀ i, IsReal (a i)

/-! ### The softmax quotient: product with the reciprocal against quotient -/

/-- Off a zero sum the quotient is the product with the inverse, and so is the product with `1 / sum`. -/
theorem smMul_eq_smDiv (f : Fin 2048 → EReal) (j : Fin 2048) (h : psum f ≠ 0) : smMul f j = smDiv f j := by
  unfold smMul smDiv Ideal.div
  rw [if_neg h, if_neg h, one_mul]

/-! ### A row of real scores has a nonzero sum of exponentials -/

/-- Every entry is at most the row's maximum. -/
theorem le_rowMax (f : Fin 2048 → EReal) (j : Fin 2048) : f j ≤ rowMax f :=
  (Finset.le_fold_max (f j)).mpr (Or.inr ⟨j, Finset.mem_univ j, le_rfl⟩)

/-- The maximum of a row of reals is one of its entries. -/
theorem rowMax_attained (f : Fin 2048 → EReal) (hf : ∀ j, IsReal (f j)) : ∃ k, rowMax f = f k := by
  rcases (Finset.le_fold_max (s := Finset.univ) (f := f) (b := ⊥) (rowMax f)).mp le_rfl with h | ⟨k, _, hk⟩
  · exfalso
    obtain ⟨r, hr⟩ := hf 0
    have h0 : f 0 ≤ ⊥ := (le_rowMax f 0).trans h
    rw [hr] at h0
    exact EReal.coe_ne_bot r (le_bot_iff.mp h0)
  · exact ⟨k, le_antisymm hk (le_rowMax f k)⟩

/-- Each exponential of a row of reals is a nonnegative real. -/
theorem pexp_real (f : Fin 2048 → EReal) (hf : ∀ j, IsReal (f j)) (j : Fin 2048) :
    ∃ r : ℝ, 0 ≤ r ∧ pexp f j = (r : EReal) := by
  obtain ⟨k, hk⟩ := rowMax_attained f hf
  obtain ⟨a, ha⟩ := hf j
  obtain ⟨m, hm⟩ := hf k
  refine ⟨Real.exp (a - m), (Real.exp_pos _).le, ?_⟩
  unfold pexp
  rw [hk, ha, hm, ← EReal.coe_sub]
  exact Ideal.exp_coe _

/-- The entry that attains the maximum contributes `exp 0 = 1`, the others at least zero. -/
theorem psum_ne_zero (f : Fin 2048 → EReal) (hf : ∀ j, IsReal (f j)) : psum f ≠ 0 := by
  obtain ⟨k, hk⟩ := rowMax_attained f hf
  have h1 : pexp f k = 1 := by
    obtain ⟨m, hm⟩ := hf k
    unfold pexp
    rw [hk, hm, ← EReal.coe_sub, sub_self]
    refine (Ideal.exp_coe 0).trans ?_
    rw [Real.exp_zero, EReal.coe_one]
  have hnn : ∀ j ∈ (Finset.univ : Finset (Fin 2048)), 0 ≤ pexp f j := by
    intro j _
    obtain ⟨r, hr, he⟩ := pexp_real f hf j
    rw [he]
    exact EReal.coe_nonneg.mpr hr
  have hle : pexp f k ≤ psum f := Finset.single_le_sum hnn (Finset.mem_univ k)
  intro h0
  rw [h0, h1] at hle
  exact absurd hle (not_le.mpr zero_lt_one)

/-- On a row of real scores the two spellings of the softmax agree. -/
theorem smMul_eq_smDiv_of_real (f : Fin 2048 → EReal) (hf : ∀ j, IsReal (f j)) (j : Fin 2048) :
    smMul f j = smDiv f j :=
  smMul_eq_smDiv f j (psum_ne_zero f hf)

/-! ### The output projection: sixteen heads of 128 lanes against one sum over 2048 columns -/

/-- The head-by-head accumulation as a sequence over all naturals (zero past the last head). -/
def accSeq (o : Fin 16 → Fin 128 → EReal) (wo : Fin 2048 → Fin 2048 → EReal) (n : Fin 2048) (k : ℕ) : EReal :=
  if hk : k < 16 then accHeads o wo n k hk else 0

/-- Lane `p` of head `t`'s product with its row of the output weight (zero past the last head). -/
def headLane (o : Fin 16 → Fin 128 → EReal) (wo : Fin 2048 → Fin 2048 → EReal) (n : Fin 2048) (t : ℕ) (p : Fin 128) :
    EReal :=
  if ht : t < 16 then o ⟨t, ht⟩ p * wo (colQ ⟨t, ht⟩ p) n else 0

/-- Column `x`'s product in the flat sum: head `x / 128`, lane `x % 128`. -/
def flatTerm (o : Fin 16 → Fin 128 → EReal) (wo : Fin 2048 → Fin 2048 → EReal) (n : Fin 2048) (x : Fin 2048) : EReal :=
  o ⟨x.val / 128, by have := x.isLt; omega⟩ ⟨x.val % 128, Nat.mod_lt _ (by decide)⟩ * wo x n

theorem headLane_eq_flatTerm (o : Fin 16 → Fin 128 → EReal) (wo : Fin 2048 → Fin 2048 → EReal) (n : Fin 2048)
    (t : ℕ) (ht : t < 16) (p : Fin 128) :
    headLane o wo n t p
      = flatTerm o wo n ⟨128 * t + p.val, Cert.Hand.LibTile.tile_lt (m := 16) (n := 128) rfl ht p.isLt⟩ := by
  unfold headLane flatTerm
  rw [dif_pos ht]
  have hp := p.isLt
  refine congrArg₂ (· * ·) (congrArg₂ o (Fin.ext ?_) (Fin.ext ?_)) (congrArg (fun x => wo x n) (Fin.ext ?_))
  · show t = (128 * t + p.val) / 128
    omega
  · show p.val = (128 * t + p.val) % 128
    omega
  · show t * 128 + p.val = 128 * t + p.val
    omega

/-- The accumulation over the sixteen heads is the one sum over the 2048 columns, for any head outputs. -/
theorem accHeads_eq_outFlat (o : Fin 16 → Fin 128 → EReal) (wo : Fin 2048 → Fin 2048 → EReal) (n : Fin 2048) :
    accHeads o wo n 15 (by decide) = outFlat o wo n := by
  have key := Cert.Hand.LibTile.acc_last_eq_sum (M := EReal) (m := 16) (n := 128) (N := 2048) rfl (by decide)
    (flatTerm o wo n) (accSeq o wo n) (headLane o wo n) (headLane_eq_flatTerm o wo n)
    (by
      have h16 : (0 : ℕ) < 16 := by decide
      unfold accSeq headLane
      rw [dif_pos h16]
      simp only [dif_pos h16]
      rfl)
    (by
      intro k hk
      have hk' : k < 16 := Nat.lt_of_succ_lt hk
      unfold accSeq headLane
      rw [dif_pos hk, dif_pos hk']
      simp only [dif_pos hk]
      rfl)
  have h15 : accSeq o wo n (16 - 1) = accHeads o wo n 15 (by decide) := by
    unfold accSeq
    exact dif_pos (by decide)
  rw [← h15, key]
  rfl

/-! ### The three words: real numbers, the divisor and the epsilon positive -/

/-- A 32-bit pattern with a clear sign bit and an exponent field that is neither all ones nor zero denotes a
    positive real. -/
theorem ieee32_pos (b : BitVec 32) (hs : (b.extractLsb' (8 + 23) 1 == 1#1) = false)
    (h1 : (b.extractLsb' 23 8).toNat ≠ 2 ^ 8 - 1) (h0 : (b.extractLsb' 23 8).toNat ≠ 0) :
    ∃ r : ℝ, 0 < r ∧ Ideal.ieee 8 23 b = (r : EReal) := by
  unfold Ideal.ieee
  dsimp only
  rw [if_neg h1, if_neg h0, hs]
  refine ⟨_, ?_, rfl⟩
  simp only [Bool.false_eq_true, if_false]
  positivity

/-- The mean's divisor is a positive real. -/
theorem c128_pos : ∃ r : ℝ, 0 < r ∧ c128 = (r : EReal) := by
  show ∃ r : ℝ, 0 < r ∧ Ideal.ieee 8 23 (0x43000000#32 : BitVec 32) = (r : EReal)
  exact ieee32_pos 0x43000000#32 (by decide) (by decide) (by decide)

/-- The epsilon is a positive real. -/
theorem eps_pos : ∃ r : ℝ, 0 < r ∧ eps = (r : EReal) := by
  show ∃ r : ℝ, 0 < r ∧ Ideal.ieee 8 23 (0x358637BD#32 : BitVec 32) = (r : EReal)
  exact ieee32_pos 0x358637BD#32 (by decide) (by decide) (by decide)

/-- The score scale is a real. -/
theorem isReal_scl : IsReal scl := by
  obtain ⟨r, _, hr⟩ : ∃ r : ℝ, 0 < r ∧ Ideal.ieee 8 23 (0x3DB504F3#32 : BitVec 32) = (r : EReal) :=
    ieee32_pos 0x3DB504F3#32 (by decide) (by decide) (by decide)
  exact ⟨r, hr⟩

/-! ### Real inputs give real queries, keys and scores -/

/-- The reciprocal root of a positive real is a real. -/
theorem isReal_rsqrt_pos {t : ℝ} (ht : 0 < t) : IsReal (Ideal.rsqrt (t : EReal)) := by
  rw [Ideal.rsqrt_coe, if_neg (not_lt.mpr ht.le), if_neg ht.ne']
  exact ⟨_, rfl⟩

/-- A projection of real rows against real columns is real: a finite sum of products. -/
theorem isReal_proj {N : Nat} (hs : Fin 2 → Fin 2048 → Fin 2048 → EReal) (w : Fin 2048 → Fin N → EReal)
    (hhs : ∀ b s j, IsReal (hs b s j)) (hw : ∀ j n, IsReal (w j n)) (b : Fin 2) (s : Fin 2048) (n : Fin N) :
    IsReal (proj hs w b s n) :=
  isReal_sum_univ _ (fun j => isReal_mul (hhs b s j) (hw j n))

/-- The normalised row is real: the mean square is a nonnegative real, the epsilon a positive one, so the
    reciprocal root is taken of a positive real. -/
theorem isReal_rms (x w : Fin 128 → EReal) (hx : ∀ e, IsReal (x e)) (hw : ∀ e, IsReal (w e)) (d : Fin 128) :
    IsReal (rms x w d) := by
  have hS0 : 0 ≤ ∑ e : Fin 128, x e * x e := Finset.sum_nonneg (fun e _ => by
    obtain ⟨r, hr⟩ := hx e
    rw [hr, ← EReal.coe_mul]
    exact EReal.coe_nonneg.mpr (mul_self_nonneg r))
  obtain ⟨s, hs⟩ : IsReal (∑ e : Fin 128, x e * x e) := isReal_sum_univ _ (fun e => isReal_mul (hx e) (hx e))
  obtain ⟨c, hc, hce⟩ := c128_pos
  obtain ⟨e, he, hee⟩ := eps_pos
  have hs0 : 0 ≤ s := by rw [hs] at hS0; exact EReal.coe_nonneg.mp hS0
  have hr : IsReal (Ideal.rsqrt (Ideal.div (∑ e : Fin 128, x e * x e) c128 + eps)) := by
    rw [hs, hce, hee, Ideal.div_coe hc.ne', ← EReal.coe_mul, ← EReal.coe_add]
    exact isReal_rsqrt_pos (add_pos_of_nonneg_of_pos (mul_nonneg hs0 (one_div_pos.mpr hc).le) he)
  unfold rms
  exact isReal_mul (isReal_mul (hx d) hr) (hw d)

/-- The rotation partner of a real row is real: an entry or its negation. -/
theorem isReal_rot (y : Fin 128 → EReal) (hy : ∀ e, IsReal (y e)) (d : Fin 128) : IsReal (rot y d) := by
  unfold rot
  split
  · exact isReal_neg (hy _)
  · exact hy _

/-- The rotary embedding of a real row by real tables is real. -/
theorem isReal_rope (y c s : Fin 128 → EReal) (hy : ∀ e, IsReal (y e)) (hc : ∀ e, IsReal (c e))
    (hs : ∀ e, IsReal (s e)) (d : Fin 128) : IsReal (rope y c s d) := by
  unfold rope
  exact isReal_add (isReal_mul (hy d) (hc d)) (isReal_mul (isReal_rot y hy d) (hs d))

/-- Every query entry is real. -/
theorem isReal_qFlat (hs : Fin 2 → Fin 2048 → Fin 2048 → EReal) (wq : Fin 2048 → Fin 2048 → EReal)
    (qn : Fin 128 → EReal) (cs sn : Fin 2 → Fin 2048 → Fin 128 → EReal)
    (hhs : ∀ b s j, IsReal (hs b s j)) (hwq : ∀ j n, IsReal (wq j n)) (hqn : ∀ e, IsReal (qn e))
    (hcs : ∀ b s e, IsReal (cs b s e)) (hsn : ∀ b s e, IsReal (sn b s e)) (b : Fin 2) (s : Fin 2048) (n : Fin 2048) :
    IsReal (qFlat hs wq qn cs sn b s n) := by
  unfold qFlat
  exact isReal_rope _ _ _ (fun e => isReal_rms _ _ (fun e' => isReal_proj hs wq hhs hwq b s _) hqn e)
    (hcs b s) (hsn b s) _

/-- Every key entry is real. -/
theorem isReal_kFlat (hs : Fin 2 → Fin 2048 → Fin 2048 → EReal) (wk : Fin 2048 → Fin 1024 → EReal)
    (kn : Fin 128 → EReal) (cs sn : Fin 2 → Fin 2048 → Fin 128 → EReal)
    (hhs : ∀ b s j, IsReal (hs b s j)) (hwk : ∀ j n, IsReal (wk j n)) (hkn : ∀ e, IsReal (kn e))
    (hcs : ∀ b s e, IsReal (cs b s e)) (hsn : ∀ b s e, IsReal (sn b s e)) (b : Fin 2) (s : Fin 2048) (n : Fin 1024) :
    IsReal (kFlat hs wk kn cs sn b s n) := by
  unfold kFlat
  exact isReal_rope _ _ _ (fun e => isReal_rms _ _ (fun e' => isReal_proj hs wk hhs hwk b s _) hkn e)
    (hcs b s) (hsn b s) _

/-- Every score is real: a finite sum of products of reals, times the scale, plus a real. -/
theorem isReal_score (q : Fin 2 → Fin 2048 → Fin 2048 → EReal) (k : Fin 2 → Fin 2048 → Fin 1024 → EReal)
    (mask : Fin 2 → Fin 2048 → Fin 2048 → EReal) (hq : ∀ b s n, IsReal (q b s n)) (hk : ∀ b s n, IsReal (k b s n))
    (hm : ∀ b s j, IsReal (mask b s j)) (b : Fin 2) (h : Fin 16) (s j : Fin 2048) :
    IsReal (score q k mask b h s j) := by
  unfold score
  exact isReal_add (isReal_mul (isReal_sum_univ _ (fun d => isReal_mul (hq b s _) (hk b j _))) isReal_scl) (hm b s j)

/-- Over real queries, keys and mask the two spellings of the attention weights are one function. -/
theorem awMul_eq_awDiv (q : Fin 2 → Fin 2048 → Fin 2048 → EReal) (k : Fin 2 → Fin 2048 → Fin 1024 → EReal)
    (mask : Fin 2 → Fin 2048 → Fin 2048 → EReal) (hq : ∀ b s n, IsReal (q b s n)) (hk : ∀ b s n, IsReal (k b s n))
    (hm : ∀ b s j, IsReal (mask b s j)) : awMul q k mask = awDiv q k mask := by
  funext b h s j
  exact smMul_eq_smDiv_of_real _ (fun j' => isReal_score q k mask hq hk hm b h s j') j

/-! ### The same over arrays -/

/-- The query array of real arguments is real. -/
theorem real_qArr (hs : (⟨3, ![2, 2048, 2048]⟩ : Shape).Idx → EReal) (wq : (⟨2, ![2048, 2048]⟩ : Shape).Idx → EReal)
    (cs sn : (⟨3, ![2, 2048, 128]⟩ : Shape).Idx → EReal) (qn : (⟨1, ![128]⟩ : Shape).Idx → EReal)
    (hhs : RealArr hs) (hwq : RealArr wq) (hcs : RealArr cs) (hsn : RealArr sn) (hqn : RealArr qn) :
    RealArr (qArr hs wq cs sn qn) := fun i => by
  show IsReal (qFlat (c3 hs) (c2 wq) (c1 qn) (c3 cs) (c3 sn) (i 0) (i 1) (i 2))
  exact isReal_qFlat _ _ _ _ _ (fun b s j => hhs _) (fun j n => hwq _) (fun e => hqn _) (fun b s e => hcs _)
    (fun b s e => hsn _) _ _ _

/-- The key array of real arguments is real. -/
theorem real_kArr (hs : (⟨3, ![2, 2048, 2048]⟩ : Shape).Idx → EReal) (wk : (⟨2, ![2048, 1024]⟩ : Shape).Idx → EReal)
    (cs sn : (⟨3, ![2, 2048, 128]⟩ : Shape).Idx → EReal) (kn : (⟨1, ![128]⟩ : Shape).Idx → EReal)
    (hhs : RealArr hs) (hwk : RealArr wk) (hcs : RealArr cs) (hsn : RealArr sn) (hkn : RealArr kn) :
    RealArr (kArr hs wk cs sn kn) := fun i => by
  show IsReal (kFlat (c3 hs) (c2 wk) (c1 kn) (c3 cs) (c3 sn) (i 0) (i 1) (i 2))
  exact isReal_kFlat _ _ _ _ _ (fun b s j => hhs _) (fun j n => hwk _) (fun e => hkn _) (fun b s e => hcs _)
    (fun b s e => hsn _) _ _ _

/-- Over real query, key and mask arrays the two spellings of the weights are one function of coordinates. -/
theorem awMul_eq_awDiv_arr (q : (⟨3, ![2, 2048, 2048]⟩ : Shape).Idx → EReal)
    (k : (⟨3, ![2, 2048, 1024]⟩ : Shape).Idx → EReal) (mask : (⟨4, ![2, 1, 2048, 2048]⟩ : Shape).Idx → EReal)
    (hq : RealArr q) (hk : RealArr k) (hm : RealArr mask) :
    awMul (c3 q) (c3 k) (cMask mask) = awDiv (c3 q) (c3 k) (cMask mask) :=
  awMul_eq_awDiv _ _ _ (fun b s n => hq _) (fun b s n => hk _) (fun b s j => hm _)

/-! ### The two exported laws -/

theorem aw_eq (hs : (⟨3, ![2, 2048, 2048]⟩ : Shape).Idx → EReal) (wq : (⟨2, ![2048, 2048]⟩ : Shape).Idx → EReal)
    (wk : (⟨2, ![2048, 1024]⟩ : Shape).Idx → EReal) (cs sn : (⟨3, ![2, 2048, 128]⟩ : Shape).Idx → EReal)
    (mask : (⟨4, ![2, 1, 2048, 2048]⟩ : Shape).Idx → EReal) (qn kn : (⟨1, ![128]⟩ : Shape).Idx → EReal)
    (hhs : RealArr hs) (hwq : RealArr wq) (hwk : RealArr wk) (hcs : RealArr cs) (hsn : RealArr sn)
    (hmask : RealArr mask) (hqn : RealArr qn) (hkn : RealArr kn) :
    awMulArr (qArr hs wq cs sn qn) (kArr hs wk cs sn kn) mask
      = awDivArr (qArr hs wq cs sn qn) (kArr hs wk cs sn kn) mask := by
  funext i
  unfold awMulArr awDivArr
  rw [awMul_eq_awDiv_arr _ _ _ (real_qArr hs wq cs sn qn hhs hwq hcs hsn hqn)
    (real_kArr hs wk cs sn kn hhs hwk hcs hsn hkn) hmask]

theorem out_eq (hs : (⟨3, ![2, 2048, 2048]⟩ : Shape).Idx → EReal) (wq : (⟨2, ![2048, 2048]⟩ : Shape).Idx → EReal)
    (wk wv : (⟨2, ![2048, 1024]⟩ : Shape).Idx → EReal) (wo : (⟨2, ![2048, 2048]⟩ : Shape).Idx → EReal)
    (cs sn : (⟨3, ![2, 2048, 128]⟩ : Shape).Idx → EReal)
    (mask : (⟨4, ![2, 1, 2048, 2048]⟩ : Shape).Idx → EReal) (qn kn : (⟨1, ![128]⟩ : Shape).Idx → EReal)
    (hhs : RealArr hs) (hwq : RealArr wq) (hwk : RealArr wk) (hcs : RealArr cs) (hsn : RealArr sn)
    (hmask : RealArr mask) (hqn : RealArr qn) (hkn : RealArr kn) :
    outAccArr (qArr hs wq cs sn qn) (kArr hs wk cs sn kn) (vArr hs wv) mask wo
      = outSumArr (qArr hs wq cs sn qn) (kArr hs wk cs sn kn) (vArr hs wv) mask wo := by
  funext i
  unfold outAccArr outSumArr outAcc outSum
  refine (accHeads_eq_outFlat _ _ _).trans ?_
  rw [awMul_eq_awDiv_arr _ _ _ (real_qArr hs wq cs sn qn hhs hwq hcs hsn hqn)
    (real_kArr hs wk cs sn kn hhs hwk hcs hsn hkn) hmask]

end Cert.Attn

end
-- ==== Proof.AttnJoin.lean ====
import proofs.«420301_j24240795419151_3_alg».proof.Proof.AttnRun
import proofs.«420301_j24240795419151_3_alg».proof.Proof.ProjVal
import proofs.«420301_j24240795419151_3_alg».proof.Proof.AttnVal
import proofs.«420301_j24240795419151_3_alg».proof.Proof.AttnValW
import proofs.«420301_j24240795419151_3_alg».proof.Proof.AttnLaws
import Idealize.ShloMosaic.Lib.StableHlo.Run

/-!
# The idealized kernel's two results as functions of the launch memory

On the extended reals the four casts of the weights change nothing, so the projection region is entered with the
argument arrays themselves; it leaves the query, key and value arrays of the specification; the attention region,
entered with those, leaves the attention weights in the product spelling and the output accumulated head by head.
Under the precondition every argument entry is a real number, and then these are the quotient spelling and the one
sum.
-/

noncomputable section

namespace Cert.KernelIdeal.Join

open Cert.KernelIdeal Cert.KernelIdeal.Gen Cert.KernelIdeal.Run Cert.Attn
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What the projection region is entered with -/

/-- An argument array is untouched by the casts. -/
theorem V1_arg (c : Dev nD) (b : Ref sig .tc) (hb : b ∉ ([main_v0, main_v1, main_v2, main_v3] : List (Ref sig .tc))) :
    V1 m ρ c b = m ((c.tc : Thread nD τ).loc b) :=
  (W1_keeps m ρ c b hb).trans rfl

/-- The cast query weight is the query weight: a change of float format is the identity on the extended reals. -/
theorem V1_v0 (c : Dev nD) : (V1 m ρ c main_v0 : S2048x2048.Idx → EReal) = (m ((c.tc : Thread nD τ).loc main_arg4)) := by
  show StableHlo.after hostOps0 (W0 m ρ c) (Proc.devRef .tc main_v0) = _
  after_results; rfl
theorem V1_v1 (c : Dev nD) : (V1 m ρ c main_v1 : S2048x1024.Idx → EReal) = (m ((c.tc : Thread nD τ).loc main_arg5)) := by
  show StableHlo.after hostOps0 (W0 m ρ c) (Proc.devRef .tc main_v1) = _
  after_results; rfl
theorem V1_v2 (c : Dev nD) : (V1 m ρ c main_v2 : S2048x1024.Idx → EReal) = (m ((c.tc : Thread nD τ).loc main_arg6)) := by
  show StableHlo.after hostOps0 (W0 m ρ c) (Proc.devRef .tc main_v2) = _
  after_results; rfl
theorem V1_v3 (c : Dev nD) : (V1 m ρ c main_v3 : S2048x2048.Idx → EReal) = (m ((c.tc : Thread nD τ).loc main_arg7)) := by
  show StableHlo.after hostOps0 (W0 m ρ c) (Proc.devRef .tc main_v3) = _
  after_results; rfl

/-! ## What the attention region is entered with -/

/-- The query array after the projection region. -/
theorem V2_q (c : Dev nD) : (V2 m ρ c main_v4_0 : S2x2048x2048.Idx → EReal)
    = qArr (m ((c.tc : Thread nD τ).loc main_arg0)) (m ((c.tc : Thread nD τ).loc main_arg4)) (m ((c.tc : Thread nD τ).loc main_arg1)) (m ((c.tc : Thread nD τ).loc main_arg2)) (m ((c.tc : Thread nD τ).loc main_arg8)) := by
  refine ((W2_arr m ρ c 8).trans (ProjVal.arr8 (V1 m ρ) c)).trans ?_
  rw [V1_arg m ρ c main_arg0 (by decide), V1_arg m ρ c main_arg1 (by decide), V1_arg m ρ c main_arg2 (by decide),
    V1_arg m ρ c main_arg8 (by decide), V1_v0 m ρ c]
/-- The key array after the projection region. -/
theorem V2_k (c : Dev nD) : (V2 m ρ c main_v4_1 : S2x2048x1024.Idx → EReal)
    = kArr (m ((c.tc : Thread nD τ).loc main_arg0)) (m ((c.tc : Thread nD τ).loc main_arg5)) (m ((c.tc : Thread nD τ).loc main_arg1)) (m ((c.tc : Thread nD τ).loc main_arg2)) (m ((c.tc : Thread nD τ).loc main_arg9)) := by
  refine ((W2_arr m ρ c 9).trans (ProjVal.arr9 (V1 m ρ) c)).trans ?_
  rw [V1_arg m ρ c main_arg0 (by decide), V1_arg m ρ c main_arg1 (by decide), V1_arg m ρ c main_arg2 (by decide),
    V1_arg m ρ c main_arg9 (by decide), V1_v1 m ρ c]
/-- The value array after the projection region. -/
theorem V2_v (c : Dev nD) : (V2 m ρ c main_v4_2 : S2x2048x1024.Idx → EReal) = vArr (m ((c.tc : Thread nD τ).loc main_arg0)) (m ((c.tc : Thread nD τ).loc main_arg6)) := by
  refine ((W2_arr m ρ c 10).trans (ProjVal.arr10 (V1 m ρ) c)).trans ?_
  rw [V1_arg m ρ c main_arg0 (by decide), V1_v2 m ρ c]
/-- The mask is an argument no earlier stretch writes. -/
theorem V2_mask (c : Dev nD) : V2 m ρ c main_arg3 = (m ((c.tc : Thread nD τ).loc main_arg3)) :=
  (W2_keeps m ρ c main_arg3 (by decide) (by decide)).trans (V1_arg m ρ c main_arg3 (by decide))
/-- The cast output weight passes the projection region untouched. -/
theorem V2_wo (c : Dev nD) : (V2 m ρ c main_v3 : S2048x2048.Idx → EReal) = (m ((c.tc : Thread nD τ).loc main_arg7)) :=
  (W2_keeps m ρ c main_v3 (by decide) (by decide)).trans (V1_v3 m ρ c)

/-! ## The two results -/

/-- The attention weights the kernel leaves, in the product spelling. -/
theorem aw_mul (c : Dev nD) : ((AttnR.dat1 (V2 m ρ) c).arrAt 5 cfg1.N : S2x16x2048x2048.Idx → EReal)
    = awMulArr (qArr (m ((c.tc : Thread nD τ).loc main_arg0)) (m ((c.tc : Thread nD τ).loc main_arg4)) (m ((c.tc : Thread nD τ).loc main_arg1)) (m ((c.tc : Thread nD τ).loc main_arg2)) (m ((c.tc : Thread nD τ).loc main_arg8))) (kArr (m ((c.tc : Thread nD τ).loc main_arg0)) (m ((c.tc : Thread nD τ).loc main_arg5)) (m ((c.tc : Thread nD τ).loc main_arg1)) (m ((c.tc : Thread nD τ).loc main_arg2)) (m ((c.tc : Thread nD τ).loc main_arg9))) (m ((c.tc : Thread nD τ).loc main_arg3)) := by
  rw [AttnValW.arr5 (V2 m ρ) c, V2_q m ρ c, V2_k m ρ c, V2_mask m ρ c]
/-- The output the kernel leaves, accumulated head by head. -/
theorem out_acc (c : Dev nD) : ((AttnR.dat1 (V2 m ρ) c).arrAt 6 cfg1.N : S2x2048x2048.Idx → EReal)
    = outAccArr (qArr (m ((c.tc : Thread nD τ).loc main_arg0)) (m ((c.tc : Thread nD τ).loc main_arg4)) (m ((c.tc : Thread nD τ).loc main_arg1)) (m ((c.tc : Thread nD τ).loc main_arg2)) (m ((c.tc : Thread nD τ).loc main_arg8))) (kArr (m ((c.tc : Thread nD τ).loc main_arg0)) (m ((c.tc : Thread nD τ).loc main_arg5)) (m ((c.tc : Thread nD τ).loc main_arg1)) (m ((c.tc : Thread nD τ).loc main_arg2)) (m ((c.tc : Thread nD τ).loc main_arg9)))
        (vArr (m ((c.tc : Thread nD τ).loc main_arg0)) (m ((c.tc : Thread nD τ).loc main_arg6))) (m ((c.tc : Thread nD τ).loc main_arg3)) (m ((c.tc : Thread nD τ).loc main_arg7)) := by
  rw [AttnVal.arr6 (V2 m ρ) c, V2_q m ρ c, V2_k m ρ c, V2_v m ρ c, V2_mask m ρ c, V2_wo m ρ c]

end Cert.KernelIdeal.Join

end
-- ==== Proof.RefQKV.lean ====
/-
  The reference's queries, keys and values on the extended reals: its projections, per-head root-mean-square
  normalisation, rotary embedding and grouped-query repeat, read at an index (batch, head, position, lane), are the
  query, key and value arrays of the layer's specification at (batch, position, head * 128 + lane), a key or value
  head being the group head / 2.
-/
import proofs.«420301_j24240795419151_3_alg».proof.Proof.Gen.ReferenceIdeal.Read
import proofs.«420301_j24240795419151_3_alg».proof.Proof.AttnArrays
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.Attn Idealize.ShloMosaic Idealize.ShloMosaic.ValueIdx

variable (x0 : (⟨S2x2048x2048, .f32⟩ : BufTy).Contents (Elt Ideal))
  (x1 x2 : (⟨S2x2048x128, .f32⟩ : BufTy).Contents (Elt Ideal))
  (x4 : (⟨S2048x2048, .f32⟩ : BufTy).Contents (Elt Ideal))
  (x5 x6 : (⟨S2048x1024, .f32⟩ : BufTy).Contents (Elt Ideal))
  (x8 x9 : (⟨S128, .f32⟩ : BufTy).Contents (Elt Ideal))

/-- Flat column `g * 128 + d` splits back into group and lane. -/
theorem colK_div (g : Fin 8) (d : Fin 128) : (colK g d).val / 128 = g.val := by
  have := g.isLt; have := d.isLt; show (g.val * 128 + d.val) / 128 = g.val; omega
theorem colK_mod (g : Fin 8) (d : Fin 128) : (colK g d).val % 128 = d.val := by
  have := g.isLt; have := d.isLt; show (g.val * 128 + d.val) % 128 = d.val; omega
theorem colQ_div (h : Fin 16) (d : Fin 128) : (colQ h d).val / 128 = h.val := by
  have := h.isLt; have := d.isLt; show (h.val * 128 + d.val) / 128 = h.val; omega
theorem colQ_mod (h : Fin 16) (d : Fin 128) : (colQ h d).val % 128 = d.val := by
  have := h.isLt; have := d.isLt; show (h.val * 128 + d.val) % 128 = d.val; omega

/-! ### The values -/

/-- The repeat's reshape: head `h` of sixteen is group `h / 2`, copy `h % 2`. -/
theorem e58 (b : Fin 2) (h : Fin 16) (s : Fin 2048) (d : Fin 128) :
    idx_main_v58 (ix4 b h s d) = ix5 b (kvOf h) (⟨h.val % 2, Nat.mod_lt _ (by decide)⟩ : Fin 2) s d :=
  funext fun a => Fin.ext (by
    have := b.isLt; have := h.isLt; have := s.isLt; have := d.isLt
    match a with
    | ⟨0, _⟩ => show (((b.val * 16 + h.val) * 2048 + s.val) * 128 + d.val) / 4194304 = b.val; omega
    | ⟨1, _⟩ => show (((b.val * 16 + h.val) * 2048 + s.val) * 128 + d.val) / 524288 % 8 = h.val / 2; omega
    | ⟨2, _⟩ => show (((b.val * 16 + h.val) * 2048 + s.val) * 128 + d.val) / 262144 % 2 = h.val % 2; omega
    | ⟨3, _⟩ => show (((b.val * 16 + h.val) * 2048 + s.val) * 128 + d.val) / 128 % 2048 = s.val; omega
    | ⟨4, _⟩ => show (((b.val * 16 + h.val) * 2048 + s.val) * 128 + d.val) % 128 = d.val; omega)

theorem e57 (b : Fin 2) (g : Fin 8) (r : Fin 2) (s : Fin 2048) (d : Fin 128) :
    idx_main_v57 (ix5 b g r s d) = ix4 b g s d :=
  funext fun a => Fin.ext (by match a with | ⟨0, _⟩ => rfl | ⟨1, _⟩ => rfl | ⟨2, _⟩ => rfl | ⟨3, _⟩ => rfl)

theorem e34 (b : Fin 2) (g : Fin 8) (s : Fin 2048) (d : Fin 128) :
    idx_main_v34 (ix4 b g s d) = ix4 b s g d :=
  funext fun a => Fin.ext (by match a with | ⟨0, _⟩ => rfl | ⟨1, _⟩ => rfl | ⟨2, _⟩ => rfl | ⟨3, _⟩ => rfl)

theorem e5 (b : Fin 2) (s : Fin 2048) (g : Fin 8) (d : Fin 128) :
    idx_main_v5 (ix4 b s g d) = ix3 b s (colK g d) :=
  funext fun a => Fin.ext (by
    have := b.isLt; have := g.isLt; have := s.isLt; have := d.isLt
    match a with
    | ⟨0, _⟩ => show (((b.val * 2048 + s.val) * 8 + g.val) * 128 + d.val) / 2097152 = b.val; omega
    | ⟨1, _⟩ => show (((b.val * 2048 + s.val) * 8 + g.val) * 128 + d.val) / 1024 % 2048 = s.val; omega
    | ⟨2, _⟩ => show (((b.val * 2048 + s.val) * 8 + g.val) * 128 + d.val) % 1024 = g.val * 128 + d.val; omega)

theorem l4 (b : Fin 2) (s : Fin 2048) (n : Fin 1024) (k : Fin 2048) :
    lidx_main_v4 (ix3 b s n) k = ix3 b s k :=
  funext fun a => Fin.ext (by match a with | ⟨0, _⟩ => rfl | ⟨1, _⟩ => rfl | ⟨2, _⟩ => rfl)
theorem r4 (b : Fin 2) (s : Fin 2048) (n : Fin 1024) (k : Fin 2048) :
    ridx_main_v4 (ix3 b s n) k = ix2 k n :=
  funext fun a => Fin.ext (by match a with | ⟨0, _⟩ => rfl | ⟨1, _⟩ => rfl)

theorem v_stage (b : Fin 2) (h : Fin 16) (s : Fin 2048) (d : Fin 128) :
    val_main_v58 (F := Ideal) x0 x6 (ix4 b h s d) = vArr x0 x6 (ix3 b s (colK (kvOf h) d)) := by
  rw [val_main_v58_apply, e58, val_main_v57_apply, e57, val_main_v34_apply, e34, val_main_v5_apply, e5, val_main_v4_apply]
  simp only [l4, r4]
  rfl

/-! ### The queries -/

theorem e1 (b : Fin 2) (s : Fin 2048) (h : Fin 16) (d : Fin 128) :
    idx_main_v1 (ix4 b s h d) = ix3 b s (colQ h d) :=
  funext fun a => Fin.ext (by
    have := b.isLt; have := h.isLt; have := s.isLt; have := d.isLt
    match a with
    | ⟨0, _⟩ => show (((b.val * 2048 + s.val) * 16 + h.val) * 128 + d.val) / 4194304 = b.val; omega
    | ⟨1, _⟩ => show (((b.val * 2048 + s.val) * 16 + h.val) * 128 + d.val) / 2048 % 2048 = s.val; omega
    | ⟨2, _⟩ => show (((b.val * 2048 + s.val) * 16 + h.val) * 128 + d.val) % 2048 = h.val * 128 + d.val; omega)

theorem l0 (b : Fin 2) (s : Fin 2048) (n : Fin 2048) (k : Fin 2048) :
    lidx_main_v0 (ix3 b s n) k = ix3 b s k :=
  funext fun a => Fin.ext (by match a with | ⟨0, _⟩ => rfl | ⟨1, _⟩ => rfl | ⟨2, _⟩ => rfl)
theorem r0 (b : Fin 2) (s : Fin 2048) (n : Fin 2048) (k : Fin 2048) :
    ridx_main_v0 (ix3 b s n) k = ix2 k n :=
  funext fun a => Fin.ext (by match a with | ⟨0, _⟩ => rfl | ⟨1, _⟩ => rfl)

/-- The query projection split into heads. -/
theorem q1 (b : Fin 2) (s : Fin 2048) (h : Fin 16) (d : Fin 128) :
    val_main_v1 (F := Ideal) x0 x4 (ix4 b s h d) = proj (c3 x0) (c2 x4) b s (colQ h d) := by
  rw [val_main_v1_apply, e1, val_main_v0_apply]
  simp only [l0, r0]
  rfl

theorem e14 (b : Fin 2) (s : Fin 2048) (h : Fin 16) (d : Fin 128) :
    idx_main_v14 (ix4 b s h d) = ix4 b s h (0 : Fin 1) :=
  funext fun a => Fin.ext (by match a with | ⟨0, _⟩ => rfl | ⟨1, _⟩ => rfl | ⟨2, _⟩ => rfl | ⟨3, _⟩ => rfl)
theorem e8 (b : Fin 2) (s : Fin 2048) (h : Fin 16) (z : Fin 1) :
    idx_main_v8 (ix4 b s h z) = ix3 b s h :=
  funext fun a => Fin.ext (by match a with | ⟨0, _⟩ => rfl | ⟨1, _⟩ => rfl | ⟨2, _⟩ => rfl)
theorem e7 (b : Fin 2) (s : Fin 2048) (h : Fin 16) (k : Fin 128) :
    idx_main_v7 (ix3 b s h) k = ix4 b s h k :=
  funext fun a => Fin.ext (by match a with | ⟨0, _⟩ => rfl | ⟨1, _⟩ => rfl | ⟨2, _⟩ => rfl | ⟨3, _⟩ => rfl)
theorem e17 (b : Fin 2) (s : Fin 2048) (h : Fin 16) (d : Fin 128) :
    idx_main_v17 (ix4 b s h d) = ix4 (0 : Fin 1) (0 : Fin 1) (0 : Fin 1) d :=
  funext fun a => Fin.ext (by match a with | ⟨0, _⟩ => rfl | ⟨1, _⟩ => rfl | ⟨2, _⟩ => rfl | ⟨3, _⟩ => rfl)
theorem e16 (z0 z1 z2 : Fin 1) (d : Fin 128) :
    idx_main_v16 (ix4 z0 z1 z2 d) = ix1 d :=
  funext fun a => Fin.ext (by match a with | ⟨0, _⟩ => rfl)

/-- The normalised, weighted query head before the transpose. -/
theorem q18 (b : Fin 2) (s : Fin 2048) (h : Fin 16) (d : Fin 128) :
    val_main_v18 (F := Ideal) x0 x4 x8 (ix4 b s h d)
      = rms (fun e => proj (c3 x0) (c2 x4) b s (colQ h e)) (c1 x8) d := by
  rw [val_main_v18_apply, val_main_v15_apply, val_main_v14_apply, e14, val_main_v13_apply, val_main_v12_apply,
    val_main_v10_apply, val_main_v8_apply, e8, val_main_v7_apply, val_main_v9_apply, val_main_v11_apply,
    val_main_v17_apply, e17, val_main_v16_apply, e16, val_main_cst_apply, val_main_cst_0_apply, val_main_cst_1_apply]
  simp only [e7, val_main_v6_apply, q1, Ideal.mulf_def, Ideal.addf_def, Ideal.hostDivf_def, Ideal.hostUnary_rsqrt_def,
    Ideal.ofBits_def, Ideal.ofBits_zero_f32, zero_add]
  rfl

theorem e19 (b : Fin 2) (h : Fin 16) (s : Fin 2048) (d : Fin 128) :
    idx_main_v19 (ix4 b h s d) = ix4 b s h d :=
  funext fun a => Fin.ext (by match a with | ⟨0, _⟩ => rfl | ⟨1, _⟩ => rfl | ⟨2, _⟩ => rfl | ⟨3, _⟩ => rfl)

/-- The normalised, weighted query head after the transpose to (batch, head, position, lane). -/
theorem q19 (b : Fin 2) (h : Fin 16) (s : Fin 2048) (d : Fin 128) :
    val_main_v19 (F := Ideal) x0 x4 x8 (ix4 b h s d)
      = rms (fun e => proj (c3 x0) (c2 x4) b s (colQ h e)) (c1 x8) d := by
  rw [val_main_v19_apply, e19, q18]

theorem e39 (b : Fin 2) (h : Fin 16) (s : Fin 2048) (e : Fin 64) :
    idx_main_v39 (ix4 b h s e) = ix4 b h s (⟨e.val, by have := e.isLt; omega⟩ : Fin 128) :=
  funext fun a => Fin.ext (by match a with | ⟨0, _⟩ => rfl | ⟨1, _⟩ => rfl | ⟨2, _⟩ => rfl | ⟨3, _⟩ => rfl)
theorem e40 (b : Fin 2) (h : Fin 16) (s : Fin 2048) (e : Fin 64) :
    idx_main_v40 (ix4 b h s e) = ix4 b h s (⟨e.val + 64, by have := e.isLt; omega⟩ : Fin 128) :=
  funext fun a => Fin.ext (by
    match a with
    | ⟨0, _⟩ => rfl
    | ⟨1, _⟩ => rfl
    | ⟨2, _⟩ => rfl
    | ⟨3, _⟩ => show 64 + e.val = e.val + 64; omega)

/-- The joined halves are the rotation partner: the lower 64 lanes are minus the upper half, the upper 64 the lower. -/
theorem q42 (b : Fin 2) (h : Fin 16) (s : Fin 2048) (d : Fin 128) :
    val_main_v42 (F := Ideal) x0 x4 x8 (ix4 b h s d)
      = rot (fun e => val_main_v19 (F := Ideal) x0 x4 x8 (ix4 b h s e)) d := by
  unfold val_main_v42 rot
  by_cases hd : d.val < 64
  · rw [dif_pos hd]
    refine (concatenate_pair_apply_left 3 _ _ concatenates_S2x16x2048x64_S2x16x2048x64_S2x16x2048x128_d3
      (ix4 b h s d) rfl (ix4 b h s (⟨d.val, hd⟩ : Fin 64)) (fun a => by
        match a with | ⟨0, _⟩ => rfl | ⟨1, _⟩ => rfl | ⟨2, _⟩ => rfl | ⟨3, _⟩ => rfl)).trans ?_
    rw [val_main_v41_apply, val_main_v40_apply, e40]
    rfl
  · rw [dif_neg hd]
    have hd' : d.val - 64 < 64 := by have := d.isLt; omega
    refine (concatenate_pair_apply_right 3 _ _ concatenates_S2x16x2048x64_S2x16x2048x64_S2x16x2048x128_d3
      (ix4 b h s d) rfl rfl (ix4 b h s (⟨d.val - 64, hd'⟩ : Fin 64)) (fun a ha => by
        match a with | ⟨0, _⟩ => rfl | ⟨1, _⟩ => rfl | ⟨2, _⟩ => rfl | ⟨3, _⟩ => exact absurd rfl ha) ?_).trans ?_
    · show d.val - 64 + 64 = d.val; omega
    · rw [val_main_v39_apply, e39]

theorem e37 (b : Fin 2) (h : Fin 16) (s : Fin 2048) (d : Fin 128) :
    idx_main_v37 (ix4 b h s d) = ix4 b (0 : Fin 1) s d :=
  funext fun a => Fin.ext (by match a with | ⟨0, _⟩ => rfl | ⟨1, _⟩ => rfl | ⟨2, _⟩ => rfl | ⟨3, _⟩ => rfl)
theorem e43 (b : Fin 2) (h : Fin 16) (s : Fin 2048) (d : Fin 128) :
    idx_main_v43 (ix4 b h s d) = ix4 b (0 : Fin 1) s d :=
  funext fun a => Fin.ext (by match a with | ⟨0, _⟩ => rfl | ⟨1, _⟩ => rfl | ⟨2, _⟩ => rfl | ⟨3, _⟩ => rfl)
theorem e35 (b : Fin 2) (z : Fin 1) (s : Fin 2048) (d : Fin 128) :
    idx_main_v35 (ix4 b z s d) = ix3 b s d :=
  funext fun a => Fin.ext (by match a with | ⟨0, _⟩ => rfl | ⟨1, _⟩ => rfl | ⟨2, _⟩ => rfl)
theorem e36 (b : Fin 2) (z : Fin 1) (s : Fin 2048) (d : Fin 128) :
    idx_main_v36 (ix4 b z s d) = ix3 b s d :=
  funext fun a => Fin.ext (by match a with | ⟨0, _⟩ => rfl | ⟨1, _⟩ => rfl | ⟨2, _⟩ => rfl)

/-- The flat query array at column `h * 128 + d` is head `h`'s row at lane `d`. -/
theorem qFlat_col (hs : Fin 2 → Fin 2048 → Fin 2048 → EReal) (wq : Fin 2048 → Fin 2048 → EReal) (qn : Fin 128 → EReal)
    (cs sn : Fin 2 → Fin 2048 → Fin 128 → EReal) (b : Fin 2) (s : Fin 2048) (h : Fin 16) (d : Fin 128) :
    qFlat hs wq qn cs sn b s (colQ h d)
      = rope (rms (fun e => proj hs wq b s (colQ h e)) qn) (cs b s) (sn b s) d := by
  simp only [qFlat, colQ_div, colQ_mod, Fin.eta]

theorem q_stage (b : Fin 2) (h : Fin 16) (s : Fin 2048) (d : Fin 128) :
    val_main_v45 (F := Ideal) x0 x1 x2 x4 x8 (ix4 b h s d) = qArr x0 x4 x1 x2 x8 (ix3 b s (colQ h d)) := by
  rw [val_main_v45_apply, val_main_v38_apply, val_main_v44_apply, q42, val_main_v37_apply, e37, val_main_v35_apply, e35,
    val_main_v43_apply, e43, val_main_v36_apply, e36]
  simp only [q19, Ideal.addf_def, Ideal.mulf_def]
  refine Eq.trans ?_ (qFlat_col (c3 x0) (c2 x4) (c1 x8) (c3 x1) (c3 x2) b s h d).symm
  rfl

/-! ### The keys -/

theorem l2 (b : Fin 2) (s : Fin 2048) (n : Fin 1024) (k : Fin 2048) :
    lidx_main_v2 (ix3 b s n) k = ix3 b s k :=
  funext fun a => Fin.ext (by match a with | ⟨0, _⟩ => rfl | ⟨1, _⟩ => rfl | ⟨2, _⟩ => rfl)
theorem r2 (b : Fin 2) (s : Fin 2048) (n : Fin 1024) (k : Fin 2048) :
    ridx_main_v2 (ix3 b s n) k = ix2 k n :=
  funext fun a => Fin.ext (by match a with | ⟨0, _⟩ => rfl | ⟨1, _⟩ => rfl)
theorem e3 (b : Fin 2) (s : Fin 2048) (g : Fin 8) (d : Fin 128) :
    idx_main_v3 (ix4 b s g d) = ix3 b s (colK g d) :=
  funext fun a => Fin.ext (by
    have := b.isLt; have := g.isLt; have := s.isLt; have := d.isLt
    match a with
    | ⟨0, _⟩ => show (((b.val * 2048 + s.val) * 8 + g.val) * 128 + d.val) / 2097152 = b.val; omega
    | ⟨1, _⟩ => show (((b.val * 2048 + s.val) * 8 + g.val) * 128 + d.val) / 1024 % 2048 = s.val; omega
    | ⟨2, _⟩ => show (((b.val * 2048 + s.val) * 8 + g.val) * 128 + d.val) % 1024 = g.val * 128 + d.val; omega)

/-- The key projection split into groups. -/
theorem k3 (b : Fin 2) (s : Fin 2048) (g : Fin 8) (d : Fin 128) :
    val_main_v3 (F := Ideal) x0 x5 (ix4 b s g d) = proj (c3 x0) (c2 x5) b s (colK g d) := by
  rw [val_main_v3_apply, e3, val_main_v2_apply]
  simp only [l2, r2]
  rfl

theorem e28 (b : Fin 2) (s : Fin 2048) (g : Fin 8) (d : Fin 128) :
    idx_main_v28 (ix4 b s g d) = ix4 b s g (0 : Fin 1) :=
  funext fun a => Fin.ext (by match a with | ⟨0, _⟩ => rfl | ⟨1, _⟩ => rfl | ⟨2, _⟩ => rfl | ⟨3, _⟩ => rfl)
theorem e22 (b : Fin 2) (s : Fin 2048) (g : Fin 8) (z : Fin 1) :
    idx_main_v22 (ix4 b s g z) = ix3 b s g :=
  funext fun a => Fin.ext (by match a with | ⟨0, _⟩ => rfl | ⟨1, _⟩ => rfl | ⟨2, _⟩ => rfl)
theorem e21 (b : Fin 2) (s : Fin 2048) (g : Fin 8) (k : Fin 128) :
    idx_main_v21 (ix3 b s g) k = ix4 b s g k :=
  funext fun a => Fin.ext (by match a with | ⟨0, _⟩ => rfl | ⟨1, _⟩ => rfl | ⟨2, _⟩ => rfl | ⟨3, _⟩ => rfl)
theorem e31 (b : Fin 2) (s : Fin 2048) (g : Fin 8) (d : Fin 128) :
    idx_main_v31 (ix4 b s g d) = ix4 (0 : Fin 1) (0 : Fin 1) (0 : Fin 1) d :=
  funext fun a => Fin.ext (by match a with | ⟨0, _⟩ => rfl | ⟨1, _⟩ => rfl | ⟨2, _⟩ => rfl | ⟨3, _⟩ => rfl)
theorem e30 (z0 z1 z2 : Fin 1) (d : Fin 128) :
    idx_main_v30 (ix4 z0 z1 z2 d) = ix1 d :=
  funext fun a => Fin.ext (by match a with | ⟨0, _⟩ => rfl)

/-- The normalised, weighted key group before the transpose. -/
theorem k32 (b : Fin 2) (s : Fin 2048) (g : Fin 8) (d : Fin 128) :
    val_main_v32 (F := Ideal) x0 x5 x9 (ix4 b s g d)
      = rms (fun e => proj (c3 x0) (c2 x5) b s (colK g e)) (c1 x9) d := by
  rw [val_main_v32_apply, val_main_v29_apply, val_main_v28_apply, e28, val_main_v27_apply, val_main_v26_apply,
    val_main_v24_apply, val_main_v22_apply, e22, val_main_v21_apply, val_main_v23_apply, val_main_v25_apply,
    val_main_v31_apply, e31, val_main_v30_apply, e30, val_main_cst_2_apply, val_main_cst_3_apply, val_main_cst_4_apply]
  simp only [e21, val_main_v20_apply, k3, Ideal.mulf_def, Ideal.addf_def, Ideal.hostDivf_def, Ideal.hostUnary_rsqrt_def,
    Ideal.ofBits_def, Ideal.ofBits_zero_f32, zero_add]
  rfl

theorem e33 (b : Fin 2) (g : Fin 8) (s : Fin 2048) (d : Fin 128) :
    idx_main_v33 (ix4 b g s d) = ix4 b s g d :=
  funext fun a => Fin.ext (by match a with | ⟨0, _⟩ => rfl | ⟨1, _⟩ => rfl | ⟨2, _⟩ => rfl | ⟨3, _⟩ => rfl)

/-- The normalised, weighted key group after the transpose to (batch, group, position, lane). -/
theorem k33 (b : Fin 2) (g : Fin 8) (s : Fin 2048) (d : Fin 128) :
    val_main_v33 (F := Ideal) x0 x5 x9 (ix4 b g s d)
      = rms (fun e => proj (c3 x0) (c2 x5) b s (colK g e)) (c1 x9) d := by
  rw [val_main_v33_apply, e33, k32]

theorem e48 (b : Fin 2) (g : Fin 8) (s : Fin 2048) (e : Fin 64) :
    idx_main_v48 (ix4 b g s e) = ix4 b g s (⟨e.val, by have := e.isLt; omega⟩ : Fin 128) :=
  funext fun a => Fin.ext (by match a with | ⟨0, _⟩ => rfl | ⟨1, _⟩ => rfl | ⟨2, _⟩ => rfl | ⟨3, _⟩ => rfl)
theorem e49 (b : Fin 2) (g : Fin 8) (s : Fin 2048) (e : Fin 64) :
    idx_main_v49 (ix4 b g s e) = ix4 b g s (⟨e.val + 64, by have := e.isLt; omega⟩ : Fin 128) :=
  funext fun a => Fin.ext (by
    match a with
    | ⟨0, _⟩ => rfl
    | ⟨1, _⟩ => rfl
    | ⟨2, _⟩ => rfl
    | ⟨3, _⟩ => show 64 + e.val = e.val + 64; omega)

/-- The keys' joined halves are the rotation partner. -/
theorem k51 (b : Fin 2) (g : Fin 8) (s : Fin 2048) (d : Fin 128) :
    val_main_v51 (F := Ideal) x0 x5 x9 (ix4 b g s d)
      = rot (fun e => val_main_v33 (F := Ideal) x0 x5 x9 (ix4 b g s e)) d := by
  unfold val_main_v51 rot
  by_cases hd : d.val < 64
  · rw [dif_pos hd]
    refine (concatenate_pair_apply_left 3 _ _ concatenates_S2x8x2048x64_S2x8x2048x64_S2x8x2048x128_d3
      (ix4 b g s d) rfl (ix4 b g s (⟨d.val, hd⟩ : Fin 64)) (fun a => by
        match a with | ⟨0, _⟩ => rfl | ⟨1, _⟩ => rfl | ⟨2, _⟩ => rfl | ⟨3, _⟩ => rfl)).trans ?_
    rw [val_main_v50_apply, val_main_v49_apply, e49]
    rfl
  · rw [dif_neg hd]
    have hd' : d.val - 64 < 64 := by have := d.isLt; omega
    refine (concatenate_pair_apply_right 3 _ _ concatenates_S2x8x2048x64_S2x8x2048x64_S2x8x2048x128_d3
      (ix4 b g s d) rfl rfl (ix4 b g s (⟨d.val - 64, hd'⟩ : Fin 64)) (fun a ha => by
        match a with | ⟨0, _⟩ => rfl | ⟨1, _⟩ => rfl | ⟨2, _⟩ => rfl | ⟨3, _⟩ => exact absurd rfl ha) ?_).trans ?_
    · show d.val - 64 + 64 = d.val; omega
    · rw [val_main_v48_apply, e48]

theorem e46 (b : Fin 2) (g : Fin 8) (s : Fin 2048) (d : Fin 128) :
    idx_main_v46 (ix4 b g s d) = ix4 b (0 : Fin 1) s d :=
  funext fun a => Fin.ext (by match a with | ⟨0, _⟩ => rfl | ⟨1, _⟩ => rfl | ⟨2, _⟩ => rfl | ⟨3, _⟩ => rfl)
theorem e52 (b : Fin 2) (g : Fin 8) (s : Fin 2048) (d : Fin 128) :
    idx_main_v52 (ix4 b g s d) = ix4 b (0 : Fin 1) s d :=
  funext fun a => Fin.ext (by match a with | ⟨0, _⟩ => rfl | ⟨1, _⟩ => rfl | ⟨2, _⟩ => rfl | ⟨3, _⟩ => rfl)

/-- The flat key array at column `g * 128 + d` is group `g`'s row at lane `d`. -/
theorem kFlat_col (hs : Fin 2 → Fin 2048 → Fin 2048 → EReal) (wk : Fin 2048 → Fin 1024 → EReal) (kn : Fin 128 → EReal)
    (cs sn : Fin 2 → Fin 2048 → Fin 128 → EReal) (b : Fin 2) (s : Fin 2048) (g : Fin 8) (d : Fin 128) :
    kFlat hs wk kn cs sn b s (colK g d)
      = rope (rms (fun e => proj hs wk b s (colK g e)) kn) (cs b s) (sn b s) d := by
  simp only [kFlat, colK_div, colK_mod, Fin.eta]

/-- The rotated key group (batch, group, position, lane). -/
theorem k54 (b : Fin 2) (g : Fin 8) (s : Fin 2048) (d : Fin 128) :
    val_main_v54 (F := Ideal) x0 x1 x2 x5 x9 (ix4 b g s d) = kArr x0 x5 x1 x2 x9 (ix3 b s (colK g d)) := by
  rw [val_main_v54_apply, val_main_v47_apply, val_main_v53_apply, k51, val_main_v46_apply, e46, val_main_v35_apply, e35,
    val_main_v52_apply, e52, val_main_v36_apply, e36]
  simp only [k33, Ideal.addf_def, Ideal.mulf_def]
  refine Eq.trans ?_ (kFlat_col (c3 x0) (c2 x5) (c1 x9) (c3 x1) (c3 x2) b s g d).symm
  rfl

/-- The repeat's reshape, on the keys: head `h` of sixteen is group `h / 2`, copy `h % 2`. -/
theorem e56 (b : Fin 2) (h : Fin 16) (s : Fin 2048) (d : Fin 128) :
    idx_main_v56 (ix4 b h s d) = ix5 b (kvOf h) (⟨h.val % 2, Nat.mod_lt _ (by decide)⟩ : Fin 2) s d :=
  funext fun a => Fin.ext (by
    have := b.isLt; have := h.isLt; have := s.isLt; have := d.isLt
    match a with
    | ⟨0, _⟩ => show (((b.val * 16 + h.val) * 2048 + s.val) * 128 + d.val) / 4194304 = b.val; omega
    | ⟨1, _⟩ => show (((b.val * 16 + h.val) * 2048 + s.val) * 128 + d.val) / 524288 % 8 = h.val / 2; omega
    | ⟨2, _⟩ => show (((b.val * 16 + h.val) * 2048 + s.val) * 128 + d.val) / 262144 % 2 = h.val % 2; omega
    | ⟨3, _⟩ => show (((b.val * 16 + h.val) * 2048 + s.val) * 128 + d.val) / 128 % 2048 = s.val; omega
    | ⟨4, _⟩ => show (((b.val * 16 + h.val) * 2048 + s.val) * 128 + d.val) % 128 = d.val; omega)
theorem e55 (b : Fin 2) (g : Fin 8) (r : Fin 2) (s : Fin 2048) (d : Fin 128) :
    idx_main_v55 (ix5 b g r s d) = ix4 b g s d :=
  funext fun a => Fin.ext (by match a with | ⟨0, _⟩ => rfl | ⟨1, _⟩ => rfl | ⟨2, _⟩ => rfl | ⟨3, _⟩ => rfl)

theorem k_stage (b : Fin 2) (h : Fin 16) (s : Fin 2048) (d : Fin 128) :
    val_main_v56 (F := Ideal) x0 x1 x2 x5 x9 (ix4 b h s d) = kArr x0 x5 x1 x2 x9 (ix3 b s (colK (kvOf h) d)) := by
  rw [val_main_v56_apply, e56, val_main_v55_apply, e55, k54]

end Cert.ReferenceIdeal.RefValue

end
-- ==== Proof.RefAttn.lean ====
/-
  The reference's softmax and output projection, read index by index on the extended reals: the scaled inner
  product of a query row and a key row plus the mask, the row's maximum folded from minus infinity, the
  exponentials of the differences, their sum, the quotient; then the weights against the values, the heads laid side
  by side along the columns, and the product with the output weight.
-/
import proofs.«420301_j24240795419151_3_alg».proof.Proof.RefQKV
import proofs.«420301_j24240795419151_3_alg».proof.Proof.AttnArrays

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.Attn

/-! ## The scores -/

/-- The query row under entry (b, h, s, j) of the scores, lane k. -/
theorem lidx_v59 (b : Fin 2) (h : Fin 16) (s j : Fin 2048) (k : Fin 128) :
    lidx_main_v59 (ix4 b h s j) k = ix4 b h s k :=
  funext fun a => Fin.ext (by match a with | ⟨0, _⟩ => rfl | ⟨1, _⟩ => rfl | ⟨2, _⟩ => rfl | ⟨3, _⟩ => rfl)

/-- The key row under entry (b, h, s, j) of the scores, lane k. -/
theorem ridx_v59 (b : Fin 2) (h : Fin 16) (s j : Fin 2048) (k : Fin 128) :
    ridx_main_v59 (ix4 b h s j) k = ix4 b h j k :=
  funext fun a => Fin.ext (by match a with | ⟨0, _⟩ => rfl | ⟨1, _⟩ => rfl | ⟨2, _⟩ => rfl | ⟨3, _⟩ => rfl)

/-- The mask's entry under (b, h, s, j): its unit head axis at 0. -/
theorem idx_v62 (b : Fin 2) (h : Fin 16) (s j : Fin 2048) :
    idx_main_v62 (ix4 b h s j) = ix4 b 0 s j :=
  funext fun a => Fin.ext (by match a with | ⟨0, _⟩ => rfl | ⟨1, _⟩ => rfl | ⟨2, _⟩ => rfl | ⟨3, _⟩ => rfl)

/-- The masked, scaled scores are the specification's scores of the specified queries and keys. -/
theorem score_stage (x0 : (⟨S2x2048x2048, .f32⟩ : BufTy).Contents (Elt Ideal)) (x1 x2 : (⟨S2x2048x128, .f32⟩ : BufTy).Contents (Elt Ideal))
    (x3 : (⟨S2x1x2048x2048, .f32⟩ : BufTy).Contents (Elt Ideal)) (x4 : (⟨S2048x2048, .f32⟩ : BufTy).Contents (Elt Ideal))
    (x5 : (⟨S2048x1024, .f32⟩ : BufTy).Contents (Elt Ideal)) (x8 x9 : (⟨S128, .f32⟩ : BufTy).Contents (Elt Ideal))
    (b : Fin 2) (h : Fin 16) (s j : Fin 2048) :
    val_main_v63 (F := Ideal) x0 x1 x2 x3 x4 x5 x8 x9 (ix4 b h s j)
      = score (c3 (qArr x0 x4 x1 x2 x8)) (c3 (kArr x0 x5 x1 x2 x9)) (cMask x3) b h s j := by
  rw [val_main_v63_apply, val_main_v61_apply, val_main_v59_apply, val_main_v60_apply, val_main_cst_5_apply, val_main_v62_apply]
  simp only [lidx_v59, ridx_v59, idx_v62, q_stage, k_stage, Ideal.addf_def, Ideal.mulf_def, Ideal.ofBits_def]
  rfl

/-! ## The row maximum -/

/-- The scores' row (b, h, s) with key k put back is entry (b, h, s, k). -/
theorem lift_v64 (hr : S2x16x2048x2048.Reduces [3] S2x16x2048) (b : Fin 2) (h : Fin 16) (s : Fin 2048)
    (k : Fin (S2x16x2048x2048.size 3)) : hr.lift (ix3 b h s) k = ix4 b h s (⟨k.val, k.isLt⟩ : Fin 2048) := by
  funext c; apply Fin.ext
  fin_cases c <;> rfl

/-- Minus infinity is the maximum's unit. -/
theorem max_negInf (y : EReal) : max (Ideal.ofBits .f32 0xFF800000#32) y = y := by
  simp [Ideal.ofBits, Ideal.ieee]

/-- The reduce with a maximum body from minus infinity is the row's maximum. -/
theorem rowmax_stage (x0 : (⟨S2x2048x2048, .f32⟩ : BufTy).Contents (Elt Ideal)) (x1 x2 : (⟨S2x2048x128, .f32⟩ : BufTy).Contents (Elt Ideal))
    (x3 : (⟨S2x1x2048x2048, .f32⟩ : BufTy).Contents (Elt Ideal)) (x4 : (⟨S2048x2048, .f32⟩ : BufTy).Contents (Elt Ideal))
    (x5 : (⟨S2048x1024, .f32⟩ : BufTy).Contents (Elt Ideal)) (x8 x9 : (⟨S128, .f32⟩ : BufTy).Contents (Elt Ideal))
    (b : Fin 2) (h : Fin 16) (s : Fin 2048) :
    val_main_v64 (F := Ideal) x0 x1 x2 x3 x4 x5 x8 x9 (ix3 b h s)
      = rowMax (score (c3 (qArr x0 x4 x1 x2 x8)) (c3 (kArr x0 x5 x1 x2 x9)) (cMask x3) b h s) := by
  have hr : S2x16x2048x2048.Reduces [3] S2x16x2048 := by decide
  unfold val_main_v64
  rw [Host.reduce_eq_fold_single FloatOps.maximumf _ _ reducesTo_S2x16x2048x2048_S2x16x2048_d3 hr h_S_, val_main_cst_6_apply]
  have hf : (val_main_v63 (F := Ideal) x0 x1 x2 x3 x4 x5 x8 x9 ∘ hr.lift (ix3 b h s))
      = fun k : Fin 2048 => score (c3 (qArr x0 x4 x1 x2 x8)) (c3 (kArr x0 x5 x1 x2 x9)) (cMask x3) b h s k :=
    funext fun k => (congrArg _ (lift_v64 hr b h s k)).trans (score_stage x0 x1 x2 x3 x4 x5 x8 x9 b h s ⟨k.val, k.isLt⟩)
  have hbot : (Ideal.ofBits .f32 0xFF800000#32 : EReal) = ⊥ := by simp [Ideal.ofBits, Ideal.ieee]
  unfold rowMax
  rw [← hbot]
  exact congrArg (fun f => Finset.fold max (Ideal.ofBits .f32 0xFF800000#32) f (Finset.univ : Finset (Fin 2048))) hf

/-! ## The exponentials, their sum and the quotient -/

/-- The row of an entry (b, h, s, j), through the two broadcasts of a per-row value. -/
theorem idx_v67_v68 (b : Fin 2) (h : Fin 16) (s j : Fin 2048) :
    idx_main_v67 (idx_main_v68 (ix4 b h s j)) = ix3 b h s :=
  funext fun a => Fin.ext (by match a with | ⟨0, _⟩ => rfl | ⟨1, _⟩ => rfl | ⟨2, _⟩ => rfl)

/-- The same for the second per-row value, the sum. -/
theorem idx_v72_v73 (b : Fin 2) (h : Fin 16) (s j : Fin 2048) :
    idx_main_v72 (idx_main_v73 (ix4 b h s j)) = ix3 b h s :=
  funext fun a => Fin.ext (by match a with | ⟨0, _⟩ => rfl | ⟨1, _⟩ => rfl | ⟨2, _⟩ => rfl)

/-- Term k of the sum over row (b, h, s). -/
theorem idx_v71 (b : Fin 2) (h : Fin 16) (s k : Fin 2048) :
    idx_main_v71 (ix3 b h s) k = ix4 b h s k :=
  funext fun a => Fin.ext (by match a with | ⟨0, _⟩ => rfl | ⟨1, _⟩ => rfl | ⟨2, _⟩ => rfl | ⟨3, _⟩ => rfl)

/-- The exponential of a score less its row's maximum; the maximum with minus infinity changes nothing. -/
theorem pexp_stage (x0 : (⟨S2x2048x2048, .f32⟩ : BufTy).Contents (Elt Ideal)) (x1 x2 : (⟨S2x2048x128, .f32⟩ : BufTy).Contents (Elt Ideal))
    (x3 : (⟨S2x1x2048x2048, .f32⟩ : BufTy).Contents (Elt Ideal)) (x4 : (⟨S2048x2048, .f32⟩ : BufTy).Contents (Elt Ideal))
    (x5 : (⟨S2048x1024, .f32⟩ : BufTy).Contents (Elt Ideal)) (x8 x9 : (⟨S128, .f32⟩ : BufTy).Contents (Elt Ideal))
    (b : Fin 2) (h : Fin 16) (s j : Fin 2048) :
    val_main_v70 (F := Ideal) x0 x1 x2 x3 x4 x5 x8 x9 (ix4 b h s j)
      = pexp (score (c3 (qArr x0 x4 x1 x2 x8)) (c3 (kArr x0 x5 x1 x2 x9)) (cMask x3) b h s) j := by
  rw [val_main_v70_apply, val_main_v69_apply, val_main_v68_apply, val_main_v67_apply, idx_v67_v68, val_main_v66_apply,
    val_main_v65_apply, val_main_cst_7_apply, rowmax_stage, score_stage]
  simp only [Ideal.hostUnary_exp_def, Ideal.subf_def, Ideal.maximumf_def, Ideal.ofBits_def, max_negInf]
  rfl

/-- The sum of a row's exponentials, from zero. -/
theorem psum_stage (x0 : (⟨S2x2048x2048, .f32⟩ : BufTy).Contents (Elt Ideal)) (x1 x2 : (⟨S2x2048x128, .f32⟩ : BufTy).Contents (Elt Ideal))
    (x3 : (⟨S2x1x2048x2048, .f32⟩ : BufTy).Contents (Elt Ideal)) (x4 : (⟨S2048x2048, .f32⟩ : BufTy).Contents (Elt Ideal))
    (x5 : (⟨S2048x1024, .f32⟩ : BufTy).Contents (Elt Ideal)) (x8 x9 : (⟨S128, .f32⟩ : BufTy).Contents (Elt Ideal))
    (b : Fin 2) (h : Fin 16) (s : Fin 2048) :
    val_main_v71 (F := Ideal) x0 x1 x2 x3 x4 x5 x8 x9 (ix3 b h s)
      = psum (score (c3 (qArr x0 x4 x1 x2 x8)) (c3 (kArr x0 x5 x1 x2 x9)) (cMask x3) b h s) := by
  rw [val_main_v71_apply, val_main_cst_8_apply]
  simp only [idx_v71, pexp_stage, Ideal.ofBits_def, Ideal.ofBits_zero_f32, zero_add]
  rfl

/-- The attention weight: the exponential divided by its row's sum. -/
theorem aw_stage (x0 : (⟨S2x2048x2048, .f32⟩ : BufTy).Contents (Elt Ideal)) (x1 x2 : (⟨S2x2048x128, .f32⟩ : BufTy).Contents (Elt Ideal))
    (x3 : (⟨S2x1x2048x2048, .f32⟩ : BufTy).Contents (Elt Ideal)) (x4 : (⟨S2048x2048, .f32⟩ : BufTy).Contents (Elt Ideal))
    (x5 : (⟨S2048x1024, .f32⟩ : BufTy).Contents (Elt Ideal)) (x8 x9 : (⟨S128, .f32⟩ : BufTy).Contents (Elt Ideal))
    (b : Fin 2) (h : Fin 16) (s j : Fin 2048) :
    val_main_v74 (F := Ideal) x0 x1 x2 x3 x4 x5 x8 x9 (ix4 b h s j)
      = awDiv (c3 (qArr x0 x4 x1 x2 x8)) (c3 (kArr x0 x5 x1 x2 x9)) (cMask x3) b h s j := by
  rw [val_main_v74_apply, val_main_v73_apply, val_main_v72_apply, idx_v72_v73, psum_stage, pexp_stage]
  simp only [Ideal.hostDivf_def]
  rfl

/-- The reference's attention weights are the quotient-spelling softmax of the scores of the specified queries and keys. -/
theorem res_aw (m : (ℓ : Loc nD τ sig) → Buf (Elt Ideal) ℓ) (c : Dev nD) :
    Cert.ReferenceIdeal.Value.res_main_v74 (F := Ideal) m c
      = awDivArr
          (qArr (m ((c.tc : Thread nD τ).loc main_arg0)) (m ((c.tc : Thread nD τ).loc main_arg4)) (m ((c.tc : Thread nD τ).loc main_arg1)) (m ((c.tc : Thread nD τ).loc main_arg2)) (m ((c.tc : Thread nD τ).loc main_arg8)))
          (kArr (m ((c.tc : Thread nD τ).loc main_arg0)) (m ((c.tc : Thread nD τ).loc main_arg5)) (m ((c.tc : Thread nD τ).loc main_arg1)) (m ((c.tc : Thread nD τ).loc main_arg2)) (m ((c.tc : Thread nD τ).loc main_arg9)))
          (m ((c.tc : Thread nD τ).loc main_arg3)) := by
  rw [val_main_v74_eq]
  funext i
  obtain ⟨b, h, s, j, rfl⟩ : ∃ (b : Fin 2) (h : Fin 16) (s j : Fin 2048), i = ix4 b h s j := ⟨i 0, i 1, i 2, i 3, eq_ix4 i⟩
  exact aw_stage _ _ _ _ _ _ _ _ b h s j

/-! ## The weighted values and the output projection -/

/-- The weight under entry (b, h, s, d) of the weighted values, key k. -/
theorem lidx_v75 (b : Fin 2) (h : Fin 16) (s : Fin 2048) (d : Fin 128) (k : Fin 2048) :
    lidx_main_v75 (ix4 b h s d) k = ix4 b h s k :=
  funext fun a => Fin.ext (by match a with | ⟨0, _⟩ => rfl | ⟨1, _⟩ => rfl | ⟨2, _⟩ => rfl | ⟨3, _⟩ => rfl)

/-- The value under entry (b, h, s, d) of the weighted values, key k. -/
theorem ridx_v75 (b : Fin 2) (h : Fin 16) (s : Fin 2048) (d : Fin 128) (k : Fin 2048) :
    ridx_main_v75 (ix4 b h s d) k = ix4 b h k d :=
  funext fun a => Fin.ext (by match a with | ⟨0, _⟩ => rfl | ⟨1, _⟩ => rfl | ⟨2, _⟩ => rfl | ⟨3, _⟩ => rfl)

/-- One head's weighted values: the weights of row (b, h, s) against lane d of the head's value group. -/
theorem headout_stage (x0 : (⟨S2x2048x2048, .f32⟩ : BufTy).Contents (Elt Ideal)) (x1 x2 : (⟨S2x2048x128, .f32⟩ : BufTy).Contents (Elt Ideal))
    (x3 : (⟨S2x1x2048x2048, .f32⟩ : BufTy).Contents (Elt Ideal)) (x4 : (⟨S2048x2048, .f32⟩ : BufTy).Contents (Elt Ideal))
    (x5 x6 : (⟨S2048x1024, .f32⟩ : BufTy).Contents (Elt Ideal)) (x8 x9 : (⟨S128, .f32⟩ : BufTy).Contents (Elt Ideal))
    (b : Fin 2) (h : Fin 16) (s : Fin 2048) (d : Fin 128) :
    val_main_v75 (F := Ideal) x0 x1 x2 x3 x4 x5 x6 x8 x9 (ix4 b h s d)
      = headOut (awDiv (c3 (qArr x0 x4 x1 x2 x8)) (c3 (kArr x0 x5 x1 x2 x9)) (cMask x3)) (c3 (vArr x0 x6)) b h s d := by
  rw [val_main_v75_apply]
  simp only [lidx_v75, ridx_v75, aw_stage, v_stage]
  rfl

/-- Column x of the heads laid side by side is lane x % 128 of head x / 128: the flat position of (b, s, x) in
    [2, 2048, 2048] read in [2, 2048, 16, 128], then the head and position axes exchanged. -/
theorem idx_v76_v77 (b : Fin 2) (s x : Fin 2048) :
    idx_main_v76 (idx_main_v77 (ix3 b s x))
      = ix4 b (⟨x.val / 128, by have := x.isLt; omega⟩ : Fin 16) s (⟨x.val % 128, Nat.mod_lt _ (by decide)⟩ : Fin 128) := by
  have hb := b.isLt
  have hs := s.isLt
  have hx := x.isLt
  refine funext fun a => Fin.ext ?_
  match a with
  | ⟨0, _⟩ => show ((b.val * 2048 + s.val) * 2048 + x.val) / 4194304 = b.val; omega
  | ⟨1, _⟩ => show ((b.val * 2048 + s.val) * 2048 + x.val) / 128 % 16 = x.val / 128; omega
  | ⟨2, _⟩ => show ((b.val * 2048 + s.val) * 2048 + x.val) / 2048 % 2048 = s.val; omega
  | ⟨3, _⟩ => show ((b.val * 2048 + s.val) * 2048 + x.val) % 128 = x.val % 128; omega

/-- The concatenated heads' row under entry (b, s, n) of the output, column k. -/
theorem lidx_v78 (b : Fin 2) (s n k : Fin 2048) : lidx_main_v78 (ix3 b s n) k = ix3 b s k :=
  funext fun a => Fin.ext (by match a with | ⟨0, _⟩ => rfl | ⟨1, _⟩ => rfl | ⟨2, _⟩ => rfl)

/-- The output weight's entry under (b, s, n), row k. -/
theorem ridx_v78 (b : Fin 2) (s n k : Fin 2048) : ridx_main_v78 (ix3 b s n) k = ix2 k n :=
  funext fun a => Fin.ext (by match a with | ⟨0, _⟩ => rfl | ⟨1, _⟩ => rfl)

/-- The output: one sum over the 2048 columns of the concatenated heads against the output weight. -/
theorem out_stage (x0 : (⟨S2x2048x2048, .f32⟩ : BufTy).Contents (Elt Ideal)) (x1 x2 : (⟨S2x2048x128, .f32⟩ : BufTy).Contents (Elt Ideal))
    (x3 : (⟨S2x1x2048x2048, .f32⟩ : BufTy).Contents (Elt Ideal)) (x4 : (⟨S2048x2048, .f32⟩ : BufTy).Contents (Elt Ideal))
    (x5 x6 : (⟨S2048x1024, .f32⟩ : BufTy).Contents (Elt Ideal)) (x7 : (⟨S2048x2048, .f32⟩ : BufTy).Contents (Elt Ideal))
    (x8 x9 : (⟨S128, .f32⟩ : BufTy).Contents (Elt Ideal))
    (b : Fin 2) (s n : Fin 2048) :
    val_main_v78 (F := Ideal) x0 x1 x2 x3 x4 x5 x6 x7 x8 x9 (ix3 b s n)
      = outSum (c3 (qArr x0 x4 x1 x2 x8)) (c3 (kArr x0 x5 x1 x2 x9)) (c3 (vArr x0 x6)) (cMask x3) (c2 x7) b s n := by
  rw [val_main_v78_apply]
  simp only [lidx_v78, ridx_v78, val_main_v77_apply, val_main_v76_apply, idx_v76_v77, headout_stage]
  rfl

/-- The reference's output is the one-sum output projection of the weighted values of the specified arrays. -/
theorem res_out (m : (ℓ : Loc nD τ sig) → Buf (Elt Ideal) ℓ) (c : Dev nD) :
    Cert.ReferenceIdeal.Value.res_main_v78 (F := Ideal) m c
      = outSumArr
          (qArr (m ((c.tc : Thread nD τ).loc main_arg0)) (m ((c.tc : Thread nD τ).loc main_arg4)) (m ((c.tc : Thread nD τ).loc main_arg1)) (m ((c.tc : Thread nD τ).loc main_arg2)) (m ((c.tc : Thread nD τ).loc main_arg8)))
          (kArr (m ((c.tc : Thread nD τ).loc main_arg0)) (m ((c.tc : Thread nD τ).loc main_arg5)) (m ((c.tc : Thread nD τ).loc main_arg1)) (m ((c.tc : Thread nD τ).loc main_arg2)) (m ((c.tc : Thread nD τ).loc main_arg9)))
          (vArr (m ((c.tc : Thread nD τ).loc main_arg0)) (m ((c.tc : Thread nD τ).loc main_arg6)))
          (m ((c.tc : Thread nD τ).loc main_arg3))
          (m ((c.tc : Thread nD τ).loc main_arg7)) := by
  rw [val_main_v78_eq]
  funext i
  obtain ⟨b, s, n, rfl⟩ : ∃ (b : Fin 2) (s n : Fin 2048), i = ix3 b s n := ⟨i 0, i 1, i 2, eq_ix3 i⟩
  exact out_stage _ _ _ _ _ _ _ _ _ _ b s n

end Cert.ReferenceIdeal.RefValue

end
-- ==== Proof.FiniteArgs.lean ====
/-
  The precondition's conjunction of "every entry has absolute value below plus infinity", one conjunct per argument
  array, says that every entry of every argument array is a real number.
-/
import proofs.«420301_j24240795419151_3_alg».proof.Pre_finite_inputs
import proofs.«420301_j24240795419151_3_alg».proof.Proof.Gen.Pre_finite_inputs
import Idealize.ShloMosaic.Lib.ReduceAll
import proofs.«420301_j24240795419151_3_alg».proof.Proof.AttnLaws

noncomputable section

namespace Cert.Attn

open Idealize.ShloMosaic Idealize.ShloMosaic.ValueIdx Cert.LibERealSage Cert.Pre_finite_inputs

/-- An extended real whose absolute value, the larger of itself and its negative, is below plus infinity is a real
    number: plus infinity is its own absolute value, and minus infinity's negative is plus infinity. -/
theorem isReal_of_abs_lt_top (x : EReal) (h : max x (-x) < ⊤) : IsReal x := by
  induction x using EReal.rec with
  | bot => simp at h
  | coe r => exact ⟨r, rfl⟩
  | top => simp at h

/-- A one-bit word made from a truth value is 1 exactly when the value is true. -/
theorem ofBool_eq_one_iff (b : Bool) : BitVec.ofBool b = 1#1 ↔ b = true := by cases b <;> decide

/-- One conjunct: when the conjunction over all entries of "the absolute value is below the word of plus infinity"
    holds, every entry is a real number. -/
theorem realArr_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ix0 = 1#1) : RealArr a := by
  haveI : Subsingleton S_.Idx := ⟨fun a b => funext fun d => d.elim0⟩
  intro i
  have hi := Host.reduce_andi_all _ _ hr hu ix0 e i
  change BitVec.ofBool (decide (max (a i) (-(a i)) < Ideal.ofBits .f32 0x7F800000#32)) = 1#1 at hi
  have htop : Ideal.ofBits .f32 0x7F800000#32 = (⊤ : EReal) := by simp [Ideal.ofBits, Ideal.ieee]
  rw [htop, ofBool_eq_one_iff, decide_eq_true_eq] at hi
  exact isReal_of_abs_lt_top _ hi

theorem real_of_pre [Cert.Pre_finite_inputs.Facts]
    (a0 : FVec Ideal S2x2048x2048 .f32) (a1 a2 : FVec Ideal S2x2048x128 .f32) (a3 : FVec Ideal S2x1x2048x2048 .f32)
    (a4 : FVec Ideal S2048x2048 .f32) (a5 a6 : FVec Ideal S2048x1024 .f32) (a7 : FVec Ideal S2048x2048 .f32)
    (a8 a9 : FVec Ideal S128 .f32)
    (h : Cert.Pre_finite_inputs.fn (F := Ideal) a0 a1 a2 a3 a4 a5 a6 a7 a8 a9 = fun _ => 1#1) :
    RealArr a0 ∧ RealArr a1 ∧ RealArr a2 ∧ RealArr a3 ∧ RealArr a4 ∧ RealArr a5 ∧ RealArr a6 ∧ RealArr a7
      ∧ RealArr a8 ∧ RealArr a9 := by
  have e := congrFun h ix0
  dsimp only [Cert.Pre_finite_inputs.fn, Cert.Pre_finite_inputs.fn_part1, Cert.Pre_finite_inputs.fn_part2] at e
  simp only [andi, IntOp.andi_eq_one] at e
  obtain ⟨⟨⟨⟨⟨⟨⟨⟨⟨h0, h1⟩, h2⟩, h3⟩, h4⟩, h5⟩, h6⟩, h7⟩, h8⟩, h9⟩ := e
  exact ⟨realArr_of_all a0 _ _ _ h0, realArr_of_all a1 _ _ _ h1, realArr_of_all a2 _ _ _ h2, realArr_of_all a3 _ _ _ h3,
    realArr_of_all a4 _ _ _ h4, realArr_of_all a5 _ _ _ h5, realArr_of_all a6 _ _ _ h6, realArr_of_all a7 _ _ _ h7,
    realArr_of_all a8 _ _ _ h8, realArr_of_all a9 _ _ _ h9⟩

end Cert.Attn

end
-- ==== Proof.lean ====
/-
  A grouped-query attention layer — three projections, per-head root-mean-square normalisation, rotary embedding,
  masked exact softmax, weighted values, output projection — computed by two tiled regions (the projections; then,
  head by head, the softmax and an output projection accumulated over the sixteen heads) against the plain
  reference. On the extended reals both compute the same functions of the arguments, up to two spellings: the kernel
  multiplies each exponential by the reciprocal of its row's sum where the reference divides by the sum, and the kernel
  adds the output projection up head by head where the reference takes one sum over all columns. The first pair agrees
  because the precondition makes every argument entry a real number: every score is then real, its row's maximum is
  attained, one exponential is 1, and the sum is not zero. The second is one finite sum regrouped.

  The three frames are runs: of each kernel program through its casts and its two regions, every argument array
  untouched by each; of the reference as a line of host operations. The idealization rewrote nothing.
-/
import proofs.«420301_j24240795419151_3_alg».proof.Defs
import proofs.«420301_j24240795419151_3_alg».proof.Proof.Gen.Kernel
import proofs.«420301_j24240795419151_3_alg».proof.Proof.Gen.KernelIdeal
import proofs.«420301_j24240795419151_3_alg».proof.Proof.Gen.ReferenceIdeal
import proofs.«420301_j24240795419151_3_alg».proof.Proof.Gen.Pre_finite_inputs
import proofs.«420301_j24240795419151_3_alg».proof.Proof.Gen.ReferenceIdeal.Run
import proofs.«420301_j24240795419151_3_alg».proof.Proof.Gen.ReferenceIdeal.Read
import proofs.«420301_j24240795419151_3_alg».proof.Proof.AttnRunBits
import proofs.«420301_j24240795419151_3_alg».proof.Proof.AttnJoin
import proofs.«420301_j24240795419151_3_alg».proof.Proof.RefAttn
import proofs.«420301_j24240795419151_3_alg».proof.Proof.FiniteArgs
import Idealize.ShloMosaic.Adequacy
import Idealize.ShloMosaic.Init

noncomputable section

namespace Cert.Proof

open Idealize.ShloMosaic Idealize.SL.Sem Cert.Attn

/-- The word-level kernel runs and leaves its arguments alone. -/
theorem frame_k : Cert.frame_Kernel := fun m ρ _ =>
  (θ_run Cert.Kernel.defs _ _).mono (fun _ h c => (h c).2.2) (Cert.Kernel.Run.run_all (F := Bits) m ρ)

/-- The idealized kernel runs and leaves its arguments alone. -/
theorem frame_ki : Cert.frame_KernelIdeal := fun m ρ _ =>
  (θ_run Cert.KernelIdeal.defs _ _).mono (fun _ h c => (h c).2.2) (Cert.KernelIdeal.Run.run_all (F := Ideal) m ρ)

/-- The reference runs and leaves its arguments alone. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the output at the one sum over quotient-spelling weights, and the attention weights in the
    quotient spelling, of the arguments: the reference by reading its operations, the kernel by its blocks, the two
    laws, and the reality of every argument entry. -/
theorem algebraic : Cert.algebraic_KernelIdeal_ReferenceIdeal := by
  intro m ρ m' ρ' hpre hagree
  refine ⟨fun c => outSumArr (qArr (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg8))) (kArr (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg9))) (vArr (m ((c.tc : Thread Cert.KernelIdeal.nD Cert.KernelIdeal.τ).loc Cert.KernelIdeal.main_arg0)) (m ((c.tc : Thread Cert.KernelIdeal.nD Cert.KernelIdeal.τ).loc Cert.KernelIdeal.main_arg6))) (m ((c.tc : Thread Cert.KernelIdeal.nD Cert.KernelIdeal.τ).loc Cert.KernelIdeal.main_arg3)) (m ((c.tc : Thread Cert.KernelIdeal.nD Cert.KernelIdeal.τ).loc Cert.KernelIdeal.main_arg7)),
    fun c => awDivArr (qArr (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg8))) (kArr (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg9))) (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2.1.trans ?_, (h c).2.2⟩)
      (Cert.KernelIdeal.Run.run_all (F := Ideal) m ρ)
    · obtain ⟨h0, h1, h2, h3, h4, h5, h6, h7, h8, h9⟩ := real_of_pre _ _ _ _ _ _ _ _ _ _ (hpre c)
      exact (Cert.KernelIdeal.Join.out_acc m ρ c).trans (out_eq _ _ _ _ _ _ _ _ _ _ h0 h4 h5 h1 h2 h3 h8 h9)
    · obtain ⟨h0, h1, h2, h3, h4, h5, h6, h7, h8, h9⟩ := real_of_pre _ _ _ _ _ _ _ _ _ _ (hpre c)
      exact (Cert.KernelIdeal.Join.aw_mul m ρ c).trans (aw_eq _ _ _ _ _ _ _ _ h0 h4 h5 h1 h2 h3 h8 h9)
  · refine (θ_run Cert.ReferenceIdeal.defs _ _).mono (fun _ h c => ⟨(h c).1.trans ?_, (h c).2.1.trans ?_, (h c).2.2⟩)
      (Cert.ReferenceIdeal.Value.run (F := Ideal) m' ρ')
    · rw [Cert.ReferenceIdeal.RefValue.res_out m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
    · rw [Cert.ReferenceIdeal.RefValue.res_aw m' c, (hagree c).1, (hagree c).2.1, (hagree c).2.2.1, (hagree c).2.2.2.1, (hagree c).2.2.2.2.1, (hagree c).2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
